-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128000 : Shape := ⟨2, ![256, 128000]⟩
abbrev S256 : Shape := ⟨1, ![256]⟩
abbrev S256x200 : Shape := ⟨2, ![256, 200]⟩
abbrev S_ : Shape := ⟨0, ![]⟩

class Facts : Prop where
  bcast_S_S256x128000 : S_.BroadcastsInDim S256x128000 (![] : Fin 0 → Fin S256x128000.rank)
  reducesTo_S256x128000_S_d0_1 : S256x128000.ReducesTo [0, 1] S_
  h_S_ : 0 < S_.numel
  bcast_S_S256x200 : S_.BroadcastsInDim S256x200 (![] : Fin 0 → Fin S256x200.rank)
  reducesTo_S256x200_S_d0_1 : S256x200.ReducesTo [0, 1] S_

variable [Facts]

def fn {F : FTy → Type} [FloatOps F] (main_arg0 : FVec F S256x128000 .f32) (main_arg1 : IVec S256 32) (main_arg2 : IVec S256x200 32) : IVec S_ 1 :=
  let main_v0 : FVec F S256x128000 .f32 := Host.absf main_arg0
  let main_cst : FVec F S_ .f32 := constant S_ .f32 0x7F800000#32
  let main_v1 : FVec F S256x128000 .f32 := broadcastInDim S256x128000 ![] bcast_S_S256x128000 main_cst
  let main_v2 : IVec S256x128000 1 := cmpf .olt main_v0 main_v1
  let main_c : IVec S_ 1 := constantI S_ 1 1#1
  let main_v3 : IVec S_ 1 := (fun x v => Host.reduce IntOp.andi x v reducesTo_S256x128000_S_d0_1 h_S_) main_v2 main_c
  let main_c_0 : IVec S_ 32 := constantI S_ 32 0#32
  let main_v4 : IVec S256x200 32 := broadcastInDim S256x200 ![] bcast_S_S256x200 main_c_0
  let main_v5 : IVec S256x200 1 := cmpi .sge main_arg2 main_v4
  let main_c_1 : IVec S_ 32 := constantI S_ 32 128000#32
  let main_v6 : IVec S256x200 32 := broadcastInDim S256x200 ![] bcast_S_S256x200 main_c_1
  let main_v7 : IVec S256x200 1 := cmpi .slt main_arg2 main_v6
  let main_v8 : IVec S256x200 1 := andi main_v5 main_v7
  let main_c_2 : IVec S_ 1 := constantI S_ 1 1#1
  let main_v9 : IVec S_ 1 := (fun x v => Host.reduce IntOp.andi x v reducesTo_S256x200_S_d0_1 h_S_) main_v8 main_c_2
  let main_v10 : IVec S_ 1 := andi main_v3 main_v9
  main_v10
-- ==== Kernel.lean ====
abbrev S256x128000 : Shape := ⟨2, ![256, 128000]⟩
abbrev S256 : Shape := ⟨1, ![256]⟩
abbrev S256x200 : Shape := ⟨2, ![256, 200]⟩
abbrev S_ : Shape := ⟨0, ![]⟩
abbrev S256x1 : Shape := ⟨2, ![256, 1]⟩
abbrev S256x2 : Shape := ⟨2, ![256, 2]⟩
abbrev S256x200x1 : Shape := ⟨3, ![256, 200, 1]⟩
abbrev S1 : Shape := ⟨1, ![1]⟩
abbrev S1x1x1 : Shape := ⟨3, ![1, 1, 1]⟩
abbrev S200 : Shape := ⟨1, ![200]⟩
abbrev S1x200 : Shape := ⟨2, ![1, 200]⟩
abbrev S200x1 : Shape := ⟨2, ![200, 1]⟩
abbrev S200x200 : Shape := ⟨2, ![200, 200]⟩
abbrev S256x1x200 : Shape := ⟨3, ![256, 1, 200]⟩
abbrev S256x200x200 : Shape := ⟨3, ![256, 200, 200]⟩
abbrev S1x200x200 : Shape := ⟨3, ![1, 200, 200]⟩
abbrev S128x16000 : Shape := ⟨2, ![128, 16000]⟩
abbrev S128x1 : Shape := ⟨2, ![128, 1]⟩
abbrev S128x3200 : Shape := ⟨2, ![128, 3200]⟩
abbrev S128 : Shape := ⟨1, ![128]⟩
abbrev S13 : Shape := ⟨1, ![13]⟩

abbrev nBuf : Space → Nat
  | .hbm => 238
  | .vmem => 8
  | .smem => 0
  | _ => 0

abbrev hbmTy0_0 (i : Nat) : BufTy := match i % 128 with
  | 0 => ⟨S256x128000, .f32⟩
  | 1 => ⟨S256, .i32⟩
  | 2 => ⟨S256x200, .i32⟩
  | 3 => ⟨S256, .i32⟩
  | 4 => ⟨S_, .i32⟩
  | 5 => ⟨S256, .i32⟩
  | 6 => ⟨S256, .i1⟩
  | 7 => ⟨S_, .i32⟩
  | 8 => ⟨S256, .i32⟩
  | 9 => ⟨S256, .i32⟩
  | 10 => ⟨S256, .i32⟩
  | 11 => ⟨S_, .i32⟩
  | 12 => ⟨S256, .i32⟩
  | 13 => ⟨S256, .i1⟩
  | 14 => ⟨S_, .i32⟩
  | 15 => ⟨S256, .i32⟩
  | 16 => ⟨S256, .i32⟩
  | 17 => ⟨S256, .i32⟩
  | 18 => ⟨S256x1, .i32⟩
  | 19 => ⟨S256x1, .i32⟩
  | 20 => ⟨S256x2, .i32⟩
  | 21 => ⟨S256, .f32⟩
  | 22 => ⟨S_, .i32⟩
  | 23 => ⟨S256x200, .i32⟩
  | 24 => ⟨S256x200, .i1⟩
  | 25 => ⟨S_, .i32⟩
  | 26 => ⟨S256x200, .i32⟩
  | 27 => ⟨S256x200, .i32⟩
  | 28 => ⟨S256x200, .i32⟩
  | 29 => ⟨S256x200x1, .i32⟩
  | 30 => ⟨S1, .i32⟩
  | 31 => ⟨S_, .i32⟩
  | 32 => ⟨S256x200x1, .i32⟩
  | 33 => ⟨S256x200x1, .i1⟩
  | 34 => ⟨S1x1x1, .i32⟩
  | 35 => ⟨S256x200x1, .i32⟩
  | 36 => ⟨S256x200x1, .i1⟩
  | 37 => ⟨S256x200x1, .i1⟩
  | 38 => ⟨S_, .i1⟩
  | 39 => ⟨S256x200, .i1⟩
  | 40 => ⟨S256x200, .f32⟩
  | 41 => ⟨S_, .f32⟩
  | 42 => ⟨S256x200, .f32⟩
  | 43 => ⟨S256x200, .f32⟩
  | 44 => ⟨S200, .i32⟩
  | 45 => ⟨S1x200, .i32⟩
  | 46 => ⟨S200x1, .i32⟩
  | 47 => ⟨S200x200, .i32⟩
  | 48 => ⟨S200x200, .i32⟩
  | 49 => ⟨S200x200, .i1⟩
  | 50 => ⟨S256x200x1, .i32⟩
  | 51 => ⟨S256x1x200, .i32⟩
  | 52 => ⟨S256x200x200, .i32⟩
  | 53 => ⟨S256x200x200, .i32⟩
  | 54 => ⟨S256x200x200, .i1⟩
  | 55 => ⟨S1x200x200, .i1⟩
  | 56 => ⟨S256x200x200, .i1⟩
  | 57 => ⟨S256x200x200, .i1⟩
  | 58 => ⟨S_, .i1⟩
  | 59 => ⟨S256x200, .i1⟩
  | 60 => ⟨S256x200, .i1⟩
  | 61 => ⟨S256x200, .f32⟩
  | 62 => ⟨S_, .f32⟩
  | 63 => ⟨S256, .f32⟩
  | 64 => ⟨S256x1, .f32⟩
  | 65 => ⟨S256x200, .f32⟩
  | 66 => ⟨S256x200, .i1⟩
  | 67 => ⟨S256x200, .i1⟩
  | 68 => ⟨S256x200, .f32⟩
  | 69 => ⟨S_, .f32⟩
  | 70 => ⟨S256, .f32⟩
  | 71 => ⟨S_, .f32⟩
  | 72 => ⟨S256x200, .f32⟩
  | 73 => ⟨S256x200, .i1⟩
  | 74 => ⟨S256x200, .f32⟩
  | 75 => ⟨S_, .f32⟩
  | 76 => ⟨S_, .f32⟩
  | 77 => ⟨S256x200, .f32⟩
  | 78 => ⟨S256x200, .f32⟩
  | 79 => ⟨S_, .f32⟩
  | 80 => ⟨S256, .f32⟩
  | 81 => ⟨S256x1, .f32⟩
  | 82 => ⟨S256x1, .f32⟩
  | 83 => ⟨S256x1, .f32⟩
  | 84 => ⟨S256, .f32⟩
  | 85 => ⟨S256, .f32⟩
  | 86 => ⟨S256, .f32⟩
  | 87 => ⟨S_, .f32⟩
  | 88 => ⟨S256, .f32⟩
  | 89 => ⟨S256, .i1⟩
  | 90 => ⟨S_, .f32⟩
  | 91 => ⟨S_, .f32⟩
  | 92 => ⟨S256, .f32⟩
  | 93 => ⟨S256, .f32⟩
  | 94 => ⟨S256, .f32⟩
  | 95 => ⟨S_, .f32⟩
  | 96 => ⟨S256, .f32⟩
  | 97 => ⟨S256, .f32⟩
  | 98 => ⟨S256, .f32⟩
  | 99 => ⟨S256, .f32⟩
  | 100 => ⟨S_, .f32⟩
  | 101 => ⟨S256, .f32⟩
  | 102 => ⟨S256, .i1⟩
  | 103 => ⟨S256, .f32⟩
  | 104 => ⟨S_, .f32⟩
  | 105 => ⟨S256, .f32⟩
  | 106 => ⟨S256, .f32⟩
  | 107 => ⟨S256, .f32⟩
  | 108 => ⟨S_, .f32⟩
  | 109 => ⟨S_, .f32⟩
  | 110 => ⟨S256, .f32⟩
  | 111 => ⟨S256, .f32⟩
  | 112 => ⟨S256, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S256, .f32⟩
  | 123 => ⟨S256, .i1⟩
  | 124 => ⟨S256, .f32⟩
  | 125 => ⟨S_, .f32⟩
  | 126 => ⟨S256, .f32⟩
  | 127 => ⟨S256, .f32⟩
  | _ => ⟨S256x128000, .f32⟩

abbrev hbmTy0_1 (i : Nat) : BufTy := match i % 128 with
  | 0 => ⟨S256, .f32⟩
  | 1 => ⟨S_, .f32⟩
  | 2 => ⟨S_, .f32⟩
  | 3 => ⟨S256, .f32⟩
  | 4 => ⟨S256, .f32⟩
  | 5 => ⟨S256, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S256, .f32⟩
  | 16 => ⟨S256, .i1⟩
  | 17 => ⟨S256, .f32⟩
  | 18 => ⟨S_, .f32⟩
  | 19 => ⟨S256, .f32⟩
  | 20 => ⟨S256, .f32⟩
  | 21 => ⟨S256, .f32⟩
  | 22 => ⟨S_, .f32⟩
  | 23 => ⟨S_, .f32⟩
  | 24 => ⟨S256, .f32⟩
  | 25 => ⟨S256, .f32⟩
  | 26 => ⟨S256, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S256, .f32⟩
  | 37 => ⟨S256, .i1⟩
  | 38 => ⟨S256, .f32⟩
  | 39 => ⟨S_, .f32⟩
  | 40 => ⟨S256, .f32⟩
  | 41 => ⟨S256, .f32⟩
  | 42 => ⟨S256, .f32⟩
  | 43 => ⟨S_, .f32⟩
  | 44 => ⟨S_, .f32⟩
  | 45 => ⟨S256, .f32⟩
  | 46 => ⟨S256, .f32⟩
  | 47 => ⟨S256, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S256, .f32⟩
  | 58 => ⟨S256, .i1⟩
  | 59 => ⟨S256, .f32⟩
  | 60 => ⟨S_, .f32⟩
  | 61 => ⟨S256, .f32⟩
  | 62 => ⟨S256, .f32⟩
  | 63 => ⟨S256, .f32⟩
  | 64 => ⟨S_, .f32⟩
  | 65 => ⟨S_, .f32⟩
  | 66 => ⟨S256, .f32⟩
  | 67 => ⟨S256, .f32⟩
  | 68 => ⟨S256, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S256, .f32⟩
  | 79 => ⟨S256, .f32⟩
  | 80 => ⟨S_, .f32⟩
  | 81 => ⟨S256, .f32⟩
  | 82 => ⟨S256, .f32⟩
  | 83 => ⟨S_, .f32⟩
  | 84 => ⟨S_, .f32⟩
  | 85 => ⟨S_, .f32⟩
  | 86 => ⟨S_, .f32⟩
  | 87 => ⟨S256, .f32⟩
  | 88 => ⟨S_, .f32⟩
  | 89 => ⟨S256, .f32⟩
  | 90 => ⟨S256, .f32⟩
  | 91 => ⟨S_, .f32⟩
  | 92 => ⟨S_, .f32⟩
  | 93 => ⟨S_, .f32⟩
  | 94 => ⟨S_, .f32⟩
  | 95 => ⟨S_, .f32⟩
  | 96 => ⟨S1, .f32⟩
  | 97 => ⟨S1, .f32⟩
  | 98 => ⟨S1, .f32⟩
  | 99 => ⟨S1, .f32⟩
  | 100 => ⟨S1, .f32⟩
  | 101 => ⟨S1, .f32⟩
  | 102 => ⟨S1, .f32⟩
  | 103 => ⟨S1, .f32⟩
  | 104 => ⟨S1, .f32⟩
  | 105 => ⟨S1, .f32⟩
  | 106 => ⟨S1, .f32⟩
  | 107 => ⟨S1, .f32⟩
  | 108 => ⟨S1, .f32⟩
  | 109 => ⟨S13, .f32⟩
  | _ => ⟨S256x128000, .f32⟩

abbrev hbmTy (i : Nat) : BufTy := match i / 128 with
  | 0 => hbmTy0_0 i
  | 1 => hbmTy0_1 i
  | _ => ⟨S256x128000, .f32⟩

abbrev bufTy : (tb : Table) → Fin (tcTables nBuf tb) → BufTy
  | .hbm, ⟨i, _⟩ => hbmTy i
  | .local _ .vmem, ⟨0, _⟩ => ⟨S128x16000, .f32⟩
  | .local _ .vmem, ⟨1, _⟩ => ⟨S128x16000, .f32⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | _, _ => ⟨S256x128000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_3 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_cst : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_4 : Ref sig .tc := ⟨.hbm, 69, rfl⟩
abbrev main_v39 : Ref sig .tc := ⟨.hbm, 70, rfl⟩
abbrev main_cst_5 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_6 : Ref sig .tc := ⟨.hbm, 75, rfl⟩
abbrev main_call1_v0 : Ref sig .tc := ⟨.hbm, 76, rfl⟩
abbrev main_call1_v1 : Ref sig .tc := ⟨.hbm, 77, rfl⟩
abbrev main_v43 : Ref sig .tc := ⟨.hbm, 78, rfl⟩
abbrev main_cst_7 : Ref sig .tc := ⟨.hbm, 79, rfl⟩
abbrev main_v44 : Ref sig .tc := ⟨.hbm, 80, rfl⟩
abbrev main_v45 : Ref sig .tc := ⟨.hbm, 81, rfl⟩
abbrev main_v46_0 : Ref sig .tc := ⟨.hbm, 82, rfl⟩
abbrev main_v46_1 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_8 : Ref sig .tc := ⟨.hbm, 87, rfl⟩
abbrev main_v50 : Ref sig .tc := ⟨.hbm, 88, rfl⟩
abbrev main_v51 : Ref sig .tc := ⟨.hbm, 89, rfl⟩
abbrev main_cst_9 : Ref sig .tc := ⟨.hbm, 90, rfl⟩
abbrev main_call2_v0 : Ref sig .tc := ⟨.hbm, 91, rfl⟩
abbrev main_call2_v1 : Ref sig .tc := ⟨.hbm, 92, rfl⟩
abbrev main_v52 : Ref sig .tc := ⟨.hbm, 93, rfl⟩
abbrev main_v53 : Ref sig .tc := ⟨.hbm, 94, rfl⟩
abbrev main_cst_10 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_11 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_12 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_13 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_14 : Ref sig .tc := ⟨.hbm, 113, rfl⟩
abbrev main_v68 : Ref sig .tc := ⟨.hbm, 114, rfl⟩
abbrev main_cst_15 : Ref sig .tc := ⟨.hbm, 115, rfl⟩
abbrev main_v69 : Ref sig .tc := ⟨.hbm, 116, rfl⟩
abbrev main_cst_16 : Ref sig .tc := ⟨.hbm, 117, rfl⟩
abbrev main_v70 : Ref sig .tc := ⟨.hbm, 118, rfl⟩
abbrev main_cst_17 : Ref sig .tc := ⟨.hbm, 119, rfl⟩
abbrev main_v71 : Ref sig .tc := ⟨.hbm, 120, rfl⟩
abbrev main_cst_18 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_cst_19 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_20 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_cst_21 : Ref sig .tc := ⟨.hbm, 134, rfl⟩
abbrev main_v82 : Ref sig .tc := ⟨.hbm, 135, rfl⟩
abbrev main_cst_22 : Ref sig .tc := ⟨.hbm, 136, rfl⟩
abbrev main_v83 : Ref sig .tc := ⟨.hbm, 137, rfl⟩
abbrev main_cst_23 : Ref sig .tc := ⟨.hbm, 138, rfl⟩
abbrev main_v84 : Ref sig .tc := ⟨.hbm, 139, rfl⟩
abbrev main_cst_24 : Ref sig .tc := ⟨.hbm, 140, rfl⟩
abbrev main_v85 : Ref sig .tc := ⟨.hbm, 141, rfl⟩
abbrev main_cst_25 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_cst_26 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_cst_27 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_cst_28 : Ref sig .tc := ⟨.hbm, 155, rfl⟩
abbrev main_v96 : Ref sig .tc := ⟨.hbm, 156, rfl⟩
abbrev main_cst_29 : Ref sig .tc := ⟨.hbm, 157, rfl⟩
abbrev main_v97 : Ref sig .tc := ⟨.hbm, 158, rfl⟩
abbrev main_cst_30 : Ref sig .tc := ⟨.hbm, 159, rfl⟩
abbrev main_v98 : Ref sig .tc := ⟨.hbm, 160, rfl⟩
abbrev main_cst_31 : Ref sig .tc := ⟨.hbm, 161, rfl⟩
abbrev main_v99 : Ref sig .tc := ⟨.hbm, 162, rfl⟩
abbrev main_cst_32 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_cst_33 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_cst_34 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_cst_35 : Ref sig .tc := ⟨.hbm, 176, rfl⟩
abbrev main_v110 : Ref sig .tc := ⟨.hbm, 177, rfl⟩
abbrev main_cst_36 : Ref sig .tc := ⟨.hbm, 178, rfl⟩
abbrev main_v111 : Ref sig .tc := ⟨.hbm, 179, rfl⟩
abbrev main_cst_37 : Ref sig .tc := ⟨.hbm, 180, rfl⟩
abbrev main_v112 : Ref sig .tc := ⟨.hbm, 181, rfl⟩
abbrev main_cst_38 : Ref sig .tc := ⟨.hbm, 182, rfl⟩
abbrev main_v113 : Ref sig .tc := ⟨.hbm, 183, rfl⟩
abbrev main_cst_39 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_cst_40 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_cst_41 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_42 : Ref sig .tc := ⟨.hbm, 197, rfl⟩
abbrev main_v124 : Ref sig .tc := ⟨.hbm, 198, rfl⟩
abbrev main_cst_43 : Ref sig .tc := ⟨.hbm, 199, rfl⟩
abbrev main_v125 : Ref sig .tc := ⟨.hbm, 200, rfl⟩
abbrev main_cst_44 : Ref sig .tc := ⟨.hbm, 201, rfl⟩
abbrev main_v126 : Ref sig .tc := ⟨.hbm, 202, rfl⟩
abbrev main_cst_45 : Ref sig .tc := ⟨.hbm, 203, rfl⟩
abbrev main_v127 : Ref sig .tc := ⟨.hbm, 204, rfl⟩
abbrev main_cst_46 : Ref sig .tc := ⟨.hbm, 205, rfl⟩
abbrev main_v128 : Ref sig .tc := ⟨.hbm, 206, rfl⟩
abbrev main_v129 : Ref sig .tc := ⟨.hbm, 207, rfl⟩
abbrev main_cst_47 : Ref sig .tc := ⟨.hbm, 208, rfl⟩
abbrev main_v130 : Ref sig .tc := ⟨.hbm, 209, rfl⟩
abbrev main_v131 : Ref sig .tc := ⟨.hbm, 210, rfl⟩
abbrev main_cst_48 : Ref sig .tc := ⟨.hbm, 211, rfl⟩
abbrev main_v132 : Ref sig .tc := ⟨.hbm, 212, rfl⟩
abbrev main_cst_49 : Ref sig .tc := ⟨.hbm, 213, rfl⟩
abbrev main_v133 : Ref sig .tc := ⟨.hbm, 214, rfl⟩
abbrev main_v134 : Ref sig .tc := ⟨.hbm, 215, rfl⟩
abbrev main_cst_50 : Ref sig .tc := ⟨.hbm, 216, rfl⟩
abbrev main_v135 : Ref sig .tc := ⟨.hbm, 217, rfl⟩
abbrev main_v136 : Ref sig .tc := ⟨.hbm, 218, rfl⟩
abbrev main_cst_51 : Ref sig .tc := ⟨.hbm, 219, rfl⟩
abbrev main_v137 : Ref sig .tc := ⟨.hbm, 220, rfl⟩
abbrev main_cst_52 : Ref sig .tc := ⟨.hbm, 221, rfl⟩
abbrev main_v138 : Ref sig .tc := ⟨.hbm, 222, rfl⟩
abbrev main_cst_53 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_mult1 : BitVec 32 :=
  let c0_i32_3 : BitVec 32 := 0#32
  let c3200_i32 : BitVec 32 := 3200#32
  let v7 : BitVec 32 := Scalar.muli c0_i32_3 c3200_i32
  v7
def k0_off1 (c0_i32_3 : BitVec 32) : Fin 2 → Nat :=
  let c0_4 : Index := 0#32
  let c3200_i32 : BitVec 32 := 3200#32
  let v7 : BitVec 32 := Scalar.muli c0_i32_3 c3200_i32
  let v8 : BitVec 32 := v7
  let v9 : Index := Scalar.indexCast v8
  ![0, v9.toNat]
def k0_mult2 : BitVec 32 :=
  let c1_i32 : BitVec 32 := 1#32
  let c3200_i32_8 : BitVec 32 := 3200#32
  let v25 : BitVec 32 := Scalar.muli c1_i32 c3200_i32_8
  v25
def k0_mult3 : BitVec 32 :=
  let c2_i32 : BitVec 32 := 2#32
  let c3200_i32_13 : BitVec 32 := 3200#32
  let v43 : BitVec 32 := Scalar.muli c2_i32 c3200_i32_13
  v43
def k0_mult4 : BitVec 32 :=
  let c3_i32 : BitVec 32 := 3#32
  let c3200_i32_18 : BitVec 32 := 3200#32
  let v61 : BitVec 32 := Scalar.muli c3_i32 c3200_i32_18
  v61
def k0_mult5 : BitVec 32 :=
  let c4_i32 : BitVec 32 := 4#32
  let c3200_i32_23 : BitVec 32 := 3200#32
  let v79 : BitVec 32 := Scalar.muli c4_i32 c3200_i32_23
  v79
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S256 : S_.BroadcastsInDim S256 (![] : Fin 0 → Fin S256.rank)
  bcast_S256_S256x1_0 : S256.BroadcastsInDim S256x1 (![0] : Fin 1 → Fin S256x1.rank)
  concatenates_S256x1_S256x1_S256x2_d1 : Shape.Concatenates [S256x1, S256x1] S256x2 1
  bcast_S_S256x200 : S_.BroadcastsInDim S256x200 (![] : Fin 0 → Fin S256x200.rank)
  shapeCasts_S256x200_S256x200x1 : S256x200.ShapeCasts S256x200x1
  bcast_S_S256x200x1 : S_.BroadcastsInDim S256x200x1 (![] : Fin 0 → Fin S256x200x1.rank)
  bcast_S1_S1x1x1_2 : S1.BroadcastsInDim S1x1x1 (![2] : Fin 1 → Fin S1x1x1.rank)
  bcast_S1x1x1_S256x200x1_0_1_2 : S1x1x1.BroadcastsInDim S256x200x1 (![0, 1, 2] : Fin 3 → Fin S256x200x1.rank)
  reducesTo_S256x200x1_S256x200_d2 : S256x200x1.ReducesTo [2] S256x200
  h_S_ : 0 < S_.numel
  bcast_S200_S1x200_1 : S200.BroadcastsInDim S1x200 (![1] : Fin 1 → Fin S1x200.rank)
  bcast_S200_S200x1_0 : S200.BroadcastsInDim S200x1 (![0] : Fin 1 → Fin S200x1.rank)
  bcast_S1x200_S200x200_0_1 : S1x200.BroadcastsInDim S200x200 (![0, 1] : Fin 2 → Fin S200x200.rank)
  bcast_S200x1_S200x200_0_1 : S200x1.BroadcastsInDim S200x200 (![0, 1] : Fin 2 → Fin S200x200.rank)
  bcast_S256x200_S256x200x1_0_1 : S256x200.BroadcastsInDim S256x200x1 (![0, 1] : Fin 2 → Fin S256x200x1.rank)
  bcast_S256x200_S256x1x200_0_2 : S256x200.BroadcastsInDim S256x1x200 (![0, 2] : Fin 2 → Fin S256x1x200.rank)
  bcast_S256x200x1_S256x200x200_0_1_2 : S256x200x1.BroadcastsInDim S256x200x200 (![0, 1, 2] : Fin 3 → Fin S256x200x200.rank)
  bcast_S256x1x200_S256x200x200_0_1_2 : S256x1x200.BroadcastsInDim S256x200x200 (![0, 1, 2] : Fin 3 → Fin S256x200x200.rank)
  bcast_S200x200_S1x200x200_1_2 : S200x200.BroadcastsInDim S1x200x200 (![1, 2] : Fin 2 → Fin S1x200x200.rank)
  bcast_S1x200x200_S256x200x200_0_1_2 : S1x200x200.BroadcastsInDim S256x200x200 (![0, 1, 2] : Fin 3 → Fin S256x200x200.rank)
  reducesTo_S256x200x200_S256x200_d2 : S256x200x200.ReducesTo [2] S256x200
  reducesTo_S256x200_S256_d1 : S256x200.ReducesTo [1] S256
  bcast_S256x1_S256x200_0_1 : S256x1.BroadcastsInDim S256x200 (![0, 1] : Fin 2 → Fin S256x200.rank)
  shapeCasts_S256_S256x1 : S256.ShapeCasts S256x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  h_S128x3200 : 0 < S128x3200.numel
  broadcasts_S128x1_S128x3200 : S128x1.Broadcasts S128x3200
  natLt_1_32 : 1 < 32
  reduces_S128x3200_S128 : S128x3200.Reduces [1] S128
  shapeCasts_S128_S128x1 : S128.ShapeCasts S128x1
  shapeCasts_S256x1_S256 : S256x1.ShapeCasts S256
  reducesTo_S256_S_d0 : S256.ReducesTo [0] S_
  bcast_S_S1 : S_.BroadcastsInDim S1 (![] : Fin 0 → Fin S1.rank)
  concatenates_S1_S1_S1_S1_S1_S1_S1_S1_S1_S1_S1_S1_S1_S13_d0 : Shape.Concatenates [S1, S1, S1, S1, S1, S1, S1, S1, S1, S1, S1, S1, S1] S13 0
  gather_S256x128000_S256x2_S256_n_01_n_n_01_1_11_wf : GatherDims.WF S256x128000 S256x2 S256 [] [0, 1] [] [0, 1] [] 1 ![1, 1]
  gather_S256x128000_S256x200x1_S256x200_n_1_0_0_1_2_11_wf : GatherDims.WF S256x128000 S256x200x1 S256x200 [] [1] [0] [1] [0] 2 ![1, 1]
  hrank0 : 0 < grid0.rank
  k0_mult1_dvd : 128 ∣ k0_mult1.toNat
  k0_off1_inb : ∀ (r : Fin 5), ∀ a, (k0_off1 (BitVec.ofNat 32 r.val)) a + S128x3200.size a ≤ S128x16000.size a
  k0_mult2_dvd : 128 ∣ k0_mult2.toNat
  k0_mult3_dvd : 128 ∣ k0_mult3.toNat
  k0_mult4_dvd : 128 ∣ k0_mult4.toNat
  k0_mult5_dvd : 128 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16000.size a ≤ S256x128000.size a
  hwx0_0 : ∀ i : grid0.Coords, EltTy.bits .f32 = 32 ∨ (Rect.block (s := S256x128000) S128x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S256x1.size a
  hwx0_1 : ∀ i : grid0.Coords, EltTy.bits .f32 = 32 ∨ (Rect.block (s := S256x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S256x1.size a
  hwx0_2 : ∀ i : grid0.Coords, EltTy.bits .f32 = 32 ∨ (Rect.block (s := S256x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S256x1.size a
  hwx0_3 : ∀ i : grid0.Coords, EltTy.bits .f32 = 32 ∨ (Rect.block (s := S256x1) S128x1.size (cc0_transform_3 i) (hinb0_3 i)).WholeWords (EltTy.packing .f32)

variable [Facts₀]

def gather_S256x128000_S256x2_S256_n_01_n_n_01_1_11 : GatherDims S256x128000 S256x2 S256 where
  offsetDims := []
  collapsedSliceDims := [0, 1]
  operandBatchingDims := []
  startIndicesBatchingDims := []
  startIndexMap := [0, 1]
  indexVectorDim := 1
  sliceSizes := ![1, 1]
  wf := gather_S256x128000_S256x2_S256_n_01_n_n_01_1_11_wf
def gather_S256x128000_S256x200x1_S256x200_n_1_0_0_1_2_11 : GatherDims S256x128000 S256x200x1 S256x200 where
  offsetDims := []
  collapsedSliceDims := [1]
  operandBatchingDims := [0]
  startIndicesBatchingDims := [0]
  startIndexMap := [1]
  indexVectorDim := 2
  sliceSizes := ![1, 1]
  wf := gather_S256x128000_S256x200x1_S256x200_n_1_0_0_1_2_11_wf

abbrev win0_0 : Pipeline.Window sig grid0 :=
  Pipeline.Window.ofSpec (Memref.whole main_arg0) S128x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46_0) S128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46_1) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x128000 : Shape := ⟨2, ![256, 128000]⟩
abbrev S256 : Shape := ⟨1, ![256]⟩
abbrev S256x200 : Shape := ⟨2, ![256, 200]⟩
abbrev S_ : Shape := ⟨0, ![]⟩
abbrev S256x1 : Shape := ⟨2, ![256, 1]⟩
abbrev S256x2 : Shape := ⟨2, ![256, 2]⟩
abbrev S256x200x1 : Shape := ⟨3, ![256, 200, 1]⟩
abbrev S256x200x2 : Shape := ⟨3, ![256, 200, 2]⟩
abbrev S1 : Shape := ⟨1, ![1]⟩
abbrev S13 : Shape := ⟨1, ![13]⟩

abbrev nBuf : Space → Nat
  | .hbm => 196
  | .vmem => 0
  | .smem => 0
  | _ => 0

abbrev hbmTy0_0 (i : Nat) : BufTy := match i % 128 with
  | 0 => ⟨S256x128000, .f32⟩
  | 1 => ⟨S256, .i32⟩
  | 2 => ⟨S256x200, .i32⟩
  | 3 => ⟨S256, .i32⟩
  | 4 => ⟨S_, .i32⟩
  | 5 => ⟨S256, .i32⟩
  | 6 => ⟨S256, .i1⟩
  | 7 => ⟨S_, .i32⟩
  | 8 => ⟨S256, .i32⟩
  | 9 => ⟨S256, .i32⟩
  | 10 => ⟨S256, .i32⟩
  | 11 => ⟨S_, .i32⟩
  | 12 => ⟨S256, .i32⟩
  | 13 => ⟨S256, .i1⟩
  | 14 => ⟨S_, .i32⟩
  | 15 => ⟨S256, .i32⟩
  | 16 => ⟨S256, .i32⟩
  | 17 => ⟨S256, .i32⟩
  | 18 => ⟨S256x1, .i32⟩
  | 19 => ⟨S256x1, .i32⟩
  | 20 => ⟨S256x2, .i32⟩
  | 21 => ⟨S256, .f32⟩
  | 22 => ⟨S256x1, .i32⟩
  | 23 => ⟨S_, .i32⟩
  | 24 => ⟨S256x1, .i32⟩
  | 25 => ⟨S256x1, .i1⟩
  | 26 => ⟨S_, .i32⟩
  | 27 => ⟨S256x1, .i32⟩
  | 28 => ⟨S256x1, .i32⟩
  | 29 => ⟨S256x1, .i32⟩
  | 30 => ⟨S_, .i32⟩
  | 31 => ⟨S256x200, .i32⟩
  | 32 => ⟨S256x200, .i1⟩
  | 33 => ⟨S_, .i32⟩
  | 34 => ⟨S256x200, .i32⟩
  | 35 => ⟨S256x200, .i32⟩
  | 36 => ⟨S256x200, .i32⟩
  | 37 => ⟨S256x200, .i32⟩
  | 38 => ⟨S256x200x1, .i32⟩
  | 39 => ⟨S256x200x1, .i32⟩
  | 40 => ⟨S256x200x2, .i32⟩
  | 41 => ⟨S_, .f32⟩
  | 42 => ⟨S256x200, .f32⟩
  | 43 => ⟨S256x128000, .f32⟩
  | 44 => ⟨S_, .f32⟩
  | 45 => ⟨S256x128000, .f32⟩
  | 46 => ⟨S256x128000, .i1⟩
  | 47 => ⟨S256x128000, .i32⟩
  | 48 => ⟨S_, .i32⟩
  | 49 => ⟨S256, .i32⟩
  | 50 => ⟨S256, .f32⟩
  | 51 => ⟨S256x1, .f32⟩
  | 52 => ⟨S256x128000, .f32⟩
  | 53 => ⟨S256x128000, .i1⟩
  | 54 => ⟨S256x128000, .i32⟩
  | 55 => ⟨S_, .i32⟩
  | 56 => ⟨S256, .i32⟩
  | 57 => ⟨S256, .f32⟩
  | 58 => ⟨S_, .f32⟩
  | 59 => ⟨S256, .f32⟩
  | 60 => ⟨S256, .i1⟩
  | 61 => ⟨S256, .f32⟩
  | 62 => ⟨S_, .f32⟩
  | 63 => ⟨S256, .f32⟩
  | 64 => ⟨S256, .f32⟩
  | 65 => ⟨S256, .f32⟩
  | 66 => ⟨S_, .f32⟩
  | 67 => ⟨S_, .f32⟩
  | 68 => ⟨S256, .f32⟩
  | 69 => ⟨S256, .f32⟩
  | 70 => ⟨S256, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S256, .f32⟩
  | 81 => ⟨S256, .i1⟩
  | 82 => ⟨S256, .f32⟩
  | 83 => ⟨S_, .f32⟩
  | 84 => ⟨S256, .f32⟩
  | 85 => ⟨S256, .f32⟩
  | 86 => ⟨S256, .f32⟩
  | 87 => ⟨S_, .f32⟩
  | 88 => ⟨S_, .f32⟩
  | 89 => ⟨S256, .f32⟩
  | 90 => ⟨S256, .f32⟩
  | 91 => ⟨S256, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S256, .f32⟩
  | 102 => ⟨S256, .i1⟩
  | 103 => ⟨S256, .f32⟩
  | 104 => ⟨S_, .f32⟩
  | 105 => ⟨S256, .f32⟩
  | 106 => ⟨S256, .f32⟩
  | 107 => ⟨S256, .f32⟩
  | 108 => ⟨S_, .f32⟩
  | 109 => ⟨S_, .f32⟩
  | 110 => ⟨S256, .f32⟩
  | 111 => ⟨S256, .f32⟩
  | 112 => ⟨S256, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S256, .f32⟩
  | 123 => ⟨S256, .i1⟩
  | 124 => ⟨S256, .f32⟩
  | 125 => ⟨S_, .f32⟩
  | 126 => ⟨S256, .f32⟩
  | 127 => ⟨S256, .f32⟩
  | _ => ⟨S256x128000, .f32⟩

abbrev hbmTy0_1 (i : Nat) : BufTy := match i % 128 with
  | 0 => ⟨S256, .f32⟩
  | 1 => ⟨S_, .f32⟩
  | 2 => ⟨S_, .f32⟩
  | 3 => ⟨S256, .f32⟩
  | 4 => ⟨S256, .f32⟩
  | 5 => ⟨S256, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S256, .f32⟩
  | 16 => ⟨S256, .i1⟩
  | 17 => ⟨S256, .f32⟩
  | 18 => ⟨S_, .f32⟩
  | 19 => ⟨S256, .f32⟩
  | 20 => ⟨S256, .f32⟩
  | 21 => ⟨S256, .f32⟩
  | 22 => ⟨S_, .f32⟩
  | 23 => ⟨S_, .f32⟩
  | 24 => ⟨S256, .f32⟩
  | 25 => ⟨S256, .f32⟩
  | 26 => ⟨S256, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S256, .f32⟩
  | 37 => ⟨S256, .f32⟩
  | 38 => ⟨S_, .f32⟩
  | 39 => ⟨S256, .f32⟩
  | 40 => ⟨S256, .f32⟩
  | 41 => ⟨S_, .f32⟩
  | 42 => ⟨S_, .f32⟩
  | 43 => ⟨S_, .f32⟩
  | 44 => ⟨S_, .f32⟩
  | 45 => ⟨S256, .f32⟩
  | 46 => ⟨S_, .f32⟩
  | 47 => ⟨S256, .f32⟩
  | 48 => ⟨S256, .f32⟩
  | 49 => ⟨S_, .f32⟩
  | 50 => ⟨S_, .f32⟩
  | 51 => ⟨S_, .f32⟩
  | 52 => ⟨S_, .f32⟩
  | 53 => ⟨S_, .f32⟩
  | 54 => ⟨S1, .f32⟩
  | 55 => ⟨S1, .f32⟩
  | 56 => ⟨S1, .f32⟩
  | 57 => ⟨S1, .f32⟩
  | 58 => ⟨S1, .f32⟩
  | 59 => ⟨S1, .f32⟩
  | 60 => ⟨S1, .f32⟩
  | 61 => ⟨S1, .f32⟩
  | 62 => ⟨S1, .f32⟩
  | 63 => ⟨S1, .f32⟩
  | 64 => ⟨S1, .f32⟩
  | 65 => ⟨S1, .f32⟩
  | 66 => ⟨S1, .f32⟩
  | 67 => ⟨S13, .f32⟩
  | _ => ⟨S256x128000, .f32⟩

abbrev hbmTy (i : Nat) : BufTy := match i / 128 with
  | 0 => hbmTy0_0 i
  | 1 => hbmTy0_1 i
  | _ => ⟨S256x128000, .f32⟩

abbrev bufTy : (tb : Table) → Fin (tcTables nBuf tb) → BufTy
  | .hbm, ⟨i, _⟩ => hbmTy i
  | _, _ => ⟨S256x128000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_9 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩
abbrev main_cst_16 : Ref sig .tc := ⟨.hbm, 77, rfl⟩
abbrev main_v56 : Ref sig .tc := ⟨.hbm, 78, rfl⟩
abbrev main_cst_17 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_18 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_19 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_20 : Ref sig .tc := ⟨.hbm, 92, rfl⟩
abbrev main_v67 : Ref sig .tc := ⟨.hbm, 93, rfl⟩
abbrev main_cst_21 : Ref sig .tc := ⟨.hbm, 94, rfl⟩
abbrev main_v68 : Ref sig .tc := ⟨.hbm, 95, rfl⟩
abbrev main_cst_22 : Ref sig .tc := ⟨.hbm, 96, rfl⟩
abbrev main_v69 : Ref sig .tc := ⟨.hbm, 97, rfl⟩
abbrev main_cst_23 : Ref sig .tc := ⟨.hbm, 98, rfl⟩
abbrev main_v70 : Ref sig .tc := ⟨.hbm, 99, rfl⟩
abbrev main_cst_24 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_25 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_26 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_27 : Ref sig .tc := ⟨.hbm, 113, rfl⟩
abbrev main_v81 : Ref sig .tc := ⟨.hbm, 114, rfl⟩
abbrev main_cst_28 : Ref sig .tc := ⟨.hbm, 115, rfl⟩
abbrev main_v82 : Ref sig .tc := ⟨.hbm, 116, rfl⟩
abbrev main_cst_29 : Ref sig .tc := ⟨.hbm, 117, rfl⟩
abbrev main_v83 : Ref sig .tc := ⟨.hbm, 118, rfl⟩
abbrev main_cst_30 : Ref sig .tc := ⟨.hbm, 119, rfl⟩
abbrev main_v84 : Ref sig .tc := ⟨.hbm, 120, rfl⟩
abbrev main_cst_31 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_32 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_33 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_34 : Ref sig .tc := ⟨.hbm, 134, rfl⟩
abbrev main_v95 : Ref sig .tc := ⟨.hbm, 135, rfl⟩
abbrev main_cst_35 : Ref sig .tc := ⟨.hbm, 136, rfl⟩
abbrev main_v96 : Ref sig .tc := ⟨.hbm, 137, rfl⟩
abbrev main_cst_36 : Ref sig .tc := ⟨.hbm, 138, rfl⟩
abbrev main_v97 : Ref sig .tc := ⟨.hbm, 139, rfl⟩
abbrev main_cst_37 : Ref sig .tc := ⟨.hbm, 140, rfl⟩
abbrev main_v98 : Ref sig .tc := ⟨.hbm, 141, rfl⟩
abbrev main_cst_38 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_39 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_40 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_41 : Ref sig .tc := ⟨.hbm, 155, rfl⟩
abbrev main_v109 : Ref sig .tc := ⟨.hbm, 156, rfl⟩
abbrev main_cst_42 : Ref sig .tc := ⟨.hbm, 157, rfl⟩
abbrev main_v110 : Ref sig .tc := ⟨.hbm, 158, rfl⟩
abbrev main_cst_43 : Ref sig .tc := ⟨.hbm, 159, rfl⟩
abbrev main_v111 : Ref sig .tc := ⟨.hbm, 160, rfl⟩
abbrev main_cst_44 : Ref sig .tc := ⟨.hbm, 161, rfl⟩
abbrev main_v112 : Ref sig .tc := ⟨.hbm, 162, rfl⟩
abbrev main_cst_45 : Ref sig .tc := ⟨.hbm, 163, rfl⟩
abbrev main_v113 : Ref sig .tc := ⟨.hbm, 164, rfl⟩
abbrev main_v114 : Ref sig .tc := ⟨.hbm, 165, rfl⟩
abbrev main_cst_46 : Ref sig .tc := ⟨.hbm, 166, rfl⟩
abbrev main_v115 : Ref sig .tc := ⟨.hbm, 167, rfl⟩
abbrev main_v116 : Ref sig .tc := ⟨.hbm, 168, rfl⟩
abbrev main_cst_47 : Ref sig .tc := ⟨.hbm, 169, rfl⟩
abbrev main_v117 : Ref sig .tc := ⟨.hbm, 170, rfl⟩
abbrev main_cst_48 : Ref sig .tc := ⟨.hbm, 171, rfl⟩
abbrev main_v118 : Ref sig .tc := ⟨.hbm, 172, rfl⟩
abbrev main_v119 : Ref sig .tc := ⟨.hbm, 173, rfl⟩
abbrev main_cst_49 : Ref sig .tc := ⟨.hbm, 174, rfl⟩
abbrev main_v120 : Ref sig .tc := ⟨.hbm, 175, rfl⟩
abbrev main_v121 : Ref sig .tc := ⟨.hbm, 176, rfl⟩
abbrev main_cst_50 : Ref sig .tc := ⟨.hbm, 177, rfl⟩
abbrev main_v122 : Ref sig .tc := ⟨.hbm, 178, rfl⟩
abbrev main_cst_51 : Ref sig .tc := ⟨.hbm, 179, rfl⟩
abbrev main_v123 : Ref sig .tc := ⟨.hbm, 180, rfl⟩
abbrev main_cst_52 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  concatenates_S256x1_S256x1_S256x2_d1 : Shape.Concatenates [S256x1, S256x1] S256x2 1
  bcast_S_S256x1 : S_.BroadcastsInDim S256x1 (![] : Fin 0 → Fin S256x1.rank)
  bcast_S_S256x200 : S_.BroadcastsInDim S256x200 (![] : Fin 0 → Fin S256x200.rank)
  bcast_S256x1_S256x200_0_1 : S256x1.BroadcastsInDim S256x200 (![0, 1] : Fin 2 → Fin S256x200.rank)
  bcast_S256x200_S256x200x1_0_1 : S256x200.BroadcastsInDim S256x200x1 (![0, 1] : Fin 2 → Fin S256x200x1.rank)
  concatenates_S256x200x1_S256x200x1_S256x200x2_d2 : Shape.Concatenates [S256x200x1, S256x200x1] S256x200x2 2
  bcast_S_S256x128000 : S_.BroadcastsInDim S256x128000 (![] : Fin 0 → Fin S256x128000.rank)
  natLt_1_32 : 1 < 32
  reducesTo_S256x128000_S256_d1 : S256x128000.ReducesTo [1] S256
  h_S_ : 0 < S_.numel
  bcast_S256x1_S256x128000_0_1 : S256x1.BroadcastsInDim S256x128000 (![0, 1] : Fin 2 → Fin S256x128000.rank)
  reducesTo_S256_S_d0 : S256.ReducesTo [0] S_
  bcast_S_S1 : S_.BroadcastsInDim S1 (![] : Fin 0 → Fin S1.rank)
  concatenates_S1_S1_S1_S1_S1_S1_S1_S1_S1_S1_S1_S1_S1_S13_d0 : Shape.Concatenates [S1, S1, S1, S1, S1, S1, S1, S1, S1, S1, S1, S1, S1] S13 0
  gather_S256x128000_S256x2_S256_n_01_n_n_01_1_11_wf : GatherDims.WF S256x128000 S256x2 S256 [] [0, 1] [] [0, 1] [] 1 ![1, 1]
  scatter_S256x128000_S256x200x2_S256x200_n_01_01_2_wf : ScatterDims.WF S256x128000 S256x200x2 S256x200 [] [0, 1] [0, 1] 2

variable [Facts₀]

def gather_S256x128000_S256x2_S256_n_01_n_n_01_1_11 : GatherDims S256x128000 S256x2 S256 where
  offsetDims := []
  collapsedSliceDims := [0, 1]
  operandBatchingDims := []
  startIndicesBatchingDims := []
  startIndexMap := [0, 1]
  indexVectorDim := 1
  sliceSizes := ![1, 1]
  wf := gather_S256x128000_S256x2_S256_n_01_n_n_01_1_11_wf
def scatter_S256x128000_S256x200x2_S256x200_n_01_01_2 : ScatterDims S256x128000 S256x200x2 S256x200 where
  updateWindowDims := []
  insertedWindowDims := [0, 1]
  scatterDimsToOperandDims := [0, 1]
  indexVectorDim := 2
  wf := scatter_S256x128000_S256x200x2_S256x200_n_01_01_2_wf

class Facts : Prop extends Facts₀ where

variable [Facts]
-- ==== Proof.RefFrame.lean ====
/-
  The reference is a host program with no kernel: its frame is its run with the result dropped — every weakly
  fair execution ends, nothing faults, and the three argument arrays are what they were.
-/
import proofs.«428142_j77446850282051_3_alg».proof.Defs
import proofs.«428142_j77446850282051_3_alg».proof.Proof.Gen.ReferenceIdeal.Run
import proofs.«428142_j77446850282051_3_alg».proof.Proof.Gen.Pre_finite_inputs

noncomputable section

namespace Cert.Proof.Ref

open Idealize.ShloMosaic Idealize.SL.Sem

theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.Proof.Ref

end
-- ==== Proof.KFRuns.lean ====
import proofs.«428142_j77446850282051_3_alg».proof.Proof.Gen.KernelIdeal.Launch
import proofs.«428142_j77446850282051_3_alg».proof.Proof.Gen.KernelIdeal.Skeleton
import proofs.«428142_j77446850282051_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines before the region, stretch by stretch. -/
abbrev pfx : List (List (HloOp τ sig (Elt F))) := [hostOps0, hostOps0_1, hostOps0_2, hostOps0_3, hostOps0_4]
/-- The host lines after the region, stretch by stretch. -/
abbrev sfx : List (List (HloOp τ sig (Elt F))) := [hostOps1, hostOps1_1, hostOps1_2]

/-- Core `c`'s buffer contents when the region is entered: after the host lines before it. -/
def V0 (c : Dev nD) : Valuation τ sig (Elt F) := StableHlo.after (List.flatten (pfx (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

/-- @main around the region: the host lines before it, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfx (F := F)).map StableHlo.seq)) :=
  Pipeline.hmain_around cfgs 0 defs₀ 𝒱₀ m main pfx sfx
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩ main_chain

/-! ## The host lines after the region: what they touch, allocate and write -/

/-- The references the frame speaks of: the three arguments and the region's other arrays. -/
def Kept (r : Ref sig .tc) : Prop :=
  r = main_arg0 ∨ r = main_arg1 ∨ r = main_arg2 ∨ r = main_v45 ∨ r = main_v46_0 ∨ r = main_v46_1

theorem hostOps1_nowrite (r : Ref sig .tc) (hr : Kept r) :
    (hostOps1 : List (HloOp τ sig (Elt F))).Forall fun op => Proc.devRef (τ := τ) .tc r ∉ op.writes := by
  rcases hr with rfl | rfl | rfl | rfl | rfl | rfl <;>
  · simp only [List.Forall, StableHlo.nullary_writes, StableHlo.unary_writes, StableHlo.binary_writes, StableHlo.ternary_writes,
      StableHlo.quaternary_writes, StableHlo.reshape_writes, StableHlo.nary_writes, Finset.mem_singleton]
    and_intros <;> exact StableHlo.devRef_ne_of_ne (by decide)

theorem hostOps1_1_nowrite (r : Ref sig .tc) (hr : Kept r) :
    (hostOps1_1 : List (HloOp τ sig (Elt F))).Forall fun op => Proc.devRef (τ := τ) .tc r ∉ op.writes := by
  rcases hr with rfl | rfl | rfl | rfl | rfl | rfl <;>
  · simp only [List.Forall, StableHlo.nullary_writes, StableHlo.unary_writes, StableHlo.binary_writes, StableHlo.ternary_writes,
      StableHlo.quaternary_writes, StableHlo.reshape_writes, StableHlo.nary_writes, Finset.mem_singleton]
    and_intros <;> exact StableHlo.devRef_ne_of_ne (by decide)

set_option maxHeartbeats 8000000 in
theorem hostOps1_2_nowrite (r : Ref sig .tc) (hr : Kept r) :
    (hostOps1_2 : List (HloOp τ sig (Elt F))).Forall fun op => Proc.devRef (τ := τ) .tc r ∉ op.writes := by
  rcases hr with rfl | rfl | rfl | rfl | rfl | rfl <;>
  · simp only [List.Forall, StableHlo.nullary_writes, StableHlo.unary_writes, StableHlo.binary_writes, StableHlo.ternary_writes,
      StableHlo.quaternary_writes, StableHlo.reshape_writes, StableHlo.nary_writes, Finset.mem_singleton]
    and_intros <;> exact StableHlo.devRef_ne_of_ne (by decide)

/-- No host line after the region writes a reference the frame speaks of. -/
theorem sfx_nowrite (r : Ref sig .tc) (hr : Kept r) :
    ∀ ops ∈ (sfx : List (List (HloOp τ sig (Elt F)))), ∀ op ∈ ops, Proc.devRef (τ := τ) .tc r ∉ op.writes := by
  intro ops hops op hop
  simp only [List.mem_cons, List.mem_nil_iff, or_false] at hops
  rcases hops with rfl | rfl | rfl
  · exact (List.forall_iff_forall_mem.mp (hostOps1_nowrite r hr)) op hop
  · exact (List.forall_iff_forall_mem.mp (hostOps1_1_nowrite r hr)) op hop
  · exact (List.forall_iff_forall_mem.mp (hostOps1_2_nowrite r hr)) op hop

/-- The lines after the region touch the pipeline's arrays and the bypassing buffers only. -/
theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (sfx : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- And write no array of the pipeline. -/
theorem sfx_keeps : ∀ ops ∈ (sfx : List (List (HloOp τ sig (Elt F)))), ∀ op ∈ ops,
    ∀ w, Proc.devRef .tc (Pipeline.arrRef spec0 w) ∉ op.writes := by
  intro ops hops op hop w
  refine sfx_nowrite (Pipeline.arrRef spec0 w) ?_ ops hops op hop
  fin_cases w
  · exact Or.inl rfl
  · exact Or.inr (Or.inr (Or.inr (Or.inl rfl)))
  · exact Or.inr (Or.inr (Or.inr (Or.inr (Or.inl rfl))))
  · exact Or.inr (Or.inr (Or.inr (Or.inr (Or.inr rfl))))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's conditional, from the grid coordinates (the skeleton's scalar chain substituted). -/
abbrev cond0_0 (i : grid0.Coords) : Prop := (Scalar.cmpi .ne (Scalar.extui (Scalar.cmpi .eq (BitVec.ofNat 32 (i 1).val) 0#32)) 0#32) = 1#1
/-- It holds at the first column block of each row block: decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs the body is called with -/

/-- One staging buffer of each output window, through which its contents are stated. -/
abbrev VO0_2 : View sig .tc .vmem S128x1 .f32 := (Memref.whole cc0_stg2_0 : Memref sig .tc .vmem S128x1 .f32).view
abbrev VO0_3 : View sig .tc .vmem S128x1 .f32 := (Memref.whole cc0_stg3_0 : Memref sig .tc .vmem S128x1 .f32).view
/-- Each window's current staging memref at point `t`, spelled as the pipeline passes it, and its wholeness. -/
abbrev ms0_0 (t : Fin cfg0.N) : Memref sig .tc .vmem S128x16000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1 .f32 := win0_3.stage (cfg0.slots t 3)
abbrev hs0_3 (t : Fin cfg0.N) : (ms0_3 t).IsWhole := hstage0_3 ((cfg0.slots t 3).cast nbuf0_3)

end Cert.KernelIdeal.HF

end
-- ==== Proof.KFRunA.lean ====
import proofs.«428142_j77446850282051_3_alg».proof.Proof.KFRuns

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), in the case where the
    conditional is taken, with the proof that on whole staging memrefs the body runs to the continuation
    holding the inputs' memrefs as they were and each output's memref with its pieces written. The pieces are the
    witness the run finds. -/
noncomputable def kernelRun0_A (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole)
    (hc0 : cond0_0 i)
    (x0 : Vec F S128x16000 .f32) (x1 : Vec F S128x1 .f32) :
    Σ' (L2 : List (View.Piece (Elt F) S128x1 .f32)), { L3 : List (View.Piece (Elt F) S128x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__raw_rank_kernel i arg2 harg2 arg3 harg3 arg4 harg4 arg5 harg5) K } := by
  refine ⟨?_, ?_, fun E K => ?run⟩
  case run =>
    simp only [cc0__raw_rank_kernel_eq_skeleton]; unfold cc0__raw_rank_kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.HF

end
-- ==== Proof.KFRunB.lean ====
import proofs.«428142_j77446850282051_3_alg».proof.Proof.KFRunA

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), in the case where the
    conditional is not taken, with the proof that on whole staging memrefs the body runs to the continuation
    holding the inputs' memrefs as they were and each output's memref with its pieces written. The pieces are the
    witness the run finds. -/
noncomputable def kernelRun0_B (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole)
    (hc0 : ¬cond0_0 i)
    (x0 : Vec F S128x16000 .f32) (x1 : Vec F S128x1 .f32) (xo2 : Vec F S128x1 .f32) (xo3 : Vec F S128x1 .f32) :
    Σ' (L2 : List (View.Piece (Elt F) S128x1 .f32)), { L3 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__raw_rank_kernel i arg2 harg2 arg3 harg3 arg4 harg4 arg5 harg5) K } := by
  refine ⟨?_, ?_, fun E K => ?run⟩
  case run =>
    simp only [cc0__raw_rank_kernel_eq_skeleton]; unfold cc0__raw_rank_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.KernelIdeal.HF

end
-- ==== Proof.KFOuts.lean ====
import proofs.«428142_j77446850282051_3_alg».proof.Proof.KFRunB

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the outputs' staging buffers -/

/-- The reset case's pieces for each output tile its block, so they cover it. -/
theorem cover0_A_2 (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : cond0_0 i)
    (x0 : Vec F S128x16000 .f32) (x1 : Vec F S128x1 .f32) (y : S128x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S128x1.size (by sl_kernel_rfl) y
theorem cover0_A_3 (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : cond0_0 i)
    (x0 : Vec F S128x16000 .f32) (x1 : Vec F S128x1 .f32) (y : S128x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S128x1.size (by sl_kernel_rfl) y

/-- What the reset case leaves in each output's staging buffer: its pieces read back over junk. -/
def out0_A_2 (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : cond0_0 i)
    (x0 : Vec F S128x16000 .f32) (x1 : Vec F S128x1 .f32) : Vec F S128x1 .f32 :=
  VO0_2.read (Elt F) (VO0_2.writes (Elt F) VO0_2.junk (kernelRun0_A c i arg2 harg2 arg3 harg3 arg4 harg4 arg5 harg5 hc0 x0 x1).1)
def out0_A_3 (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : cond0_0 i)
    (x0 : Vec F S128x16000 .f32) (x1 : Vec F S128x1 .f32) : Vec F S128x1 .f32 :=
  VO0_3.read (Elt F) (VO0_3.writes (Elt F) VO0_3.junk (kernelRun0_A c i arg2 harg2 arg3 harg3 arg4 harg4 arg5 harg5 hc0 x0 x1).2.1)

/-- The accumulating case's pieces for each output tile its block, so they cover it. -/
theorem cover0_B_2 (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : ¬cond0_0 i)
    (x0 : Vec F S128x16000 .f32) (x1 : Vec F S128x1 .f32) (xo2 xo3 : Vec F S128x1 .f32) (y : S128x1.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S128x1.size (by sl_kernel_rfl) y
theorem cover0_B_3 (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : ¬cond0_0 i)
    (x0 : Vec F S128x16000 .f32) (x1 : Vec F S128x1 .f32) (xo2 xo3 : Vec F S128x1 .f32) (y : S128x1.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S128x1.size (by sl_kernel_rfl) y

/-- What the accumulating case leaves in each output's staging buffer: its pieces read back over junk. -/
def out0_B_2 (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : ¬cond0_0 i)
    (x0 : Vec F S128x16000 .f32) (x1 : Vec F S128x1 .f32) (xo2 xo3 : Vec F S128x1 .f32) : Vec F S128x1 .f32 :=
  VO0_2.read (Elt F) (VO0_2.writes (Elt F) VO0_2.junk (kernelRun0_B c i arg2 harg2 arg3 harg3 arg4 harg4 arg5 harg5 hc0 x0 x1 xo2 xo3).1)
def out0_B_3 (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : ¬cond0_0 i)
    (x0 : Vec F S128x16000 .f32) (x1 : Vec F S128x1 .f32) (xo2 xo3 : Vec F S128x1 .f32) : Vec F S128x1 .f32 :=
  VO0_3.read (Elt F) (VO0_3.writes (Elt F) VO0_3.junk (kernelRun0_B c i arg2 harg2 arg3 harg3 arg4 harg4 arg5 harg5 hc0 x0 x1 xo2 xo3).2.1)

end Cert.KernelIdeal.HF

end
-- ==== Proof.KFArgs.lean ====
import proofs.«428142_j77446850282051_3_alg».proof.Proof.KFRuns

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays through the host lines -/

/-- The three argument arrays. -/
def IsArg (r : Ref sig .tc) : Prop := r = main_arg0 ∨ r = main_arg1 ∨ r = main_arg2

theorem IsArg.kept {r : Ref sig .tc} (h : IsArg r) : Kept r := by
  rcases h with rfl | rfl | rfl
  · exact Or.inl rfl
  · exact Or.inr (Or.inl rfl)
  · exact Or.inr (Or.inr (Or.inl rfl))

theorem hostOps0_nowrite_arg (r : Ref sig .tc) (hr : IsArg r) :
    (hostOps0 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes,
      StableHlo.quaternary_writes, StableHlo.reshape_writes, StableHlo.nary_writes, StableHlo.binaryIndexed_writes, StableHlo.unaryIndexed_writes, Finset.mem_singleton]
    and_intros <;> exact StableHlo.devRef_ne_of_ne (by decide)

theorem hostOps0_1_nowrite_arg (r : Ref sig .tc) (hr : IsArg r) :
    (hostOps0_1 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes,
      StableHlo.quaternary_writes, StableHlo.reshape_writes, StableHlo.nary_writes, StableHlo.binaryIndexed_writes, StableHlo.unaryIndexed_writes, Finset.mem_singleton]
    and_intros <;> exact StableHlo.devRef_ne_of_ne (by decide)

set_option maxHeartbeats 2000000 in
theorem hostOps0_2_nowrite_arg (r : Ref sig .tc) (hr : IsArg r) :
    (hostOps0_2 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes,
      StableHlo.quaternary_writes, StableHlo.reshape_writes, StableHlo.nary_writes, StableHlo.binaryIndexed_writes, StableHlo.unaryIndexed_writes, Finset.mem_singleton]
    and_intros <;> exact StableHlo.devRef_ne_of_ne (by decide)

theorem hostOps0_3_nowrite_arg (r : Ref sig .tc) (hr : IsArg r) :
    (hostOps0_3 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes,
      StableHlo.quaternary_writes, StableHlo.reshape_writes, StableHlo.nary_writes, StableHlo.binaryIndexed_writes, StableHlo.unaryIndexed_writes, Finset.mem_singleton]
    and_intros <;> exact StableHlo.devRef_ne_of_ne (by decide)

theorem hostOps0_4_nowrite_arg (r : Ref sig .tc) (hr : IsArg r) :
    (hostOps0_4 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes,
      StableHlo.quaternary_writes, StableHlo.reshape_writes, StableHlo.nary_writes, StableHlo.binaryIndexed_writes, StableHlo.unaryIndexed_writes, Finset.mem_singleton]
    and_intros <;> exact StableHlo.devRef_ne_of_ne (by decide)

/-- No host line before the region writes an argument array. -/
theorem pfx_nowrite_arg (r : Ref sig .tc) (hr : IsArg r) :
    ∀ op ∈ (List.flatten (pfx : List (List (HloOp τ sig (Elt F))))), Proc.devRef (τ := τ) .tc r ∉ op.writes := by
  intro op hop
  obtain ⟨ops, hops, hop⟩ := List.mem_flatten.mp hop
  simp only [List.mem_cons, List.mem_nil_iff, or_false] at hops
  rcases hops with rfl | rfl | rfl | rfl | rfl
  · exact (List.forall_iff_forall_mem.mp (hostOps0_nowrite_arg r hr)) op hop
  · exact (List.forall_iff_forall_mem.mp (hostOps0_1_nowrite_arg r hr)) op hop
  · exact (List.forall_iff_forall_mem.mp (hostOps0_2_nowrite_arg r hr)) op hop
  · exact (List.forall_iff_forall_mem.mp (hostOps0_3_nowrite_arg r hr)) op hop
  · exact (List.forall_iff_forall_mem.mp (hostOps0_4_nowrite_arg r hr)) op hop

/-- An argument array is, when the region is entered, as launched. -/
theorem V_arg (c : Dev nD) (r : Ref sig .tc) (hr : IsArg r) : V m c r = m ((c : Thread nD τ).loc r) := by
  unfold V V0
  exact StableHlo.after_of_forall_not_mem _ _ (pfx_nowrite_arg r hr)

/-- A reference the frame speaks of is, after the host lines that follow the region, as the region left it. -/
theorem after_sfx_kept (X : Valuation τ sig (Elt F)) (r : Ref sig .tc) (hr : Kept r) :
    StableHlo.after (List.flatten (sfx : List (List (HloOp τ sig (Elt F))))) X (Proc.devRef .tc r) = X (Proc.devRef .tc r) :=
  StableHlo.after_of_forall_not_mem _ _ fun op hop => by
    obtain ⟨ops, hops, hop⟩ := List.mem_flatten.mp hop
    exact sfx_nowrite r hr ops hops op hop

/-- An argument array that no window stages is, at the end, as launched. -/
theorem tail_arg (dats : (p : Fin 1) → (c : Dev nD) → Dat τ (Elt F) Unit ℕ (UR sig nD τ) ℕ (cfgs p) c) (c : Dev nD)
    (r : Ref sig .tc) (hr : IsArg r) (hne : ∀ w, Pipeline.arrRef spec0 w ≠ r) :
    Pipeline.afterTail₀ cfgs dats 0 (V0 m) sfx c r = m ((c : Thread nD τ).loc r) := by
  unfold Pipeline.afterTail₀
  rw [after_sfx_kept _ r hr.kept, Pipeline.withArrays_of_ne _ _ _ _ r hne]
  exact V_arg m c r hr

end Cert.KernelIdeal.HF

end
-- ==== Proof.KFrame.lean ====
import proofs.«428142_j77446850282051_3_alg».proof.Proof.KFOuts
import proofs.«428142_j77446850282051_3_alg».proof.Proof.KFArgs

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- Both outputs after a point of the reset case. -/
def outA (c : Dev nD) (t : Fin cfg0.N) (h0 : t.val % 8 = 0) : Vec F S128x1 .f32 × Vec F S128x1 .f32 :=
  (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
   out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t))

/-- Both outputs after a point of the accumulating case, over what the point before left (`p`). -/
def outB (c : Dev nD) (t : Fin cfg0.N) (h0 : ¬t.val % 8 = 0) (p : Vec F S128x1 .f32 × Vec F S128x1 .f32) :
    Vec F S128x1 .f32 × Vec F S128x1 .f32 :=
  (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) p.1 p.2,
   out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) p.1 p.2)

/-- The accumulation: what the two outputs' staging buffers hold after the body at position `n`. -/
def outsAt0 (c : Dev nD) : (n : ℕ) → n < cfg0.N → Vec F S128x1 .f32 × Vec F S128x1 .f32
  | 0, hn => outA m c ⟨0, hn⟩ (Nat.zero_mod _)
  | n + 1, hn =>
    if h0 : (n + 1) % 8 = 0 then outA m c ⟨n + 1, hn⟩ h0
    else outB m c ⟨n + 1, hn⟩ h0 (outsAt0 c n (Nat.lt_of_succ_lt hn))

theorem outsAt0_A (c : Dev nD) (t : Fin cfg0.N) (h0 : t.val % 8 = 0) :
    outsAt0 m c t.val t.isLt = outA m c t h0 := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = outB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t`
    each input's buffer at its block and the outputs' at the accumulation; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point of the accumulating case each output's current staging buffer holds what the body left at the point
    before: the point is not the first, and the buffer was not written back between. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the closed form says which case the point is in;
    in the accumulating case the outputs hold what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 8 = 0
  · rw [outsAt0_A m c t h0]
    unfold outA out0_A_2 out0_A_3; dsimp only
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    · unfold owns; iexists _; isplitr
      swap; · iexact H3
      ipureintro; exact View.read_writes_of_cover _ _ _ _ _ (cover0_A_3 c _ _ _ _ _ _ _ _ _ _ _ _)
  · rw [outsAt0_B m c t h0]
    simp only [before0_2_B m c t h0, before0_3_B m c t h0]
    unfold outB out0_B_2 out0_B_3; dsimp only
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    · unfold owns; iexists _; isplitr
      swap; · iexact H3
      ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the
    pipeline at what the library computes from the proof data and every other unscoped buffer as the host lines after
    the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hΦ := fun _ _ => rfl)

/-- The frame: @main runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_arg m c main_arg0 (Or.inl rfl)))),
     ((h c).2 main_arg1 (by decide)).trans (tail_arg m (dats m) c main_arg1 (Or.inr (Or.inl rfl)) (by decide)),
     ((h c).2 main_arg2 (by decide)).trans (tail_arg m (dats m) c main_arg2 (Or.inr (Or.inr rfl)) (by decide))⟩) (run_main m ρ)

end Cert.KernelIdeal.HF

end
-- ==== Proof.KBRuns.lean ====
import proofs.«428142_j77446850282051_3_alg».proof.Proof.Gen.Kernel.Launch
import proofs.«428142_j77446850282051_3_alg».proof.Proof.Gen.Kernel.Skeleton
import proofs.«428142_j77446850282051_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines before the region, stretch by stretch. -/
abbrev pfx : List (List (HloOp τ sig (Elt F))) := [hostOps0, hostOps0_1, hostOps0_2, hostOps0_3, hostOps0_4]
/-- The host lines after the region, stretch by stretch. -/
abbrev sfx : List (List (HloOp τ sig (Elt F))) := [hostOps1, hostOps1_1, hostOps1_2]

/-- Core `c`'s buffer contents when the region is entered: after the host lines before it. -/
def V0 (c : Dev nD) : Valuation τ sig (Elt F) := StableHlo.after (List.flatten (pfx (F := F))) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

/-- @main around the region: the host lines before it, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((sfx (F := F)).map StableHlo.seq)) :=
  Pipeline.hmain_around cfgs 0 defs₀ 𝒱₀ m main pfx sfx
    ⟨hostOps0_sub, hostOps0_1_sub, hostOps0_2_sub, hostOps0_3_sub, hostOps0_4_sub⟩
    ⟨hostOps0_fresh, hostOps0_1_fresh, hostOps0_2_fresh, hostOps0_3_fresh, hostOps0_4_fresh⟩ main_chain

/-! ## The host lines after the region: what they touch, allocate and write -/

/-- The references the frame speaks of: the three arguments and the region's other arrays. -/
def Kept (r : Ref sig .tc) : Prop :=
  r = main_arg0 ∨ r = main_arg1 ∨ r = main_arg2 ∨ r = main_v45 ∨ r = main_v46_0 ∨ r = main_v46_1

theorem hostOps1_nowrite (r : Ref sig .tc) (hr : Kept r) :
    (hostOps1 : List (HloOp τ sig (Elt F))).Forall fun op => Proc.devRef (τ := τ) .tc r ∉ op.writes := by
  rcases hr with rfl | rfl | rfl | rfl | rfl | rfl <;>
  · simp only [List.Forall, StableHlo.nullary_writes, StableHlo.unary_writes, StableHlo.binary_writes, StableHlo.ternary_writes,
      StableHlo.quaternary_writes, StableHlo.reshape_writes, StableHlo.nary_writes, Finset.mem_singleton]
    and_intros <;> exact StableHlo.devRef_ne_of_ne (by decide)

theorem hostOps1_1_nowrite (r : Ref sig .tc) (hr : Kept r) :
    (hostOps1_1 : List (HloOp τ sig (Elt F))).Forall fun op => Proc.devRef (τ := τ) .tc r ∉ op.writes := by
  rcases hr with rfl | rfl | rfl | rfl | rfl | rfl <;>
  · simp only [List.Forall, StableHlo.nullary_writes, StableHlo.unary_writes, StableHlo.binary_writes, StableHlo.ternary_writes,
      StableHlo.quaternary_writes, StableHlo.reshape_writes, StableHlo.nary_writes, Finset.mem_singleton]
    and_intros <;> exact StableHlo.devRef_ne_of_ne (by decide)

set_option maxHeartbeats 8000000 in
theorem hostOps1_2_nowrite (r : Ref sig .tc) (hr : Kept r) :
    (hostOps1_2 : List (HloOp τ sig (Elt F))).Forall fun op => Proc.devRef (τ := τ) .tc r ∉ op.writes := by
  rcases hr with rfl | rfl | rfl | rfl | rfl | rfl <;>
  · simp only [List.Forall, StableHlo.nullary_writes, StableHlo.unary_writes, StableHlo.binary_writes, StableHlo.ternary_writes,
      StableHlo.quaternary_writes, StableHlo.reshape_writes, StableHlo.nary_writes, Finset.mem_singleton]
    and_intros <;> exact StableHlo.devRef_ne_of_ne (by decide)

/-- No host line after the region writes a reference the frame speaks of. -/
theorem sfx_nowrite (r : Ref sig .tc) (hr : Kept r) :
    ∀ ops ∈ (sfx : List (List (HloOp τ sig (Elt F)))), ∀ op ∈ ops, Proc.devRef (τ := τ) .tc r ∉ op.writes := by
  intro ops hops op hop
  simp only [List.mem_cons, List.mem_nil_iff, or_false] at hops
  rcases hops with rfl | rfl | rfl
  · exact (List.forall_iff_forall_mem.mp (hostOps1_nowrite r hr)) op hop
  · exact (List.forall_iff_forall_mem.mp (hostOps1_1_nowrite r hr)) op hop
  · exact (List.forall_iff_forall_mem.mp (hostOps1_2_nowrite r hr)) op hop

/-- The lines after the region touch the pipeline's arrays and the bypassing buffers only. -/
theorem sfx_sub : ∀ ops ∈ (sfx : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (sfx : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- And write no array of the pipeline. -/
theorem sfx_keeps : ∀ ops ∈ (sfx : List (List (HloOp τ sig (Elt F)))), ∀ op ∈ ops,
    ∀ w, Proc.devRef .tc (Pipeline.arrRef spec0 w) ∉ op.writes := by
  intro ops hops op hop w
  refine sfx_nowrite (Pipeline.arrRef spec0 w) ?_ ops hops op hop
  fin_cases w
  · exact Or.inl rfl
  · exact Or.inr (Or.inr (Or.inr (Or.inl rfl)))
  · exact Or.inr (Or.inr (Or.inr (Or.inr (Or.inl rfl))))
  · exact Or.inr (Or.inr (Or.inr (Or.inr (Or.inr rfl))))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's conditional, from the grid coordinates (the skeleton's scalar chain substituted). -/
abbrev cond0_0 (i : grid0.Coords) : Prop := (Scalar.cmpi .ne (Scalar.extui (Scalar.cmpi .eq (BitVec.ofNat 32 (i 1).val) 0#32)) 0#32) = 1#1
/-- It holds at the first column block of each row block: decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The staging memrefs the body is called with -/

/-- One staging buffer of each output window, through which its contents are stated. -/
abbrev VO0_2 : View sig .tc .vmem S128x1 .f32 := (Memref.whole cc0_stg2_0 : Memref sig .tc .vmem S128x1 .f32).view
abbrev VO0_3 : View sig .tc .vmem S128x1 .f32 := (Memref.whole cc0_stg3_0 : Memref sig .tc .vmem S128x1 .f32).view
/-- Each window's current staging memref at point `t`, spelled as the pipeline passes it, and its wholeness. -/
abbrev ms0_0 (t : Fin cfg0.N) : Memref sig .tc .vmem S128x16000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1 .f32 := win0_3.stage (cfg0.slots t 3)
abbrev hs0_3 (t : Fin cfg0.N) : (ms0_3 t).IsWhole := hstage0_3 ((cfg0.slots t 3).cast nbuf0_3)

end Cert.Kernel.HF

end
-- ==== Proof.KBRunA.lean ====
import proofs.«428142_j77446850282051_3_alg».proof.Proof.KBRuns

set_option maxRecDepth 16384

noncomputable section

namespace Cert.Kernel.HF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), in the case where the
    conditional is taken, with the proof that on whole staging memrefs the body runs to the continuation
    holding the inputs' memrefs as they were and each output's memref with its pieces written. The pieces are the
    witness the run finds. -/
noncomputable def kernelRun0_A (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole)
    (hc0 : cond0_0 i)
    (x0 : Vec F S128x16000 .f32) (x1 : Vec F S128x1 .f32) :
    Σ' (L2 : List (View.Piece (Elt F) S128x1 .f32)), { L3 : List (View.Piece (Elt F) S128x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__raw_rank_kernel i arg2 harg2 arg3 harg3 arg4 harg4 arg5 harg5) K } := by
  refine ⟨?_, ?_, fun E K => ?run⟩
  case run =>
    simp only [cc0__raw_rank_kernel_eq_skeleton]; unfold cc0__raw_rank_kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.HF

end
-- ==== Proof.KBRunB.lean ====
import proofs.«428142_j77446850282051_3_alg».proof.Proof.KBRunA

set_option maxRecDepth 16384

noncomputable section

namespace Cert.Kernel.HF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each output's staging memref, as pieces (last first), in the case where the
    conditional is not taken, with the proof that on whole staging memrefs the body runs to the continuation
    holding the inputs' memrefs as they were and each output's memref with its pieces written. The pieces are the
    witness the run finds. -/
noncomputable def kernelRun0_B (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole)
    (hc0 : ¬cond0_0 i)
    (x0 : Vec F S128x16000 .f32) (x1 : Vec F S128x1 .f32) (xo2 : Vec F S128x1 .f32) (xo3 : Vec F S128x1 .f32) :
    Σ' (L2 : List (View.Piece (Elt F) S128x1 .f32)), { L3 : List (View.Piece (Elt F) S128x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__raw_rank_kernel i arg2 harg2 arg3 harg3 arg4 harg4 arg5 harg5) K } := by
  refine ⟨?_, ?_, fun E K => ?run⟩
  case run =>
    simp only [cc0__raw_rank_kernel_eq_skeleton]; unfold cc0__raw_rank_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact H3

end Cert.Kernel.HF

end
-- ==== Proof.KBOuts.lean ====
import proofs.«428142_j77446850282051_3_alg».proof.Proof.KBRunB

set_option maxRecDepth 16384

noncomputable section

namespace Cert.Kernel.HF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the outputs' staging buffers -/

/-- The reset case's pieces for each output tile its block, so they cover it. -/
theorem cover0_A_2 (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : cond0_0 i)
    (x0 : Vec F S128x16000 .f32) (x1 : Vec F S128x1 .f32) (y : S128x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S128x1.size (by sl_kernel_rfl) y
theorem cover0_A_3 (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : cond0_0 i)
    (x0 : Vec F S128x16000 .f32) (x1 : Vec F S128x1 .f32) (y : S128x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S128x1.size (by sl_kernel_rfl) y

/-- What the reset case leaves in each output's staging buffer: its pieces read back over junk. -/
def out0_A_2 (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : cond0_0 i)
    (x0 : Vec F S128x16000 .f32) (x1 : Vec F S128x1 .f32) : Vec F S128x1 .f32 :=
  VO0_2.read (Elt F) (VO0_2.writes (Elt F) VO0_2.junk (kernelRun0_A c i arg2 harg2 arg3 harg3 arg4 harg4 arg5 harg5 hc0 x0 x1).1)
def out0_A_3 (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : cond0_0 i)
    (x0 : Vec F S128x16000 .f32) (x1 : Vec F S128x1 .f32) : Vec F S128x1 .f32 :=
  VO0_3.read (Elt F) (VO0_3.writes (Elt F) VO0_3.junk (kernelRun0_A c i arg2 harg2 arg3 harg3 arg4 harg4 arg5 harg5 hc0 x0 x1).2.1)

/-- The accumulating case's pieces for each output tile its block, so they cover it. -/
theorem cover0_B_2 (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : ¬cond0_0 i)
    (x0 : Vec F S128x16000 .f32) (x1 : Vec F S128x1 .f32) (xo2 xo3 : Vec F S128x1 .f32) (y : S128x1.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S128x1.size (by sl_kernel_rfl) y
theorem cover0_B_3 (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : ¬cond0_0 i)
    (x0 : Vec F S128x16000 .f32) (x1 : Vec F S128x1 .f32) (xo2 xo3 : Vec F S128x1 .f32) (y : S128x1.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S128x1.size (by sl_kernel_rfl) y

/-- What the accumulating case leaves in each output's staging buffer: its pieces read back over junk. -/
def out0_B_2 (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : ¬cond0_0 i)
    (x0 : Vec F S128x16000 .f32) (x1 : Vec F S128x1 .f32) (xo2 xo3 : Vec F S128x1 .f32) : Vec F S128x1 .f32 :=
  VO0_2.read (Elt F) (VO0_2.writes (Elt F) VO0_2.junk (kernelRun0_B c i arg2 harg2 arg3 harg3 arg4 harg4 arg5 harg5 hc0 x0 x1 xo2 xo3).1)
def out0_B_3 (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : ¬cond0_0 i)
    (x0 : Vec F S128x16000 .f32) (x1 : Vec F S128x1 .f32) (xo2 xo3 : Vec F S128x1 .f32) : Vec F S128x1 .f32 :=
  VO0_3.read (Elt F) (VO0_3.writes (Elt F) VO0_3.junk (kernelRun0_B c i arg2 harg2 arg3 harg3 arg4 harg4 arg5 harg5 hc0 x0 x1 xo2 xo3).2.1)

end Cert.Kernel.HF

end
-- ==== Proof.KBArgs.lean ====
import proofs.«428142_j77446850282051_3_alg».proof.Proof.KBRuns

set_option maxRecDepth 16384

noncomputable section

namespace Cert.Kernel.HF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays through the host lines -/

/-- The three argument arrays. -/
def IsArg (r : Ref sig .tc) : Prop := r = main_arg0 ∨ r = main_arg1 ∨ r = main_arg2

theorem IsArg.kept {r : Ref sig .tc} (h : IsArg r) : Kept r := by
  rcases h with rfl | rfl | rfl
  · exact Or.inl rfl
  · exact Or.inr (Or.inl rfl)
  · exact Or.inr (Or.inr (Or.inl rfl))

theorem hostOps0_nowrite_arg (r : Ref sig .tc) (hr : IsArg r) :
    (hostOps0 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes,
      StableHlo.quaternary_writes, StableHlo.reshape_writes, StableHlo.nary_writes, StableHlo.binaryIndexed_writes, StableHlo.unaryIndexed_writes, Finset.mem_singleton]
    and_intros <;> exact StableHlo.devRef_ne_of_ne (by decide)

theorem hostOps0_1_nowrite_arg (r : Ref sig .tc) (hr : IsArg r) :
    (hostOps0_1 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes,
      StableHlo.quaternary_writes, StableHlo.reshape_writes, StableHlo.nary_writes, StableHlo.binaryIndexed_writes, StableHlo.unaryIndexed_writes, Finset.mem_singleton]
    and_intros <;> exact StableHlo.devRef_ne_of_ne (by decide)

set_option maxHeartbeats 2000000 in
theorem hostOps0_2_nowrite_arg (r : Ref sig .tc) (hr : IsArg r) :
    (hostOps0_2 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes,
      StableHlo.quaternary_writes, StableHlo.reshape_writes, StableHlo.nary_writes, StableHlo.binaryIndexed_writes, StableHlo.unaryIndexed_writes, Finset.mem_singleton]
    and_intros <;> exact StableHlo.devRef_ne_of_ne (by decide)

theorem hostOps0_3_nowrite_arg (r : Ref sig .tc) (hr : IsArg r) :
    (hostOps0_3 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes,
      StableHlo.quaternary_writes, StableHlo.reshape_writes, StableHlo.nary_writes, StableHlo.binaryIndexed_writes, StableHlo.unaryIndexed_writes, Finset.mem_singleton]
    and_intros <;> exact StableHlo.devRef_ne_of_ne (by decide)

theorem hostOps0_4_nowrite_arg (r : Ref sig .tc) (hr : IsArg r) :
    (hostOps0_4 : List (HloOp τ sig (Elt F))).Forall fun op => Proc.devRef (τ := τ) .tc r ∉ op.writes := by
  rcases hr with rfl | rfl | rfl <;>
  · simp only [List.Forall, StableHlo.nullary_writes, StableHlo.unary_writes, StableHlo.binary_writes, StableHlo.ternary_writes,
      StableHlo.quaternary_writes, StableHlo.reshape_writes, StableHlo.nary_writes, StableHlo.binaryIndexed_writes, StableHlo.unaryIndexed_writes, Finset.mem_singleton]
    and_intros <;> exact StableHlo.devRef_ne_of_ne (by decide)

/-- No host line before the region writes an argument array. -/
theorem pfx_nowrite_arg (r : Ref sig .tc) (hr : IsArg r) :
    ∀ op ∈ (List.flatten (pfx : List (List (HloOp τ sig (Elt F))))), Proc.devRef (τ := τ) .tc r ∉ op.writes := by
  intro op hop
  obtain ⟨ops, hops, hop⟩ := List.mem_flatten.mp hop
  simp only [List.mem_cons, List.mem_nil_iff, or_false] at hops
  rcases hops with rfl | rfl | rfl | rfl | rfl
  · exact (List.forall_iff_forall_mem.mp (hostOps0_nowrite_arg r hr)) op hop
  · exact (List.forall_iff_forall_mem.mp (hostOps0_1_nowrite_arg r hr)) op hop
  · exact (List.forall_iff_forall_mem.mp (hostOps0_2_nowrite_arg r hr)) op hop
  · exact (List.forall_iff_forall_mem.mp (hostOps0_3_nowrite_arg r hr)) op hop
  · exact (List.forall_iff_forall_mem.mp (hostOps0_4_nowrite_arg r hr)) op hop

/-- An argument array is, when the region is entered, as launched. -/
theorem V_arg (c : Dev nD) (r : Ref sig .tc) (hr : IsArg r) : V m c r = m ((c : Thread nD τ).loc r) := by
  unfold V V0
  exact StableHlo.after_of_forall_not_mem _ _ (pfx_nowrite_arg r hr)

/-- A reference the frame speaks of is, after the host lines that follow the region, as the region left it. -/
theorem after_sfx_kept (X : Valuation τ sig (Elt F)) (r : Ref sig .tc) (hr : Kept r) :
    StableHlo.after (List.flatten (sfx : List (List (HloOp τ sig (Elt F))))) X (Proc.devRef .tc r) = X (Proc.devRef .tc r) :=
  StableHlo.after_of_forall_not_mem _ _ fun op hop => by
    obtain ⟨ops, hops, hop⟩ := List.mem_flatten.mp hop
    exact sfx_nowrite r hr ops hops op hop

/-- An argument array that no window stages is, at the end, as launched. -/
theorem tail_arg (dats : (p : Fin 1) → (c : Dev nD) → Dat τ (Elt F) Unit ℕ (UR sig nD τ) ℕ (cfgs p) c) (c : Dev nD)
    (r : Ref sig .tc) (hr : IsArg r) (hne : ∀ w, Pipeline.arrRef spec0 w ≠ r) :
    Pipeline.afterTail₀ cfgs dats 0 (V0 m) sfx c r = m ((c : Thread nD τ).loc r) := by
  unfold Pipeline.afterTail₀
  rw [after_sfx_kept _ r hr.kept, Pipeline.withArrays_of_ne _ _ _ _ r hne]
  exact V_arg m c r hr

end Cert.Kernel.HF

end
-- ==== Proof.KBrame.lean ====
import proofs.«428142_j77446850282051_3_alg».proof.Proof.KBOuts
import proofs.«428142_j77446850282051_3_alg».proof.Proof.KBArgs

set_option maxRecDepth 16384

noncomputable section

namespace Cert.Kernel.HF

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- Both outputs after a point of the reset case. -/
def outA (c : Dev nD) (t : Fin cfg0.N) (h0 : t.val % 8 = 0) : Vec F S128x1 .f32 × Vec F S128x1 .f32 :=
  (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t),
   out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t))

/-- Both outputs after a point of the accumulating case, over what the point before left (`p`). -/
def outB (c : Dev nD) (t : Fin cfg0.N) (h0 : ¬t.val % 8 = 0) (p : Vec F S128x1 .f32 × Vec F S128x1 .f32) :
    Vec F S128x1 .f32 × Vec F S128x1 .f32 :=
  (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) p.1 p.2,
   out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) p.1 p.2)

/-- The accumulation: what the two outputs' staging buffers hold after the body at position `n`. -/
def outsAt0 (c : Dev nD) : (n : ℕ) → n < cfg0.N → Vec F S128x1 .f32 × Vec F S128x1 .f32
  | 0, hn => outA m c ⟨0, hn⟩ (Nat.zero_mod _)
  | n + 1, hn =>
    if h0 : (n + 1) % 8 = 0 then outA m c ⟨n + 1, hn⟩ h0
    else outB m c ⟨n + 1, hn⟩ h0 (outsAt0 c n (Nat.lt_of_succ_lt hn))

theorem outsAt0_A (c : Dev nD) (t : Fin cfg0.N) (h0 : t.val % 8 = 0) :
    outsAt0 m c t.val t.isLt = outA m c t h0 := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = outB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t`
    each input's buffer at its block and the outputs' at the accumulation; the invariant the scoped rest and the
    generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point of the accumulating case each output's current staging buffer holds what the body left at the point
    before: the point is not the first, and the buffer was not written back between. -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' memrefs hold their blocks; the closed form says which case the point is in;
    in the accumulating case the outputs hold what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 8 = 0
  · rw [outsAt0_A m c t h0]
    unfold outA out0_A_2 out0_A_3; dsimp only
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    · unfold owns; iexists _; isplitr
      swap; · iexact H3
      ipureintro; exact View.read_writes_of_cover _ _ _ _ _ (cover0_A_3 c _ _ _ _ _ _ _ _ _ _ _ _)
  · rw [outsAt0_B m c t h0]
    simp only [before0_2_B m c t h0, before0_3_B m c t h0]
    unfold outB out0_B_2 out0_B_3; dsimp only
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    · unfold owns; iexists _; isplitr
      swap; · iexact H3
      ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the
    pipeline at what the library computes from the proof data and every other unscoped buffer as the host lines after
    the region leave it. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := sfx) (hsub := sfx_sub) (hfresh := sfx_fresh) (hkeep := sfx_keeps)
    (hmain := hmain m Variants.none) (hA := A_eq m) (hΦ := fun _ _ => rfl)

/-- The frame: @main runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_arg m c main_arg0 (Or.inl rfl)))),
     ((h c).2 main_arg1 (by decide)).trans (tail_arg m (dats m) c main_arg1 (Or.inr (Or.inl rfl)) (by decide)),
     ((h c).2 main_arg2 (by decide)).trans (tail_arg m (dats m) c main_arg2 (Or.inr (Or.inr rfl)) (by decide))⟩) (run_main m ρ)

end Cert.Kernel.HF

end
-- ==== Proof.KGlue.lean ====
/-
  What the lines after the region find in memory: the four arrays the pipeline windows (the scores, the label
  scores as a column, and the two per-row counts the kernel accumulates) at the contents the pipeline leaves,
  every other buffer at what it held when the region was entered.
-/
import proofs.«428142_j77446850282051_3_alg».proof.Proof.Gen.KernelIdeal.Launch
import Idealize.ShloMosaic.Lib.Pipeline.FrameSuffix

noncomputable section

namespace Cert.KernelIdeal.HG

open Cert.KernelIdeal Cert.KernelIdeal.Gen Idealize.ShloMosaic Idealize.ShloMosaic.TcCoe Idealize.SL.Sem Idealize.ShloMosaic.StableHlo

variable {F : FTy → Type} [FloatOps F]
variable (c : Dev nD) (V : Valuation τ sig (Elt F))
  (A : (w : Fin 4) → Buf (Elt F) ((spec0 w).arr.view.loc (c.tc : Thread nD τ)))

/-- The first count's array holds what the pipeline left in it. -/
theorem at_v46_0 : Pipeline.withArrays spec0 c V A (Proc.devRef .tc main_v46_0) = A 2 :=
  Pipeline.withArrays_arr spec0 launch0.win.arr_inj c V A 2
/-- The second count's array likewise. -/
theorem at_v46_1 : Pipeline.withArrays spec0 c V A (Proc.devRef .tc main_v46_1) = A 3 :=
  Pipeline.withArrays_arr spec0 launch0.win.arr_inj c V A 3
/-- A buffer that is no window's array keeps its region-entry contents. -/
theorem at_other (b : Ref sig .tc) (hb : ∀ w, Pipeline.arrRef spec0 w ≠ b) :
    Pipeline.withArrays spec0 c V A (Proc.devRef .tc b) = V (Proc.devRef .tc b) :=
  Pipeline.withArrays_of_ne spec0 c V A b hb
theorem at_v14 : Pipeline.withArrays spec0 c V A (Proc.devRef .tc main_v14) = V (Proc.devRef .tc main_v14) := at_other c V A _ (by decide)
theorem at_v33 : Pipeline.withArrays spec0 c V A (Proc.devRef .tc main_v33) = V (Proc.devRef .tc main_v33) := at_other c V A _ (by decide)
theorem at_v39 : Pipeline.withArrays spec0 c V A (Proc.devRef .tc main_v39) = V (Proc.devRef .tc main_v39) := at_other c V A _ (by decide)
theorem at_v44 : Pipeline.withArrays spec0 c V A (Proc.devRef .tc main_v44) = V (Proc.devRef .tc main_v44) := at_other c V A _ (by decide)
theorem at_arg1 : Pipeline.withArrays spec0 c V A (Proc.devRef .tc main_arg1) = V (Proc.devRef .tc main_arg1) := at_other c V A _ (by decide)
theorem at_arg2 : Pipeline.withArrays spec0 c V A (Proc.devRef .tc main_arg2) = V (Proc.devRef .tc main_arg2) := at_other c V A _ (by decide)

/-- The result buffer and the two integer arguments bypass the region. -/
theorem v152_rest : main_v152 ∈ Pipeline.restRefs sig spec0 := Pipeline.mem_restRefs_of main_v152 rfl (by decide)
theorem arg1_rest : main_arg1 ∈ Pipeline.restRefs sig spec0 := Pipeline.mem_restRefs_of main_arg1 rfl (by decide)
theorem arg2_rest : main_arg2 ∈ Pipeline.restRefs sig spec0 := Pipeline.mem_restRefs_of main_arg2 rfl (by decide)

end Cert.KernelIdeal.HG

end
-- ==== Proof.Tail.lean ====
/-
  The last part of both programs, as one function of two vectors over the 256 rows: the rank of each row's label
  and the row's valid length. Thirteen numbers come out, each a mean over the rows: for each of the five cut-offs
  1, 5, 10, 20, 50 the mean of the discounted hit [rank < k] / log₂ (rank + 2) and the mean of the hit
  [rank < k]; then the mean of 1 / (rank + 1), the mean of 1 - rank / valid, and a zero.
-/
import Idealize.ShloMosaic.PureOps

noncomputable section

namespace Cert.Tail

open Idealize.ShloMosaic

abbrev S256 : Shape := ⟨1, ![256]⟩
abbrev S_ : Shape := ⟨0, ![]⟩
abbrev S1 : Shape := ⟨1, ![1]⟩
abbrev S13 : Shape := ⟨1, ![13]⟩

theorem bcast_S_S256 : S_.BroadcastsInDim S256 (![] : Fin 0 → Fin S256.rank) := by decide
theorem bcast_S_S1 : S_.BroadcastsInDim S1 (![] : Fin 0 → Fin S1.rank) := by decide
theorem reducesTo_S256_S_d0 : S256.ReducesTo [0] S_ := by decide
theorem h_S_ : 0 < S_.numel := by decide
theorem concatenates13 : Shape.Concatenates [S1, S1, S1, S1, S1, S1, S1, S1, S1, S1, S1, S1, S1] S13 0 := by decide

variable {F : FTy → Type} [FloatOps F]

/-- One bit pattern at every row. -/
def splat (b : BitVec 32) : FVec F S256 .f32 := broadcastInDim S256 ![] bcast_S_S256 (constant S_ .f32 b)

/-- The mean over the 256 rows as a one-element vector: the sum from zero, divided by 256. -/
def mean1 (x : FVec F S256 .f32) : FVec F S1 .f32 :=
  broadcastInDim S1 ![] bcast_S_S1
    (Host.divf (Host.reduceAdd x (constant S_ .f32 0x00000000#32) reducesTo_S256_S_d0 h_S_) (constant S_ .f32 0x43800000#32))

/-- The hit at the cut-off with bit pattern `k`: 1 where the rank is below it, else 0. -/
def hitAt (k : BitVec 32) (rank : FVec F S256 .f32) : FVec F S256 .f32 := uitofp .f32 (cmpf .olt rank (splat k))

/-- The discount's denominator log (rank + 2) / log 2. -/
def disc (rank : FVec F S256 .f32) : FVec F S256 .f32 :=
  Host.divf (Host.log (addf rank (splat 0x40000000#32)))
    (broadcastInDim S256 ![] bcast_S_S256 (Host.log (constant S_ .f32 0x40000000#32)))

/-- The thirteen results from the rank vector and the valid-length vector. -/
def tail (rank valid : FVec F S256 .f32) : FVec F S13 .f32 :=
  concatenate S13 0
    [⟨S1, mean1 (Host.divf (hitAt 0x3F800000#32 rank) (disc rank))⟩, ⟨S1, mean1 (hitAt 0x3F800000#32 rank)⟩,
     ⟨S1, mean1 (Host.divf (hitAt 0x40A00000#32 rank) (disc rank))⟩, ⟨S1, mean1 (hitAt 0x40A00000#32 rank)⟩,
     ⟨S1, mean1 (Host.divf (hitAt 0x41200000#32 rank) (disc rank))⟩, ⟨S1, mean1 (hitAt 0x41200000#32 rank)⟩,
     ⟨S1, mean1 (Host.divf (hitAt 0x41A00000#32 rank) (disc rank))⟩, ⟨S1, mean1 (hitAt 0x41A00000#32 rank)⟩,
     ⟨S1, mean1 (Host.divf (hitAt 0x42480000#32 rank) (disc rank))⟩, ⟨S1, mean1 (hitAt 0x42480000#32 rank)⟩,
     ⟨S1, mean1 (Host.divf (splat 0x3F800000#32) (addf rank (splat 0x3F800000#32)))⟩,
     ⟨S1, mean1 (subf (splat 0x3F800000#32) (Host.divf rank valid))⟩,
     ⟨S1, broadcastInDim S1 ![] bcast_S_S1 (constant S_ .f32 0x00000000#32)⟩]
    concatenates13

end Cert.Tail

end
-- ==== Proof.KTail.lean ====
/-
  The kernel program's later host operations, read at the result buffer: from any contents W of the device's
  buffers they leave the shared tail function of two vectors read off W — the rank (the kernel's count, less the
  history items' share, plus the masking constant's share where the label's score is below the constant) and the
  valid length (the item count, less the distinct history items, less the kernel's count of entries at or below the
  constant, plus the history items' share of those). The three arguments are not written.
-/
import proofs.«428142_j77446850282051_3_alg».proof.Proof.Gen.KernelIdeal.Launch
import proofs.«428142_j77446850282051_3_alg».proof.Proof.Tail
import Idealize.ShloMosaic.Lib.StableHlo.Run
import Idealize.ShloMosaic.Lib.Pipeline.Frame

noncomputable section

namespace Cert.KernelIdeal.HT

open Cert.KernelIdeal Cert.KernelIdeal.Gen Idealize.ShloMosaic Idealize.ShloMosaic.TcCoe Idealize.SL.Sem Idealize.ShloMosaic.StableHlo

variable {F : FTy → Type} [FloatOps F]

/-- The kernel's rank vector over contents W: the kernel's count less the history items' share, plus the masking
    constant's share where the label's score is below it. -/
def rankT (W : Valuation τ sig (Elt F)) : FVec F Cert.Tail.S256 .f32 :=
  addf (subf (shapeCast S256 (W (Proc.devRef .tc main_v46_0) : (⟨S256x1, .f32⟩ : BufTy).Contents (Elt F)) shapeCasts_S256x1_S256)
      (W (Proc.devRef .tc main_v39) : (⟨S256, .f32⟩ : BufTy).Contents (Elt F)))
    (select (cmpf .olt (W (Proc.devRef .tc main_v14) : (⟨S256, .f32⟩ : BufTy).Contents (Elt F))
        (broadcastInDim S256 ![] bcast_S_S256 (constant S_ .f32 0xC61C4000#32)))
      (W (Proc.devRef .tc main_v33) : (⟨S256, .f32⟩ : BufTy).Contents (Elt F))
      (broadcastInDim S256 ![] bcast_S_S256 (constant S_ .f32 0x00000000#32)))

/-- The kernel's valid-length vector over contents W. -/
def validT (W : Valuation τ sig (Elt F)) : FVec F Cert.Tail.S256 .f32 :=
  addf (subf (subf (broadcastInDim S256 ![] bcast_S_S256 (constant S_ .f32 0x47FA0000#32))
        (W (Proc.devRef .tc main_v33) : (⟨S256, .f32⟩ : BufTy).Contents (Elt F)))
      (shapeCast S256 (W (Proc.devRef .tc main_v46_1) : (⟨S256x1, .f32⟩ : BufTy).Contents (Elt F)) shapeCasts_S256x1_S256))
    (W (Proc.devRef .tc main_v44) : (⟨S256, .f32⟩ : BufTy).Contents (Elt F))

/-- Thirteen one-element pieces joined: equal pieces give equal joins. -/
theorem cat13_congr {α : Type} {a0 a1 a2 a3 a4 a5 a6 a7 a8 a9 a10 a11 a12 b0 b1 b2 b3 b4 b5 b6 b7 b8 b9 b10 b11 b12 : Cert.Tail.S1.Idx → α}
    (h : Shape.Concatenates [Cert.Tail.S1, Cert.Tail.S1, Cert.Tail.S1, Cert.Tail.S1, Cert.Tail.S1, Cert.Tail.S1, Cert.Tail.S1, Cert.Tail.S1, Cert.Tail.S1, Cert.Tail.S1, Cert.Tail.S1, Cert.Tail.S1, Cert.Tail.S1] Cert.Tail.S13 0)
    (e0 : a0 = b0) (e1 : a1 = b1) (e2 : a2 = b2) (e3 : a3 = b3) (e4 : a4 = b4) (e5 : a5 = b5) (e6 : a6 = b6)
    (e7 : a7 = b7) (e8 : a8 = b8) (e9 : a9 = b9) (e10 : a10 = b10) (e11 : a11 = b11) (e12 : a12 = b12) :
    concatenate Cert.Tail.S13 0 [⟨Cert.Tail.S1, a0⟩, ⟨Cert.Tail.S1, a1⟩, ⟨Cert.Tail.S1, a2⟩, ⟨Cert.Tail.S1, a3⟩, ⟨Cert.Tail.S1, a4⟩, ⟨Cert.Tail.S1, a5⟩, ⟨Cert.Tail.S1, a6⟩, ⟨Cert.Tail.S1, a7⟩, ⟨Cert.Tail.S1, a8⟩, ⟨Cert.Tail.S1, a9⟩, ⟨Cert.Tail.S1, a10⟩, ⟨Cert.Tail.S1, a11⟩, ⟨Cert.Tail.S1, a12⟩] h
      = concatenate Cert.Tail.S13 0 [⟨Cert.Tail.S1, b0⟩, ⟨Cert.Tail.S1, b1⟩, ⟨Cert.Tail.S1, b2⟩, ⟨Cert.Tail.S1, b3⟩, ⟨Cert.Tail.S1, b4⟩, ⟨Cert.Tail.S1, b5⟩, ⟨Cert.Tail.S1, b6⟩, ⟨Cert.Tail.S1, b7⟩, ⟨Cert.Tail.S1, b8⟩, ⟨Cert.Tail.S1, b9⟩, ⟨Cert.Tail.S1, b10⟩, ⟨Cert.Tail.S1, b11⟩, ⟨Cert.Tail.S1, b12⟩] h := by
  subst e0 e1 e2 e3 e4 e5 e6 e7 e8 e9 e10 e11 e12; rfl

/-- Three lists joined are the two joins in a row. -/
theorem flatten3 {α : Type} (a b c : List α) : [a, b, c].flatten = a ++ b ++ c := by
  simp only [List.flatten_cons, List.flatten_nil, List.append_nil, List.append_assoc]

set_option maxRecDepth 16384 in
set_option maxHeartbeats 8000000 in
/-- The result buffer after the later operations is the tail function of the rank and valid-length vectors: the last
    operation joins thirteen one-element buffers, and each of those reads back, through the operations before it, as the
    corresponding mean. -/
theorem tail_eq (W : Valuation τ sig (Elt F)) :
    after (hostOps1 ++ hostOps1_1 ++ hostOps1_2) W (Proc.devRef .tc main_v152) = Cert.Tail.tail (rankT W) (validT W) := by
  rw [StableHlo.after_append, StableHlo.after_append]
  simp only [hostOps1, hostOps1_1, hostOps1_2]
  after_results_simp
  dsimp only [Matrix.cons_val]
  unfold Cert.Tail.tail
  refine cat13_congr _ ?_ ?_ ?_ ?_ ?_ ?_ ?_ ?_ ?_ ?_ ?_ ?_ ?_
  all_goals after_results_simp
  all_goals rfl

/-- The same over the three stretches as one flattened list. -/
theorem tail_eq_flatten (W : Valuation τ sig (Elt F)) :
    after (List.flatten [hostOps1, hostOps1_1, hostOps1_2]) W (Proc.devRef .tc main_v152)
      = Cert.Tail.tail (rankT W) (validT W) := by
  rw [flatten3]; exact tail_eq W

set_option maxRecDepth 16384 in
set_option maxHeartbeats 8000000 in
/-- No later operation writes the first argument. -/
theorem keep_arg0 (W : Valuation τ sig (Elt F)) :
    after (hostOps1 ++ hostOps1_1 ++ hostOps1_2) W (Proc.devRef .tc main_arg0) = W (Proc.devRef .tc main_arg0) := by
  rw [StableHlo.after_append, StableHlo.after_append]
  simp only [hostOps1, hostOps1_1, hostOps1_2]
  after_results_simp

set_option maxRecDepth 16384 in
set_option maxHeartbeats 8000000 in
/-- No later operation writes the second argument. -/
theorem keep_arg1 (W : Valuation τ sig (Elt F)) :
    after (hostOps1 ++ hostOps1_1 ++ hostOps1_2) W (Proc.devRef .tc main_arg1) = W (Proc.devRef .tc main_arg1) := by
  rw [StableHlo.after_append, StableHlo.after_append]
  simp only [hostOps1, hostOps1_1, hostOps1_2]
  after_results_simp

set_option maxRecDepth 16384 in
set_option maxHeartbeats 8000000 in
/-- No later operation writes the third argument. -/
theorem keep_arg2 (W : Valuation τ sig (Elt F)) :
    after (hostOps1 ++ hostOps1_1 ++ hostOps1_2) W (Proc.devRef .tc main_arg2) = W (Proc.devRef .tc main_arg2) := by
  rw [StableHlo.after_append, StableHlo.after_append]
  simp only [hostOps1, hostOps1_1, hostOps1_2]
  after_results_simp

theorem keep_arg0_flatten (W : Valuation τ sig (Elt F)) :
    after (List.flatten [hostOps1, hostOps1_1, hostOps1_2]) W (Proc.devRef .tc main_arg0) = W (Proc.devRef .tc main_arg0) := by
  rw [flatten3]; exact keep_arg0 W
theorem keep_arg1_flatten (W : Valuation τ sig (Elt F)) :
    after (List.flatten [hostOps1, hostOps1_1, hostOps1_2]) W (Proc.devRef .tc main_arg1) = W (Proc.devRef .tc main_arg1) := by
  rw [flatten3]; exact keep_arg1 W
theorem keep_arg2_flatten (W : Valuation τ sig (Elt F)) :
    after (List.flatten [hostOps1, hostOps1_1, hostOps1_2]) W (Proc.devRef .tc main_arg2) = W (Proc.devRef .tc main_arg2) := by
  rw [flatten3]; exact keep_arg2 W

end Cert.KernelIdeal.HT

end
-- ==== Proof.Spec.lean ====
/-
  The mathematics both programs compute, row by row, over plain functions: `s b v` the score of item `v` in row
  `b`, `p b` the score of the row's label, `q b l` the `l`-th history word of the row, `c` the masking constant.
  The reference overwrites the scores at the history items with `c` and counts, per row, the entries above `p b`
  (the rank) and the entries above `c` (the valid length). The kernel counts over the UNMASKED scores and corrects:
  it subtracts what the distinct history items contributed and adds what `c` contributes in their place.
-/
import Idealize.ShloMosaic.PureOps.Ideal
import Idealize.ShloMosaic.Lib.ValueIdx

noncomputable section

namespace Cert.Spec

open Idealize.ShloMosaic

/-- The indicator of a proposition as an extended real. -/
def ind (P : Prop) [Decidable P] : EReal := if P then 1 else 0

/-- Every history word of every row is an item number: non-negative as a signed word and below the item count. -/
def InRange (q : Fin 256 → Fin 200 → BitVec 32) : Prop :=
  ∀ b l, 0 ≤ (q b l).toInt ∧ (q b l).toInt < 128000

/-- Position `l` is the first occurrence of its word in row `b`'s history. -/
def first (q : Fin 256 → Fin 200 → BitVec 32) (b : Fin 256) (l : Fin 200) : Prop :=
  ∀ l' : Fin 200, l'.val < l.val → q b l' ≠ q b l

/-- Item `v` occurs in row `b`'s history. -/
def hit (q : Fin 256 → Fin 200 → BitVec 32) (b : Fin 256) (v : Fin 128000) : Prop :=
  ∃ l : Fin 200, (q b l).toNat = v.val

/-- The item a history word names (any word, reduced into range; for a word in range it is the word). -/
def col (q : Fin 256 → Fin 200 → BitVec 32) (b : Fin 256) (l : Fin 200) : Fin 128000 :=
  ⟨(q b l).toNat % 128000, Nat.mod_lt _ (by norm_num)⟩

instance (q : Fin 256 → Fin 200 → BitVec 32) (b : Fin 256) (l : Fin 200) : Decidable (first q b l) := by
  unfold first; infer_instance
instance (q : Fin 256 → Fin 200 → BitVec 32) (b : Fin 256) (v : Fin 128000) : Decidable (hit q b v) := by
  unfold hit; infer_instance

variable (s : Fin 256 → Fin 128000 → EReal) (p : Fin 256 → EReal) (q : Fin 256 → Fin 200 → BitVec 32) (c : EReal)

/-- The scores with every history item of the row overwritten by `c`. -/
def masked (b : Fin 256) (v : Fin 128000) : EReal := if hit q b v then c else s b v

/-! ## The kernel's quantities -/

/-- Entries of the unmasked row above the label's score. -/
def raw (b : Fin 256) : EReal := ∑ v : Fin 128000, ind (p b < s b v)
/-- Entries of the unmasked row at or below `c`. -/
def tle (b : Fin 256) : EReal := ∑ v : Fin 128000, ind (s b v ≤ c)
/-- The number of distinct history words of the row. -/
def dc (b : Fin 256) : EReal := ∑ l : Fin 200, ind (first q b l)
/-- Distinct history items whose score is above the label's. -/
def corr (b : Fin 256) : EReal := ∑ l : Fin 200, ind (first q b l ∧ p b < s b (col q b l))
/-- Distinct history items whose score is at or below `c`. -/
def eqs (b : Fin 256) : EReal := ∑ l : Fin 200, ind (first q b l ∧ s b (col q b l) ≤ c)
/-- The kernel's rank: the unmasked count, less the history items' share, plus `c`'s share in their place. -/
def rankK (b : Fin 256) : EReal := (raw s p b - corr s p q b) + (if p b < c then dc q b else 0)
/-- The kernel's valid length. -/
def validK (b : Fin 256) : EReal := (((128000 : ℝ) : EReal) - dc q b - tle s c b) + eqs s q c b

/-! ## The reference's quantities -/

/-- Entries of the masked row above the label's score, counted. -/
def rankR (b : Fin 256) : EReal := ((Finset.univ.filter fun v : Fin 128000 => p b < masked s q c b v).card : ℝ)
/-- Entries of the masked row above `c`, counted. -/
def validR (b : Fin 256) : EReal := ((Finset.univ.filter fun v : Fin 128000 => c < masked s q c b v).card : ℝ)

end Cert.Spec

end
-- ==== Proof.Conv.lean ====
/-
  The zero/one conversions at the extended reals, as indicators: a one-bit word converted to a float is the
  indicator of the word being one, and a comparison word is one exactly when the comparison holds.
-/
import Idealize.ShloMosaic.PureOps.Ideal
import Idealize.ShloMosaic.Lib.ValueIdx
import proofs.«428142_j77446850282051_3_alg».proof.Proof.Spec

noncomputable section

namespace Cert.Conv

open Idealize.ShloMosaic Cert.Spec

/-! ## Indicators -/

/-- Indicators of equivalent propositions are equal, whatever the decision procedures. -/
theorem ind_congr {P Q : Prop} [Decidable P] [Decidable Q] (h : P ↔ Q) : ind P = ind Q := by
  unfold ind
  by_cases hp : P
  · rw [if_pos hp, if_pos (h.1 hp)]
  · rw [if_neg hp, if_neg (fun hq => hp (h.2 hq))]

theorem ind_true {P : Prop} [Decidable P] (h : P) : ind P = 1 := if_pos h
theorem ind_false {P : Prop} [Decidable P] (h : ¬ P) : ind P = 0 := if_neg h

/-- A one-bit word is zero or one. -/
theorem bit_cases (x : BitVec 1) : x = 0#1 ∨ x = 1#1 := BitVec.eq_zero_or_eq_one x

/-! ## A one-bit word converted to a float -/

/-- A one-bit word read unsigned and converted is the indicator of its being one. -/
theorem uitofp_bit (x : BitVec 1) : FloatOps.uitofp (F := Ideal) .f32 x = ind (x = 1#1) := by
  show ((x.toNat : ℝ) : EReal) = ind (x = 1#1)
  rcases bit_cases x with h | h <;> subst h <;> simp [ind]

/-- A one-bit word widened by zeros, read signed and converted, is the indicator of its being one. -/
theorem sitofp_setWidth_bit (x : BitVec 1) :
    FloatOps.sitofp (F := Ideal) .f32 (x.setWidth 32) = ind (x = 1#1) := by
  show (((x.setWidth 32).toInt : ℝ) : EReal) = ind (x = 1#1)
  rcases bit_cases x with h | h <;> subst h <;> simp [ind]

/-! ## Comparison words -/

theorem ofBool_decide_eq_one (P : Prop) [Decidable P] : BitVec.ofBool (decide P) = 1#1 ↔ P := by
  by_cases h : P <;> simp [h]

theorem cmpf_olt_eq_one (a b : EReal) : FloatOps.cmpf (F := Ideal) (φ := .f32) .olt a b = 1#1 ↔ a < b :=
  ofBool_decide_eq_one (a < b)
theorem cmpf_ole_eq_one (a b : EReal) : FloatOps.cmpf (F := Ideal) (φ := .f32) .ole a b = 1#1 ↔ a ≤ b :=
  ofBool_decide_eq_one (a ≤ b)
theorem cmpf_ogt_eq_one (a b : EReal) : FloatOps.cmpf (F := Ideal) (φ := .f32) .ogt a b = 1#1 ↔ b < a :=
  ofBool_decide_eq_one (b < a)

theorem andi_eq_one (x y : BitVec 1) : IntOp.andi x y = 1#1 ↔ x = 1#1 ∧ y = 1#1 := by
  revert x y; decide
theorem ori_eq_one (x y : BitVec 1) : IntOp.ori x y = 1#1 ↔ x = 1#1 ∨ y = 1#1 := by
  revert x y; decide
theorem not_eq_one (x : BitVec 1) : ~~~x = 1#1 ↔ ¬ x = 1#1 := by
  revert x; decide

/-! ## Converted comparisons -/

theorem uitofp_cmpf_olt (a b : EReal) :
    FloatOps.uitofp (F := Ideal) .f32 (FloatOps.cmpf (F := Ideal) (φ := .f32) .olt a b) = ind (a < b) :=
  (uitofp_bit _).trans (ind_congr (cmpf_olt_eq_one a b))
theorem uitofp_cmpf_ole (a b : EReal) :
    FloatOps.uitofp (F := Ideal) .f32 (FloatOps.cmpf (F := Ideal) (φ := .f32) .ole a b) = ind (a ≤ b) :=
  (uitofp_bit _).trans (ind_congr (cmpf_ole_eq_one a b))
theorem uitofp_cmpf_ogt (a b : EReal) :
    FloatOps.uitofp (F := Ideal) .f32 (FloatOps.cmpf (F := Ideal) (φ := .f32) .ogt a b) = ind (b < a) :=
  (uitofp_bit _).trans (ind_congr (cmpf_ogt_eq_one a b))

theorem sitofp_setWidth_cmpf_olt (a b : EReal) :
    FloatOps.sitofp (F := Ideal) .f32 ((FloatOps.cmpf (F := Ideal) (φ := .f32) .olt a b).setWidth 32)
      = ind (a < b) :=
  (sitofp_setWidth_bit _).trans (ind_congr (cmpf_olt_eq_one a b))
theorem sitofp_setWidth_cmpf_ole (a b : EReal) :
    FloatOps.sitofp (F := Ideal) .f32 ((FloatOps.cmpf (F := Ideal) (φ := .f32) .ole a b).setWidth 32)
      = ind (a ≤ b) :=
  (sitofp_setWidth_bit _).trans (ind_congr (cmpf_ole_eq_one a b))

/-! ## Conjunctions, negations and selects of words -/

theorem uitofp_andi (x y : BitVec 1) :
    FloatOps.uitofp (F := Ideal) .f32 (IntOp.andi x y) = ind (x = 1#1 ∧ y = 1#1) :=
  (uitofp_bit _).trans (ind_congr (andi_eq_one x y))

theorem uitofp_not (x : BitVec 1) : FloatOps.uitofp (F := Ideal) .f32 (~~~x) = ind (¬ x = 1#1) :=
  (uitofp_bit _).trans (ind_congr (not_eq_one x))

/-- The conversion of a conjunction of a word with a comparison word. -/
theorem uitofp_andi_cmpf_olt (x : BitVec 1) (a b : EReal) :
    FloatOps.uitofp (F := Ideal) .f32 (IntOp.andi x (FloatOps.cmpf (F := Ideal) (φ := .f32) .olt a b))
      = ind (x = 1#1 ∧ a < b) :=
  (uitofp_bit _).trans (ind_congr ((andi_eq_one _ _).trans (and_congr_right fun _ => cmpf_olt_eq_one a b)))

theorem select_eq_ite {α : Type} (x : BitVec 1) (a b : α) :
    Scalar.select x a b = if x = 1#1 then a else b := rfl

/-- A select between an indicator and zero is the indicator of the conjunction. -/
theorem select_ind_zero (x : BitVec 1) (P : Prop) [Decidable P] :
    Scalar.select x (ind P) (0 : EReal) = ind (x = 1#1 ∧ P) := by
  rw [select_eq_ite]
  by_cases hx : x = 1#1
  · rw [if_pos hx]; exact ind_congr ⟨fun h => ⟨hx, h⟩, fun h => h.2⟩
  · rw [if_neg hx]; exact (ind_false fun h => hx h.1).symm

/-- A select on a comparison word is the conditional on the comparison. -/
theorem select_cmpf_olt {α : Type} (a b : EReal) (u v : α) :
    Scalar.select (FloatOps.cmpf (F := Ideal) (φ := .f32) .olt a b) u v = if a < b then u else v := by
  rw [select_eq_ite]
  by_cases h : a < b
  · rw [if_pos h, if_pos ((cmpf_olt_eq_one a b).2 h)]
  · rw [if_neg h, if_neg (fun h' => h ((cmpf_olt_eq_one a b).1 h'))]

end Cert.Conv

end
-- ==== Proof.Consts.lean ====
/-
  The float constants the programs spell, as the extended reals their patterns denote.
-/
import Idealize.ShloMosaic.PureOps.Ideal

noncomputable section

namespace Cert.Consts

open Idealize.ShloMosaic

/-- The pattern of +0.0 denotes 0. -/
theorem ofBits_zero : Ideal.ofBits .f32 0#32 = 0 := by
  simp [Ideal.ofBits, Ideal.ieee]

/-- The pattern of 1.0 denotes 1. -/
theorem ofBits_one : Ideal.ofBits .f32 0x3F800000#32 = 1 := by
  simp [Ideal.ofBits, Ideal.ieee, -EReal.coe_mul]; norm_num

/-- The pattern of 128000.0, the item count, denotes the real 128000. -/
theorem ofBits_128000 : Ideal.ofBits .f32 0x47FA0000#32 = ((128000 : ℝ) : EReal) := by
  simp [Ideal.ofBits, Ideal.ieee, -EReal.coe_mul]; norm_num

end Cert.Consts

end
-- ==== Proof.KRank.lean ====
/-
  The kernel program's rank and valid-length vectors read at a row: over any contents of the device's buffers they
  are the kernel's rank and valid length of the vocabulary, once the buffers they read hold its quantities.
-/
import proofs.«428142_j77446850282051_3_alg».proof.Proof.KTail
import proofs.«428142_j77446850282051_3_alg».proof.Proof.Conv
import proofs.«428142_j77446850282051_3_alg».proof.Proof.Consts
import proofs.«428142_j77446850282051_3_alg».proof.Proof.Spec
import Idealize.ShloMosaic.Lib.ValueIdx
import Idealize.ShloMosaic.Lib.Pipeline.Value

noncomputable section

namespace Cert.KernelIdeal.HK

open Cert.KernelIdeal Cert.KernelIdeal.Gen Cert.KernelIdeal.HT Idealize.ShloMosaic Idealize.ShloMosaic.ValueIdx
  Idealize.ShloMosaic.TcCoe Idealize.SL.Sem Idealize.ShloMosaic.StableHlo

/-- The masking constant, as the extended real its pattern denotes. -/
def cst : EReal := Ideal.ofBits .f32 0xC61C4000#32

/-- The buffers the two vectors read, each at its literal type. -/
abbrev r46_0 (W : Valuation τ sig (Elt Ideal)) : FVec Ideal S256x1 .f32 := W (Proc.devRef .tc main_v46_0)
abbrev r46_1 (W : Valuation τ sig (Elt Ideal)) : FVec Ideal S256x1 .f32 := W (Proc.devRef .tc main_v46_1)
abbrev r39 (W : Valuation τ sig (Elt Ideal)) : FVec Ideal S256 .f32 := W (Proc.devRef .tc main_v39)
abbrev r14 (W : Valuation τ sig (Elt Ideal)) : FVec Ideal S256 .f32 := W (Proc.devRef .tc main_v14)
abbrev r33 (W : Valuation τ sig (Elt Ideal)) : FVec Ideal S256 .f32 := W (Proc.devRef .tc main_v33)
abbrev r44 (W : Valuation τ sig (Elt Ideal)) : FVec Ideal S256 .f32 := W (Proc.devRef .tc main_v44)

/-- A column [a, 1] recast as a vector [a] reads, at i, the column at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The rank vector at a row: the kernel's count less the history items' share, plus the distinct count where the
label's score is below the masking constant. -/
theorem rankT_row (W : Valuation τ sig (Elt Ideal)) (b : Fin 256) :
    rankT (F := Ideal) W (ix1 b)
      = (r46_0 W (ix2 b (0 : Fin 1))
          - r39 W (ix1 b))
        + (if r14 W (ix1 b) < cst
            then r33 W (ix1 b) else 0) := by
  have hz : (broadcastInDim S256 ![] bcast_S_S256 (constant (F := Ideal) S_ .f32 0x00000000#32)) (ix1 b) = (0 : EReal) :=
    Cert.Consts.ofBits_zero
  show (shapeCast S256 (r46_0 W) shapeCasts_S256x1_S256 (ix1 b) - r39 W (ix1 b))
      + Scalar.select (FloatOps.cmpf (F := Ideal) (φ := .f32) .olt (r14 W (ix1 b)) cst) (r33 W (ix1 b))
          ((broadcastInDim S256 ![] bcast_S_S256 (constant (F := Ideal) S_ .f32 0x00000000#32)) (ix1 b)) = _
  rw [shapeCast_a1_a_apply, Cert.Conv.select_cmpf_olt, hz]

/-- The valid-length vector at a row. -/
theorem validT_row (W : Valuation τ sig (Elt Ideal)) (b : Fin 256) :
    validT (F := Ideal) W (ix1 b)
      = ((((128000 : ℝ) : EReal)
            - r33 W (ix1 b))
          - r46_1 W (ix2 b (0 : Fin 1)))
        + r44 W (ix1 b) := by
  have hc : (broadcastInDim S256 ![] bcast_S_S256 (constant (F := Ideal) S_ .f32 0x47FA0000#32)) (ix1 b)
      = ((128000 : ℝ) : EReal) := Cert.Consts.ofBits_128000
  show (((broadcastInDim S256 ![] bcast_S_S256 (constant (F := Ideal) S_ .f32 0x47FA0000#32)) (ix1 b) - r33 W (ix1 b))
      - shapeCast S256 (r46_1 W) shapeCasts_S256x1_S256 (ix1 b)) + r44 W (ix1 b) = _
  rw [shapeCast_a1_a_apply, hc]

/-- The rank vector at a row is the kernel's rank of the vocabulary, when the four buffers hold its quantities. -/
theorem rank_of (W : Valuation τ sig (Elt Ideal)) (s : Fin 256 → Fin 128000 → EReal) (p : Fin 256 → EReal)
    (q : Fin 256 → Fin 200 → BitVec 32) (b : Fin 256)
    (h46 : r46_0 W (ix2 b (0 : Fin 1))
      = Cert.Spec.raw s p b)
    (h39 : r39 W (ix1 b) = Cert.Spec.corr s p q b)
    (h14 : r14 W (ix1 b) = p b)
    (h33 : r33 W (ix1 b) = Cert.Spec.dc q b) :
    rankT (F := Ideal) W (ix1 b) = Cert.Spec.rankK s p q cst b := by
  rw [rankT_row, h46, h39, h14, h33]
  rfl

/-- The valid-length vector at a row is the kernel's valid length of the vocabulary. -/
theorem valid_of (W : Valuation τ sig (Elt Ideal)) (s : Fin 256 → Fin 128000 → EReal)
    (q : Fin 256 → Fin 200 → BitVec 32) (b : Fin 256)
    (h461 : r46_1 W (ix2 b (0 : Fin 1))
      = Cert.Spec.tle s cst b)
    (h44 : r44 W (ix1 b) = Cert.Spec.eqs s q cst b)
    (h33 : r33 W (ix1 b) = Cert.Spec.dc q b) :
    validT (F := Ideal) W (ix1 b) = Cert.Spec.validK s q cst b := by
  rw [validT_row, h461, h44, h33]
  rfl

end Cert.KernelIdeal.HK

end
-- ==== Proof.KPreTerms.lean ====
/-
  The kernel program's host values before the region, as composed terms of the three argument arrays. The operations
  are read stage by stage: the label gather, the history gather, the first-occurrence mask with the two sums that use
  it, the masked indicator, the last sum and the label scores as a column. Shared subterms are named.
-/
import proofs.«428142_j77446850282051_3_alg».proof.Proof.Gen.KernelIdeal.Launch
import proofs.«428142_j77446850282051_3_alg».proof.Proof.Spec
import Idealize.ShloMosaic.Lib.StableHlo.Run
import Idealize.ShloMosaic.Lib.Pipeline.Frame

noncomputable section

namespace Cert.KernelIdeal.HPre

open Cert.KernelIdeal Cert.KernelIdeal.Gen Idealize.ShloMosaic Idealize.ShloMosaic.TcCoe Idealize.SL.Sem Idealize.ShloMosaic.StableHlo

/-! ## The operations before the region, as one list and stage by stage -/

/-- The host operations that run before the region, in order. -/
abbrev ops0 : List (HloOp τ sig (Elt Ideal)) := hostOps0 ++ hostOps0_1 ++ hostOps0_2 ++ hostOps0_3 ++ hostOps0_4

theorem ops0_eq_flatten : (ops0 : List (HloOp τ sig (Elt Ideal))) = List.flatten [hostOps0, hostOps0_1, hostOps0_2, hostOps0_3, hostOps0_4] := by
  simp only [ops0, List.flatten_cons, List.flatten_nil, List.append_nil, List.append_assoc]

/-! ### The named values -/

/-- The start-index pairs (row, label) of the label gather. -/
def idxP (A1 : IVec S256 32) : IVec S256x2 32 :=
  concatenate S256x2 1 [⟨S256x1, (broadcastInDim S256x1 ![0] bcast_S256_S256x1_0 (select (cmpi .slt (iotaInDim S256 32 0) (broadcastInDim S256 ![] bcast_S_S256 (constantI S_ 32 0#32))) (addi (iotaInDim S256 32 0) (broadcastInDim S256 ![] bcast_S_S256 (constantI S_ 32 256#32))) (iotaInDim S256 32 0)))⟩, ⟨S256x1, (broadcastInDim S256x1 ![0] bcast_S256_S256x1_0 (select (cmpi .slt A1 (broadcastInDim S256 ![] bcast_S_S256 (constantI S_ 32 0#32))) (addi A1 (broadcastInDim S256 ![] bcast_S_S256 (constantI S_ 32 128000#32))) A1))⟩] concatenates_S256x1_S256x1_S256x2_d1

/-- The label's score of every row. -/
def Pv (A0 : FVec Ideal S256x128000 .f32) (A1 : IVec S256 32) : FVec Ideal S256 .f32 :=
  Host.gather gather_S256x128000_S256x2_S256_n_01_n_n_01_1_11 A0 (idxP A1)

/-- The history words with a negative word moved up by the item count. -/
def seqN (A2 : IVec S256x200 32) : IVec S256x200 32 :=
  select (cmpi .slt A2 (broadcastInDim S256x200 ![] bcast_S_S256x200 (constantI S_ 32 0#32)))
    (addi A2 (broadcastInDim S256x200 ![] bcast_S_S256x200 (constantI S_ 32 128000#32))) A2

/-- The same with a trailing unit axis. -/
def seq3 (A2 : IVec S256x200 32) : IVec S256x200x1 32 :=
  shapeCast S256x200x1 (seqN A2) shapeCasts_S256x200_S256x200x1

/-- Whether the normalised history word is an item number. -/
def inr (A2 : IVec S256x200 32) : IVec S256x200 1 :=
  Host.reduce IntOp.andi
    (andi (cmpi .sge (seq3 A2) (broadcastInDim S256x200x1 ![] bcast_S_S256x200x1 (constantI S_ 32 0#32)))
      (cmpi .sle (seq3 A2) (broadcastInDim S256x200x1 ![0, 1, 2] bcast_S1x1x1_S256x200x1_0_1_2 (broadcastInDim S1x1x1 ![2] bcast_S1_S1x1x1_2 (constantI S1 32 127999#32)))))
    (constantI S_ 1 1#1) reducesTo_S256x200x1_S256x200_d2 h_S_

/-- The scores at the history items, gathered row by row. -/
def gath (A0 : FVec Ideal S256x128000 .f32) (A2 : IVec S256x200 32) : FVec Ideal S256x200 .f32 :=
  Host.gather gather_S256x128000_S256x200x1_S256x200_n_1_0_0_1_2_11 A0 (seq3 A2)

/-- The gathered scores, filled where the word is no item number. -/
def hist (A0 : FVec Ideal S256x128000 .f32) (A2 : IVec S256x200 32) : FVec Ideal S256x200 .f32 :=
  select (inr A2) (gath A0 A2) (broadcastInDim S256x200 ![] bcast_S_S256x200 (constant (F := Ideal) S_ .f32 0x7FC00000#32))

variable (M V : Valuation τ sig (Elt Ideal))

/-! ### Stage one: the label gather -/

/-- The first stage with the pair-joining operation's function named. -/
def fn_v13 : IVec S256x1 32 → IVec S256x1 32 → IVec S256x2 32 :=
  (fun a b => concatenate S256x2 1 [⟨S256x1, a⟩, ⟨S256x1, b⟩] concatenates_S256x1_S256x1_S256x2_d1)

abbrev opsA : List (HloOp τ sig (Elt Ideal)) :=
  [ StableHlo.nullary main_v0 (iotaInDim S256 32 0),
    StableHlo.nullary main_c (constantI S_ 32 0#32),
    StableHlo.unary main_c main_v1 (broadcastInDim S256 ![] bcast_S_S256 : (⟨S_, .i32⟩ : BufTy).Contents (Elt Ideal) → (⟨S256, .i32⟩ : BufTy).Contents (Elt Ideal)),
    StableHlo.binary main_v0 main_v1 main_v2 (cmpi .slt : (⟨S256, .i32⟩ : BufTy).Contents (Elt Ideal) → (⟨S256, .i32⟩ : BufTy).Contents (Elt Ideal) → (⟨S256, .i1⟩ : BufTy).Contents (Elt Ideal)),
    StableHlo.nullary main_c_0 (constantI S_ 32 256#32),
    StableHlo.unary main_c_0 main_v3 (broadcastInDim S256 ![] bcast_S_S256 : (⟨S_, .i32⟩ : BufTy).Contents (Elt Ideal) → (⟨S256, .i32⟩ : BufTy).Contents (Elt Ideal)),
    StableHlo.binary main_v0 main_v3 main_v4 (addi : (⟨S256, .i32⟩ : BufTy).Contents (Elt Ideal) → (⟨S256, .i32⟩ : BufTy).Contents (Elt Ideal) → (⟨S256, .i32⟩ : BufTy).Contents (Elt Ideal)),
    StableHlo.ternary main_v2 main_v4 main_v0 main_v5 (select : (⟨S256, .i1⟩ : BufTy).Contents (Elt Ideal) → (⟨S256, .i32⟩ : BufTy).Contents (Elt Ideal) → (⟨S256, .i32⟩ : BufTy).Contents (Elt Ideal) → (⟨S256, .i32⟩ : BufTy).Contents (Elt Ideal)),
    StableHlo.nullary main_c_1 (constantI S_ 32 0#32),
    StableHlo.unary main_c_1 main_v6 (broadcastInDim S256 ![] bcast_S_S256 : (⟨S_, .i32⟩ : BufTy).Contents (Elt Ideal) → (⟨S256, .i32⟩ : BufTy).Contents (Elt Ideal)),
    StableHlo.binary main_arg1 main_v6 main_v7 (cmpi .slt : (⟨S256, .i32⟩ : BufTy).Contents (Elt Ideal) → (⟨S256, .i32⟩ : BufTy).Contents (Elt Ideal) → (⟨S256, .i1⟩ : BufTy).Contents (Elt Ideal)),
    StableHlo.nullary main_c_2 (constantI S_ 32 128000#32),
    StableHlo.unary main_c_2 main_v8 (broadcastInDim S256 ![] bcast_S_S256 : (⟨S_, .i32⟩ : BufTy).Contents (Elt Ideal) → (⟨S256, .i32⟩ : BufTy).Contents (Elt Ideal)),
    StableHlo.binary main_arg1 main_v8 main_v9 (addi : (⟨S256, .i32⟩ : BufTy).Contents (Elt Ideal) → (⟨S256, .i32⟩ : BufTy).Contents (Elt Ideal) → (⟨S256, .i32⟩ : BufTy).Contents (Elt Ideal)),
    StableHlo.ternary main_v7 main_v9 main_arg1 main_v10 (select : (⟨S256, .i1⟩ : BufTy).Contents (Elt Ideal) → (⟨S256, .i32⟩ : BufTy).Contents (Elt Ideal) → (⟨S256, .i32⟩ : BufTy).Contents (Elt Ideal) → (⟨S256, .i32⟩ : BufTy).Contents (Elt Ideal)),
    StableHlo.unary main_v5 main_v11 (broadcastInDim S256x1 ![0] bcast_S256_S256x1_0 : (⟨S256, .i32⟩ : BufTy).Contents (Elt Ideal) → (⟨S256x1, .i32⟩ : BufTy).Contents (Elt Ideal)),
    StableHlo.unary main_v10 main_v12 (broadcastInDim S256x1 ![0] bcast_S256_S256x1_0 : (⟨S256, .i32⟩ : BufTy).Contents (Elt Ideal) → (⟨S256x1, .i32⟩ : BufTy).Contents (Elt Ideal)),
    StableHlo.binary main_v11 main_v12 main_v13 fn_v13,
    StableHlo.binary main_arg0 main_v13 main_v14 ((fun x i => Host.gather gather_S256x128000_S256x2_S256_n_01_n_n_01_1_11 x i) : (⟨S256x128000, .f32⟩ : BufTy).Contents (Elt Ideal) → (⟨S256x2, .i32⟩ : BufTy).Contents (Elt Ideal) → (⟨S256, .f32⟩ : BufTy).Contents (Elt Ideal)) ]

theorem hostOps0_eq : (hostOps0 : List (HloOp τ sig (Elt Ideal))) = opsA := rfl

set_option maxRecDepth 8192 in
set_option maxHeartbeats 2000000 in
theorem a_v14 : after hostOps0 V (no_index (Proc.devRef .tc main_v14)) = Pv (V (Proc.devRef .tc main_arg0)) (V (Proc.devRef .tc main_arg1)) := by
  rw [hostOps0_eq]
  simp only [opsA]
  after_results_simp
  all_goals rfl

set_option maxRecDepth 8192 in
set_option maxHeartbeats 2000000 in
theorem a_arg0 : after hostOps0 V (no_index (Proc.devRef .tc main_arg0)) = V (Proc.devRef .tc main_arg0) := by
  simp only [hostOps0]
  after_results_simp

set_option maxRecDepth 8192 in
set_option maxHeartbeats 2000000 in
theorem a_arg1 : after hostOps0 V (no_index (Proc.devRef .tc main_arg1)) = V (Proc.devRef .tc main_arg1) := by
  simp only [hostOps0]
  after_results_simp

set_option maxRecDepth 8192 in
set_option maxHeartbeats 2000000 in
theorem a_arg2 : after hostOps0 V (no_index (Proc.devRef .tc main_arg2)) = V (Proc.devRef .tc main_arg2) := by
  simp only [hostOps0]
  after_results_simp

/-! ### Stage two: the history gather -/

set_option maxRecDepth 8192 in
set_option maxHeartbeats 2000000 in
theorem b_v15 : after hostOps0_1 V (no_index (Proc.devRef .tc main_v15)) = hist (V (Proc.devRef .tc main_arg0)) (V (Proc.devRef .tc main_arg2)) := by
  simp only [hostOps0_1]
  after_results_simp
  simp only [TRef.toBuf, TRef.ofBuf, cast_eq]
  all_goals rfl

set_option maxRecDepth 8192 in
set_option maxHeartbeats 2000000 in
theorem b_keep (r : Ref sig .tc) (h : r = main_arg0 ∨ r = main_arg1 ∨ r = main_arg2 ∨ r = main_v14) :
    after hostOps0_1 V (Proc.devRef .tc r) = V (Proc.devRef .tc r) := by
  rcases h with rfl | rfl | rfl | rfl <;> (simp only [hostOps0_1]; after_results_simp)

/-! ### Stage three: the first-occurrence mask and the corrections' summands -/

/-- Position l' is before position l, as a [200, 200] table at (l, l'). -/
def lt2 : IVec S200x200 1 :=
  cmpi .slt (broadcastInDim S200x200 ![0, 1] bcast_S1x200_S200x200_0_1 (broadcastInDim S1x200 ![1] bcast_S200_S1x200_1 (iotaInDim S200 32 0)))
    (broadcastInDim S200x200 ![0, 1] bcast_S200x1_S200x200_0_1 (broadcastInDim S200x1 ![0] bcast_S200_S200x1_0 (iotaInDim S200 32 0)))

/-- Position l' is before l and holds the same word, at (b, l, l'). -/
def dup (A2 : IVec S256x200 32) : IVec S256x200x200 1 :=
  andi (cmpi .eq (broadcastInDim S256x200x200 ![0, 1, 2] bcast_S256x200x1_S256x200x200_0_1_2 (broadcastInDim S256x200x1 ![0, 1] bcast_S256x200_S256x200x1_0_1 A2))
      (broadcastInDim S256x200x200 ![0, 1, 2] bcast_S256x1x200_S256x200x200_0_1_2 (broadcastInDim S256x1x200 ![0, 2] bcast_S256x200_S256x1x200_0_2 A2)))
    (broadcastInDim S256x200x200 ![0, 1, 2] bcast_S1x200x200_S256x200x200_0_1_2 (broadcastInDim S1x200x200 ![1, 2] bcast_S200x200_S1x200x200_1_2 lt2))

/-- The first-occurrence mask. -/
def fst (A2 : IVec S256x200 32) : IVec S256x200 1 :=
  noti (Host.reduce IntOp.ori (dup A2) (constantI S_ 1 0#1) reducesTo_S256x200x200_S256x200_d2 h_S_)

/-- The number of first occurrences of a row. -/
def v33t (A2 : IVec S256x200 32) : FVec Ideal S256 .f32 :=
  Host.reduceAdd (uitofp .f32 (fst A2)) (constant (F := Ideal) S_ .f32 0x00000000#32) reducesTo_S256x200_S256_d1 h_S_

/-- The first occurrences whose score is above the label's, counted. -/
def v39t (Pp : FVec Ideal S256 .f32) (H : FVec Ideal S256x200 .f32) (A2 : IVec S256x200 32) : FVec Ideal S256 .f32 :=
  Host.reduceAdd (uitofp .f32 (andi (fst A2) (cmpf .olt (broadcastInDim S256x200 ![0, 1] bcast_S256x1_S256x200_0_1 (broadcastInDim S256x1 ![0] bcast_S256_S256x1_0 Pp)) H)))
    (constant (F := Ideal) S_ .f32 0x00000000#32) reducesTo_S256x200_S256_d1 h_S_

/-- Whether the history item's score is at or below the masking constant, as a float. -/
def v42t (H : FVec Ideal S256x200 .f32) : FVec Ideal S256x200 .f32 :=
  uitofp .f32 (cmpf .ole H (broadcastInDim S256x200 ![] bcast_S_S256x200 (constant (F := Ideal) S_ .f32 0xC61C4000#32)))

set_option maxRecDepth 8192 in
set_option maxHeartbeats 2000000 in
theorem c_v31 : after hostOps0_2 V (no_index (Proc.devRef .tc main_v31)) = fst (V (Proc.devRef .tc main_arg2)) := by
  simp only [hostOps0_2]
  after_results_simp
  all_goals rfl

set_option maxRecDepth 8192 in
set_option maxHeartbeats 2000000 in
theorem c_v33 : after hostOps0_2 V (no_index (Proc.devRef .tc main_v33)) = v33t (V (Proc.devRef .tc main_arg2)) := by
  simp only [hostOps0_2]
  after_results_simp
  all_goals rfl

set_option maxRecDepth 8192 in
set_option maxHeartbeats 2000000 in
theorem c_v39 : after hostOps0_2 V (no_index (Proc.devRef .tc main_v39))
    = v39t (V (Proc.devRef .tc main_v14)) (V (Proc.devRef .tc main_v15)) (V (Proc.devRef .tc main_arg2)) := by
  simp only [hostOps0_2]
  after_results_simp
  all_goals rfl

set_option maxRecDepth 8192 in
set_option maxHeartbeats 2000000 in
theorem c_v42 : after hostOps0_2 V (no_index (Proc.devRef .tc main_v42)) = v42t (V (Proc.devRef .tc main_v15)) := by
  simp only [hostOps0_2]
  after_results_simp
  all_goals rfl

set_option maxRecDepth 8192 in
set_option maxHeartbeats 2000000 in
theorem c_cst6 : after hostOps0_2 V (no_index (Proc.devRef .tc main_cst_6)) = constant (F := Ideal) S_ .f32 0x00000000#32 := by
  simp only [hostOps0_2]
  after_results_simp
  all_goals rfl

set_option maxRecDepth 8192 in
set_option maxHeartbeats 2000000 in
theorem c_keep (r : Ref sig .tc) (h : r = main_arg0 ∨ r = main_arg1 ∨ r = main_arg2 ∨ r = main_v14) :
    after hostOps0_2 V (Proc.devRef .tc r) = V (Proc.devRef .tc r) := by
  rcases h with rfl | rfl | rfl | rfl <;> (simp only [hostOps0_2]; after_results_simp)

/-! ### Stage four: the masked indicator -/

set_option maxRecDepth 8192 in
set_option maxHeartbeats 2000000 in
theorem d_v43 : after hostOps0_3 V (no_index (Proc.devRef .tc main_v43))
    = select (V (Proc.devRef .tc main_v31)) (V (Proc.devRef .tc main_v42))
        (broadcastInDim S256x200 ![] bcast_S_S256x200 (V (Proc.devRef .tc main_cst_6))) := by
  simp only [hostOps0_3]
  after_results_simp
  simp only [TRef.toBuf, TRef.ofBuf, cast_eq]
  all_goals rfl

set_option maxRecDepth 8192 in
set_option maxHeartbeats 2000000 in
theorem d_keep (r : Ref sig .tc) (h : r = main_arg0 ∨ r = main_arg1 ∨ r = main_arg2 ∨ r = main_v14 ∨ r = main_v33 ∨ r = main_v39) :
    after hostOps0_3 V (Proc.devRef .tc r) = V (Proc.devRef .tc r) := by
  rcases h with rfl | rfl | rfl | rfl | rfl | rfl <;> (simp only [hostOps0_3]; after_results_simp)

/-! ### Stage five: the last sum and the label scores as a column -/

set_option maxRecDepth 8192 in
set_option maxHeartbeats 2000000 in
theorem e_v44 : after hostOps0_4 V (no_index (Proc.devRef .tc main_v44))
    = Host.reduceAdd (V (Proc.devRef .tc main_v43)) (constant (F := Ideal) S_ .f32 0x00000000#32) reducesTo_S256x200_S256_d1 h_S_ := by
  simp only [hostOps0_4]
  after_results_simp
  all_goals rfl

set_option maxRecDepth 8192 in
set_option maxHeartbeats 2000000 in
theorem e_v45 : after hostOps0_4 V (no_index (Proc.devRef .tc main_v45))
    = shapeCast S256x1 (V (Proc.devRef .tc main_v14)) shapeCasts_S256_S256x1 := by
  simp only [hostOps0_4]
  after_results_simp
  all_goals rfl

set_option maxRecDepth 8192 in
set_option maxHeartbeats 2000000 in
theorem e_keep (r : Ref sig .tc) (h : r = main_arg0 ∨ r = main_arg1 ∨ r = main_arg2 ∨ r = main_v14 ∨ r = main_v33 ∨ r = main_v39) :
    after hostOps0_4 V (Proc.devRef .tc r) = V (Proc.devRef .tc r) := by
  rcases h with rfl | rfl | rfl | rfl | rfl | rfl <;> (simp only [hostOps0_4]; after_results_simp)

/-! ## The values before the region, buffer by buffer -/

/-- The values every buffer holds when the region starts. -/
def W0 : Valuation τ sig (Elt Ideal) :=
  after (List.flatten [hostOps0, hostOps0_1, hostOps0_2, hostOps0_3, hostOps0_4]) M

theorem W0_eq_ops0 : W0 M = after ops0 M := by
  unfold W0; rw [ops0_eq_flatten]

theorem W0_stages : W0 M = after hostOps0_4 (after hostOps0_3 (after hostOps0_2 (after hostOps0_1 (after hostOps0 M)))) := by
  unfold W0
  rw [List.flatten_cons, StableHlo.after_append, List.flatten_cons, StableHlo.after_append, List.flatten_cons,
    StableHlo.after_append, List.flatten_cons, StableHlo.after_append, List.flatten_cons, List.flatten_nil, List.append_nil]

theorem W0_arg0 : W0 M (Proc.devRef .tc main_arg0) = M (Proc.devRef .tc main_arg0) := by
  rw [W0_stages, e_keep _ _ (Or.inl rfl), d_keep _ _ (Or.inl rfl), c_keep _ _ (Or.inl rfl), b_keep _ _ (Or.inl rfl), a_arg0]

theorem W0_arg1 : W0 M (Proc.devRef .tc main_arg1) = M (Proc.devRef .tc main_arg1) := by
  rw [W0_stages, e_keep _ _ (Or.inr (Or.inl rfl)), d_keep _ _ (Or.inr (Or.inl rfl)), c_keep _ _ (Or.inr (Or.inl rfl)),
    b_keep _ _ (Or.inr (Or.inl rfl)), a_arg1]

theorem W0_arg2 : W0 M (Proc.devRef .tc main_arg2) = M (Proc.devRef .tc main_arg2) := by
  rw [W0_stages, e_keep _ _ (Or.inr (Or.inr (Or.inl rfl))), d_keep _ _ (Or.inr (Or.inr (Or.inl rfl))),
    c_keep _ _ (Or.inr (Or.inr (Or.inl rfl))), b_keep _ _ (Or.inr (Or.inr (Or.inl rfl))), a_arg2]

/-- The label scores. -/
theorem W0_v14 : W0 M (Proc.devRef .tc main_v14) = Pv (M (Proc.devRef .tc main_arg0)) (M (Proc.devRef .tc main_arg1)) := by
  rw [W0_stages, e_keep _ _ (Or.inr (Or.inr (Or.inr (Or.inl rfl)))), d_keep _ _ (Or.inr (Or.inr (Or.inr (Or.inl rfl)))),
    c_keep _ _ (Or.inr (Or.inr (Or.inr rfl))), b_keep _ _ (Or.inr (Or.inr (Or.inr rfl))), a_v14]

/-- The label scores as the composed term of the arguments. -/
theorem W0_v14_closed : W0 M (Proc.devRef .tc main_v14)
    = Host.gather gather_S256x128000_S256x2_S256_n_01_n_n_01_1_11 (M (Proc.devRef .tc main_arg0))
        (concatenate S256x2 1 [⟨S256x1, (broadcastInDim S256x1 ![0] bcast_S256_S256x1_0 (select (cmpi .slt (iotaInDim S256 32 0) (broadcastInDim S256 ![] bcast_S_S256 (constantI S_ 32 0#32))) (addi (iotaInDim S256 32 0) (broadcastInDim S256 ![] bcast_S_S256 (constantI S_ 32 256#32))) (iotaInDim S256 32 0)))⟩, ⟨S256x1, (broadcastInDim S256x1 ![0] bcast_S256_S256x1_0 (select (cmpi .slt (M (Proc.devRef .tc main_arg1)) (broadcastInDim S256 ![] bcast_S_S256 (constantI S_ 32 0#32))) (addi (M (Proc.devRef .tc main_arg1)) (broadcastInDim S256 ![] bcast_S_S256 (constantI S_ 32 128000#32))) (M (Proc.devRef .tc main_arg1))))⟩] concatenates_S256x1_S256x1_S256x2_d1) :=
  W0_v14 M

theorem W0_v45 : W0 M (Proc.devRef .tc main_v45)
    = shapeCast S256x1 (Pv (M (Proc.devRef .tc main_arg0)) (M (Proc.devRef .tc main_arg1))) shapeCasts_S256_S256x1 := by
  rw [W0_stages, e_v45, d_keep _ _ (Or.inr (Or.inr (Or.inr (Or.inl rfl)))),
    c_keep _ _ (Or.inr (Or.inr (Or.inr rfl))), b_keep _ _ (Or.inr (Or.inr (Or.inr rfl))), a_v14]

theorem W0_v33 : W0 M (Proc.devRef .tc main_v33) = v33t (M (Proc.devRef .tc main_arg2)) := by
  rw [W0_stages, e_keep _ _ (Or.inr (Or.inr (Or.inr (Or.inr (Or.inl rfl))))), d_keep _ _ (Or.inr (Or.inr (Or.inr (Or.inr (Or.inl rfl))))),
    c_v33, b_keep _ _ (Or.inr (Or.inr (Or.inl rfl))), a_arg2]

theorem W0_v39 : W0 M (Proc.devRef .tc main_v39)
    = v39t (Pv (M (Proc.devRef .tc main_arg0)) (M (Proc.devRef .tc main_arg1)))
        (hist (M (Proc.devRef .tc main_arg0)) (M (Proc.devRef .tc main_arg2))) (M (Proc.devRef .tc main_arg2)) := by
  rw [W0_stages, e_keep _ _ (Or.inr (Or.inr (Or.inr (Or.inr (Or.inr rfl))))), d_keep _ _ (Or.inr (Or.inr (Or.inr (Or.inr (Or.inr rfl))))),
    c_v39, b_keep _ _ (Or.inr (Or.inr (Or.inr rfl))), b_v15, b_keep _ _ (Or.inr (Or.inr (Or.inl rfl))), a_v14, a_arg0, a_arg2]

theorem W0_v44 : W0 M (Proc.devRef .tc main_v44)
    = Host.reduceAdd (select (fst (M (Proc.devRef .tc main_arg2))) (v42t (hist (M (Proc.devRef .tc main_arg0)) (M (Proc.devRef .tc main_arg2))))
          (broadcastInDim S256x200 ![] bcast_S_S256x200 (constant (F := Ideal) S_ .f32 0x00000000#32)))
        (constant (F := Ideal) S_ .f32 0x00000000#32) reducesTo_S256x200_S256_d1 h_S_ := by
  rw [W0_stages, e_v44, d_v43, c_v31, c_v42, c_cst6, b_keep _ _ (Or.inr (Or.inr (Or.inl rfl))), b_v15, a_arg2, a_arg0]

end Cert.KernelIdeal.HPre

end
-- ==== Proof.KPreLib.lean ====
/-
  General facts used to read the host values: a fold of one-bit words by "or" (resp. "and") over all positions of a
  finite axis is one exactly when some (resp. every) position holds a one; a one-bit word converted to a float at the
  ideal values is its indicator; a float sum of a [a, b] array over its second axis, from zero, read at a row is the
  sum over the row; a reduction of one-bit words over the last axis of a [a, b, c] array read at (p, q) folds over the
  positions (p, q, k).
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.KPreLib

open Idealize.ShloMosaic Idealize.ShloMosaic.ValueIdx

/-- A fold by "or" from zero is one exactly when some word is one. -/
theorem fold_ori_eq_one_iff {ι : Type} [DecidableEq ι] (S : Finset ι) (f : ι → BitVec 1) :
    S.fold IntOp.ori 0#1 f = 1#1 ↔ ∃ k ∈ S, f k = 1#1 := by
  induction S using Finset.induction_on with
  | empty => simp
  | insert a S ha ih =>
    rw [Finset.fold_insert ha]
    have key : ∀ x y : BitVec 1, IntOp.ori x y = 1#1 ↔ (x = 1#1 ∨ y = 1#1) := by decide
    rw [key, ih]
    constructor
    · rintro (h | ⟨k, hk, h⟩)
      · exact ⟨a, Finset.mem_insert_self a S, h⟩
      · exact ⟨k, Finset.mem_insert_of_mem hk, h⟩
    · rintro ⟨k, hk, h⟩
      rcases Finset.mem_insert.1 hk with rfl | hk
      · exact Or.inl h
      · exact Or.inr ⟨k, hk, h⟩

/-- A fold by "and" from one is one exactly when every word is one. -/
theorem fold_andi_eq_one_iff {ι : Type} [DecidableEq ι] (S : Finset ι) (f : ι → BitVec 1) :
    S.fold IntOp.andi 1#1 f = 1#1 ↔ ∀ k ∈ S, f k = 1#1 := by
  induction S using Finset.induction_on with
  | empty => simp
  | insert a S ha ih =>
    rw [Finset.fold_insert ha]
    have key : ∀ x y : BitVec 1, IntOp.andi x y = 1#1 ↔ (x = 1#1 ∧ y = 1#1) := by decide
    rw [key, ih]
    constructor
    · rintro ⟨h, h'⟩ k hk
      rcases Finset.mem_insert.1 hk with rfl | hk
      · exact h
      · exact h' k hk
    · intro h
      exact ⟨h a (Finset.mem_insert_self a S), fun k hk => h k (Finset.mem_insert_of_mem hk)⟩

/-- The negation of a one-bit word is one exactly when the word is not. -/
theorem not_eq_one_iff (x : BitVec 1) : ~~~x = 1#1 ↔ ¬ x = 1#1 := by
  revert x; decide

/-- A one-bit word read as an unsigned number at the ideal values: its indicator. -/
theorem uitofp_bit (x : BitVec 1) : FloatOps.uitofp (F := Ideal) .f32 x = if x = 1#1 then (1 : EReal) else 0 := by
  rcases BitVec.eq_zero_or_eq_one x with rfl | rfl
  · show ((((0#1 : BitVec 1).toNat : ℝ)) : EReal) = _
    simp
  · show ((((1#1 : BitVec 1).toNat : ℝ)) : EReal) = _
    simp

/-- The all-zero pattern denotes zero. -/
theorem ofBits_zero : Ideal.ofBits .f32 0x00000000#32 = 0 := by simp [Ideal.ofBits, Ideal.ieee]

/-- A float sum of an [a, b] array over its second axis from zero, read at row p: the sum over the row. -/
theorem reduceAdd_rows {a b : ℕ} (x : FVec Ideal (⟨2, ![a, b]⟩ : Shape) .f32)
    (h' : (⟨2, ![a, b]⟩ : Shape).ReducesTo [1] ⟨1, ![a]⟩) (h : (⟨2, ![a, b]⟩ : Shape).Reduces [1] ⟨1, ![a]⟩)
    {u : Shape} (hu : 0 < u.numel) (p : Fin a) :
    Host.reduceAdd x (constant (F := Ideal) u .f32 0x00000000#32) h' hu (ix1 p) = ∑ k : Fin b, x (ix2 p k) := by
  unfold Host.reduceAdd
  rw [Ideal.hostReduceAdd_def, Ideal.hostReduceAdd_single h' h]
  show Ideal.ofBits .f32 0x00000000#32 + _ = _
  rw [ofBits_zero, zero_add]
  refine Finset.sum_congr rfl fun k _ => congrArg x ?_
  funext ax
  match ax with
  | ⟨0, _⟩ => rfl
  | ⟨1, _⟩ => rfl

/-- A reduction of an [a, b, c] array over its last axis by a commutative and associative operation, read at (p, q):
    the fold over the positions (p, q, k). -/
theorem reduce_last3 {α : Type} {a b c : ℕ} (f : α → α → α) [Std.Commutative f] [Std.Associative f]
    (x : (⟨3, ![a, b, c]⟩ : Shape).Idx → α) {u : Shape} (init : u.Idx → α)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce f x init h' hu (ix2 p q)
      = (Finset.univ : Finset (Fin c)).fold f (init (Shape.Idx.first hu)) (fun k => x (ix3 p q k)) := by
  rw [Host.reduce_eq_fold_single f x init h' h hu]
  congr 1
  funext k
  refine congrArg x ?_
  funext ax
  match ax with
  | ⟨0, _⟩ => rfl
  | ⟨1, _⟩ => rfl
  | ⟨2, _⟩ => rfl

end Cert.KPreLib

end
-- ==== Proof.LibKeepdims.lean ====
/-
  Row-wise reductions with a kept unit axis, read at an index: the column forms a `jnp.mean(x, axis=-1, keepdims=True)`
  inside a kernel body goes through, which the value library's list of layout lemmas does not carry — a vector `[a]`
  cast to a column `[a, 1]`, a column `[a, 1]` broadcast along rows to `[a, b]`, a lane sum of `[a, b]` over its second
  axis read as the sum over that axis's coordinate — and a matrix product `[n, K] × [K, m]` into a zero accumulator
  read as the sum over the contracted coordinate, for any dimension record whose operand indices are the plain ones.
  All statements are over indices built from coordinates of literal `Fin` types (`ix1`, `ix2`).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.Keepdims

open Idealize.ShloMosaic Idealize.ShloMosaic.ValueIdx

variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of `[a, b]` over its second axis, at the ideal values, read at row `p`: the sum over the row. -/
theorem multiReduction_add_rows {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

/-- A matrix product `[n, K] × [K, m]` into the zero accumulator, at the ideal values, read at `(p, h)`: the sum over the
    contracted coordinate — for any dimension record contracting the left operand's second axis with the right
    operand's first (the four coordinate facts `hl0 … hr1` are `fun _ _ => rfl` at a literal record). -/
theorem matmul_zero_apply {n K m : ℕ} {φ₁ φ₂ : FTy}
    (d : DotDims (⟨2, ![n, K]⟩ : Shape) (⟨2, ![K, m]⟩ : Shape) (⟨2, ![n, m]⟩ : Shape))
    (hr : d.contr.rank = 1) (hs : d.contr.size ⟨0, by omega⟩ = K)
    (hl0 : ∀ (j : (⟨2, ![n, m]⟩ : Shape).Idx) (k : d.contr.Idx), (d.lhsIdx j k 0).val = (j 0).val)
    (hl1 : ∀ (j : (⟨2, ![n, m]⟩ : Shape).Idx) (k : d.contr.Idx), (d.lhsIdx j k 1).val = (k ⟨0, by omega⟩).val)
    (hr0 : ∀ (j : (⟨2, ![n, m]⟩ : Shape).Idx) (k : d.contr.Idx), (d.rhsIdx j k 0).val = (k ⟨0, by omega⟩).val)
    (hr1 : ∀ (j : (⟨2, ![n, m]⟩ : Shape).Idx) (k : d.contr.Idx), (d.rhsIdx j k 1).val = (j 1).val)
    (prec : Option ContractPrecision) (lhs : FVec Ideal (⟨2, ![n, K]⟩ : Shape) φ₁) (rhs : FVec Ideal (⟨2, ![K, m]⟩ : Shape) φ₂)
    (p : Fin n) (h : Fin m) :
    FloatOps.matmul d prec lhs rhs (constant (⟨2, ![n, m]⟩ : Shape) .f32 0x00000000#32) (ix2 p h)
      = ∑ k : Fin K, lhs (ix2 p k) * rhs (ix2 k h) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p h) ((contrEquiv1 d K hr hs).symm k) = ix2 p k := funext fun ax => Fin.ext (by
    match ax with
    | ⟨0, _⟩ => exact hl0 _ _
    | ⟨1, _⟩ => exact (hl1 _ _).trans hk)
  have er : d.rhsIdx (ix2 p h) ((contrEquiv1 d K hr hs).symm k) = ix2 k h := funext fun ax => Fin.ext (by
    match ax with
    | ⟨0, _⟩ => exact (hr0 _ _).trans hk
    | ⟨1, _⟩ => exact hr1 _ _)
  rw [el, er]

end Idealize.ShloMosaic.Keepdims

end
-- ==== Proof.KPreRead.lean ====
/-
  The host values before the region read at a row: the label scores as a column are the label scores; the history
  gather reads, under the range condition, the score of the item each history word names, and its fill mask is all
  ones; the three sums over the history positions are the number of first occurrences, the number of first
  occurrences scoring above the label, and the number of first occurrences scoring at or below the masking constant.
  The sums are stated from the reading of the first-occurrence mask at a position, which is taken as a hypothesis here.
-/
import proofs.«428142_j77446850282051_3_alg».proof.Proof.KPreTerms
import proofs.«428142_j77446850282051_3_alg».proof.Proof.KPreLib
import proofs.«428142_j77446850282051_3_alg».proof.Proof.Conv
import proofs.«428142_j77446850282051_3_alg».proof.Proof.LibKeepdims
import Idealize.ShloMosaic.Lib.Pipeline.Value
import Idealize.ShloMosaic.Lib.StableHlo.Predicate

noncomputable section

namespace Cert.KernelIdeal.HPre

open Cert.KernelIdeal Cert.KernelIdeal.Gen Idealize.ShloMosaic Idealize.ShloMosaic.TcCoe Idealize.SL.Sem Idealize.ShloMosaic.StableHlo Idealize.ShloMosaic.ValueIdx

/-! ## Elementwise operations at an index -/

section At
variable {s : Shape} {w : Nat}
theorem cmpi_at (p : CmpIPredicate) (x y : IVec s w) (i : s.Idx) : cmpi p x y i = IntOp.cmpi p (x i) (y i) := rfl
theorem andi_at (x y : IVec s w) (i : s.Idx) : andi x y i = IntOp.andi (x i) (y i) := rfl
theorem addi_at (x y : IVec s w) (i : s.Idx) : addi x y i = IntOp.addi (x i) (y i) := rfl
theorem noti_at (x : IVec s w) (i : s.Idx) : noti x i = ~~~(x i) := rfl
theorem uitofp_at (x : IVec s w) (i : s.Idx) : (uitofp .f32 x : FVec Ideal s .f32) i = FloatOps.uitofp (F := Ideal) .f32 (x i) := rfl
theorem cmpf_at (p : CmpFPredicate) (x y : FVec Ideal s .f32) (i : s.Idx) :
    cmpf p x y i = FloatOps.cmpf (F := Ideal) (φ := .f32) p (x i) (y i) := rfl
end At

/-! ## Words in range -/

/-- A word that is not negative as a signed word is below 2^31 and reads the same signed and unsigned. -/
theorem word_of_nonneg (v : BitVec 32) (h0 : 0 ≤ v.toInt) : v.toNat < 2 ^ 31 ∧ v.toInt = v.toNat := by
  have hlt := v.isLt
  by_cases hc : 2 * v.toNat < 2 ^ 32
  · rw [BitVec.toInt_eq_toNat_cond, if_pos hc]; exact ⟨by omega, rfl⟩
  · exfalso; rw [BitVec.toInt_eq_toNat_cond, if_neg hc] at h0; omega

variable (A0 : FVec Ideal S256x128000 .f32) (A2 : IVec S256x200 32)

/-- The history words as a plain function of row and position. -/
abbrev qOf : Fin 256 → Fin 200 → BitVec 32 := fun b l => A2 (ix2 b l)
/-- The scores as a plain function of row and item. -/
abbrev sOf : Fin 256 → Fin 128000 → EReal := fun b v => A0 (ix2 b v)

/-- The history gather's dimension numbers. -/
abbrev gd := gather_S256x128000_S256x200x1_S256x200_n_1_0_0_1_2_11

/-! ## The history gather at (b, l) -/

theorem seqN_apply (b : Fin 256) (l : Fin 200) :
    seqN A2 (ix2 b l) = Scalar.select (IntOp.cmpi .slt (A2 (ix2 b l)) 0#32) (IntOp.addi (A2 (ix2 b l)) 128000#32) (A2 (ix2 b l)) := rfl

/-- A word in range is left as it is. -/
theorem seqN_inrange (h : Cert.Spec.InRange (qOf A2)) (b : Fin 256) (l : Fin 200) : seqN A2 (ix2 b l) = A2 (ix2 b l) := by
  rw [seqN_apply]
  have hw := word_of_nonneg (A2 (ix2 b l)) (h b l).1
  have hne : ¬ IntOp.cmpi .slt (A2 (ix2 b l)) 0#32 = 1#1 := by
    rw [StableHlo.Predicate.slt_iff_toNat hw.1 (by decide)]
    exact Nat.not_lt_zero _
  exact if_neg hne

theorem seq3_apply (b : Fin 256) (l : Fin 200) (u : Fin 1) : seq3 A2 (ix3 b l u) = seqN A2 (ix2 b l) := by
  unfold seq3
  refine shapeCast_apply _ _ (ix3 b l u) (ix2 b l) ?_
  have hu : u.val = 0 := by omega
  rw [Shape.rowMajor_val_two, Shape.rowMajor_val_three]
  show b.val * 200 + l.val = (b.val * 200 + l.val) * 1 + u.val
  omega

/-- The gather reads, at (b, l), the scores of row b at the item the word names, clamped into the row. -/
theorem gath_apply (b : Fin 256) (l : Fin 200) (i : Fin 128000)
    (hi : i.val = min (seq3 A2 (ix3 b l (0 : Fin 1))).toInt.toNat 127999) :
    gath A0 A2 (ix2 b l) = A0 (ix2 b i) := by
  unfold gath Host.gather
  refine congrArg A0 ?_
  funext a
  apply Fin.ext
  have hsi : gd.siIdx (ix2 b l) ⟨0, by decide⟩ = ix3 b l (0 : Fin 1) := by
    funext c
    apply Fin.ext
    match c with
    | ⟨0, _⟩ => rfl
    | ⟨1, _⟩ => rfl
    | ⟨2, _⟩ => rfl
  have hm0 : (0 : Fin 2) ∈ gd.operandBatchingDims := List.Mem.head _
  have hm1 : (1 : Fin 2) ∈ gd.startIndexMap := List.Mem.head _
  have hc1 : (1 : Fin 2) ∈ gd.collapsedSliceDims := List.Mem.head _
  match a with
  | ⟨0, _⟩ =>
    show gd.start (ix2 b l) (seq3 A2) 0 + gd.batchCoord (ix2 b l) 0 + gd.offCoord (ix2 b l) 0 = b.val
    rw [GatherDims.start_batching _ _ _ _ hm0,
      GatherDims.offCoord_eq_zero _ _ _ (by rw [GatherDims.mem_sKept]; exact fun h => h.2 hm0), Nat.zero_add, Nat.add_zero]
    unfold GatherDims.batchCoord
    rw [dif_pos hm0]
    rfl
  | ⟨1, _⟩ =>
    show gd.start (ix2 b l) (seq3 A2) 1 + gd.batchCoord (ix2 b l) 1 + gd.offCoord (ix2 b l) 1 = i.val
    rw [GatherDims.batchCoord_eq_zero _ _ _ (by decide),
      GatherDims.offCoord_eq_zero _ _ _ (by rw [GatherDims.mem_sKept]; exact fun h => h.1 hc1), hi, ← hsi]
    unfold GatherDims.start
    rw [dif_pos hm1]
    rfl

/-- Under the range condition the gather reads the score of the item the word names. -/
theorem gath_inrange (h : Cert.Spec.InRange (qOf A2)) (b : Fin 256) (l : Fin 200) :
    gath A0 A2 (ix2 b l) = sOf A0 b (Cert.Spec.col (qOf A2) b l) := by
  refine gath_apply A0 A2 b l _ ?_
  rw [seq3_apply, seqN_inrange A2 h]
  have hw := word_of_nonneg (A2 (ix2 b l)) (h b l).1
  have h2 := (h b l).2
  show (A2 (ix2 b l)).toNat % 128000 = min (A2 (ix2 b l)).toInt.toNat 127999
  rw [hw.2] at h2 ⊢
  rw [Int.toNat_natCast]
  omega

/-- Under the range condition the fill mask is all ones. -/
theorem inr_inrange (h : Cert.Spec.InRange (qOf A2)) (b : Fin 256) (l : Fin 200) : inr A2 (ix2 b l) = 1#1 := by
  unfold inr
  rw [Cert.KPreLib.reduce_last3 IntOp.andi _ (constantI S_ 1 1#1) reducesTo_S256x200x1_S256x200_d2 (by decide) h_S_ b l]
  show (Finset.univ : Finset (Fin 1)).fold IntOp.andi 1#1 _ = 1#1
  rw [Cert.KPreLib.fold_andi_eq_one_iff]
  intro u _
  show IntOp.andi (IntOp.cmpi .sge (seq3 A2 (ix3 b l u)) 0#32) (IntOp.cmpi .sle (seq3 A2 (ix3 b l u)) 127999#32) = 1#1
  rw [seq3_apply, seqN_inrange A2 h]
  have hw := word_of_nonneg (A2 (ix2 b l)) (h b l).1
  have h2 := (h b l).2
  rw [hw.2] at h2
  rw [Cert.Conv.andi_eq_one, StableHlo.Predicate.sge_iff_toNat hw.1 (by decide), StableHlo.Predicate.sle_iff_toNat hw.1 (by decide)]
  refine ⟨Nat.zero_le _, ?_⟩
  show (A2 (ix2 b l)).toNat ≤ 127999
  omega

/-- Under the range condition the gathered history scores are the scores at the named items. -/
theorem hist_inrange (h : Cert.Spec.InRange (qOf A2)) (b : Fin 256) (l : Fin 200) :
    hist A0 A2 (ix2 b l) = sOf A0 b (Cert.Spec.col (qOf A2) b l) := by
  unfold hist
  rw [select_apply, inr_inrange A2 h, select_one, gath_inrange A0 A2 h]

/-! ## The label scores as a column, and a row broadcast, at an index -/

theorem col_apply (X : FVec Ideal S256 .f32) (b : Fin 256) :
    shapeCast S256x1 X shapeCasts_S256_S256x1 (ix2 b (0 : Fin 1)) = X (ix1 b) :=
  Idealize.ShloMosaic.Keepdims.shapeCast_a_a1_apply X _ b 0

theorem rows_apply (X : FVec Ideal S256 .f32) (b : Fin 256) (l : Fin 200) :
    broadcastInDim S256x200 ![0, 1] bcast_S256x1_S256x200_0_1 (broadcastInDim S256x1 ![0] bcast_S256_S256x1_0 X) (ix2 b l) = X (ix1 b) :=
  (broadcastInDim_apply _ _ _ (ix2 b l) (ix2 b (0 : Fin 1)) (fun a => by match a with | ⟨0, _⟩ => rfl | ⟨1, _⟩ => rfl)).trans
    (broadcastInDim_apply _ _ _ (ix2 b (0 : Fin 1)) (ix1 b) (fun a => by match a with | ⟨0, _⟩ => rfl))

/-! ## The three sums at a row -/

section Sums
variable (hf : ∀ b l, fst A2 (ix2 b l) = 1#1 ↔ Cert.Spec.first (qOf A2) b l)
include hf

theorem v33t_apply (b : Fin 256) : v33t A2 (ix1 b) = Cert.Spec.dc (qOf A2) b := by
  unfold v33t Cert.Spec.dc
  rw [Cert.KPreLib.reduceAdd_rows _ reducesTo_S256x200_S256_d1 (by decide) h_S_ b]
  refine Finset.sum_congr rfl fun l _ => ?_
  rw [uitofp_at, Cert.Conv.uitofp_bit]
  exact Cert.Conv.ind_congr (hf b l)

theorem v39t_apply (Pp : FVec Ideal S256 .f32) (h : Cert.Spec.InRange (qOf A2)) (b : Fin 256) :
    v39t Pp (hist A0 A2) A2 (ix1 b) = Cert.Spec.corr (sOf A0) (fun b => Pp (ix1 b)) (qOf A2) b := by
  unfold v39t Cert.Spec.corr
  rw [Cert.KPreLib.reduceAdd_rows _ reducesTo_S256x200_S256_d1 (by decide) h_S_ b]
  refine Finset.sum_congr rfl fun l _ => ?_
  rw [uitofp_at, andi_at, cmpf_at, Cert.Conv.uitofp_andi_cmpf_olt, hist_inrange A0 A2 h, rows_apply]
  exact Cert.Conv.ind_congr (and_congr_left' (hf b l))

theorem v44t_apply (h : Cert.Spec.InRange (qOf A2)) (b : Fin 256) :
    Host.reduceAdd (select (fst A2) (v42t (hist A0 A2))
        (broadcastInDim S256x200 ![] bcast_S_S256x200 (constant (F := Ideal) S_ .f32 0x00000000#32)))
      (constant (F := Ideal) S_ .f32 0x00000000#32) reducesTo_S256x200_S256_d1 h_S_ (ix1 b)
      = Cert.Spec.eqs (sOf A0) (qOf A2) (Ideal.ofBits .f32 0xC61C4000#32) b := by
  unfold Cert.Spec.eqs
  rw [Cert.KPreLib.reduceAdd_rows _ reducesTo_S256x200_S256_d1 (by decide) h_S_ b]
  refine Finset.sum_congr rfl fun l _ => ?_
  have h42 : v42t (hist A0 A2) (ix2 b l)
      = Cert.Spec.ind (sOf A0 b (Cert.Spec.col (qOf A2) b l) ≤ Ideal.ofBits .f32 0xC61C4000#32) := by
    unfold v42t
    rw [uitofp_at, cmpf_at, hist_inrange A0 A2 h]
    exact Cert.Conv.uitofp_cmpf_ole _ _
  rw [select_apply, h42]
  show Scalar.select (fst A2 (ix2 b l)) _ (Ideal.ofBits .f32 0x00000000#32) = _
  rw [Cert.KPreLib.ofBits_zero, Cert.Conv.select_ind_zero]
  exact Cert.Conv.ind_congr (and_congr_left' (hf b l))

end Sums

/-! ## The statements at a row, over the values before the region -/

section Final
variable (M : Valuation τ sig (Elt Ideal))

/-- The scores, the history words and the label scores as plain functions, and the masking constant. -/
abbrev sM : Fin 256 → Fin 128000 → EReal := fun b v => (M (Proc.devRef .tc main_arg0) : FVec Ideal S256x128000 .f32) (ix2 b v)
abbrev qM : Fin 256 → Fin 200 → BitVec 32 := fun b l => (M (Proc.devRef .tc main_arg2) : IVec S256x200 32) (ix2 b l)
abbrev pM : Fin 256 → EReal := fun b => (W0 M (Proc.devRef .tc main_v14) : FVec Ideal S256 .f32) (ix1 b)
abbrev cst : EReal := Ideal.ofBits .f32 0xC61C4000#32

theorem pM_eq : pM M = fun b => Pv (M (Proc.devRef .tc main_arg0)) (M (Proc.devRef .tc main_arg1)) (ix1 b) := by
  funext b
  show (W0 M (Proc.devRef .tc main_v14) : FVec Ideal S256 .f32) (ix1 b) = _
  rw [W0_v14]

/-- The label scores as a column are the label scores. -/
theorem v45_eq (b : Fin 256) :
    (W0 M (Proc.devRef .tc main_v45) : FVec Ideal S256x1 .f32) (ix2 b (0 : Fin 1)) = pM M b := by
  rw [W0_v45, col_apply, pM_eq]

variable (hf : ∀ b l, fst (M (Proc.devRef .tc main_arg2)) (ix2 b l) = 1#1 ↔ Cert.Spec.first (qM M) b l)
include hf

theorem v33_eq_of (b : Fin 256) :
    (W0 M (Proc.devRef .tc main_v33) : FVec Ideal S256 .f32) (ix1 b) = Cert.Spec.dc (qM M) b := by
  rw [W0_v33]
  exact v33t_apply _ hf b

theorem v39_eq_of (h : Cert.Spec.InRange (qM M)) (b : Fin 256) :
    (W0 M (Proc.devRef .tc main_v39) : FVec Ideal S256 .f32) (ix1 b) = Cert.Spec.corr (sM M) (pM M) (qM M) b := by
  rw [W0_v39, pM_eq]
  exact v39t_apply _ _ hf _ h b

theorem v44_eq_of (h : Cert.Spec.InRange (qM M)) (b : Fin 256) :
    (W0 M (Proc.devRef .tc main_v44) : FVec Ideal S256 .f32) (ix1 b) = Cert.Spec.eqs (sM M) (qM M) cst b := by
  rw [W0_v44]
  exact v44t_apply _ _ hf h b

end Final

end Cert.KernelIdeal.HPre

end
-- ==== Proof.KFirst.lean ====
/-
  The first-occurrence word of the history: for every row and position, the negation of "some earlier position
  of the row holds the same word", as the printed chain of broadcasts, compares and an or-reduction computes it.
  Read at (b, l) it is one exactly when position l is the first occurrence of its word in row b.
-/
import proofs.«428142_j77446850282051_3_alg».proof.KernelIdeal
import proofs.«428142_j77446850282051_3_alg».proof.Proof.Gen.KernelIdeal
import proofs.«428142_j77446850282051_3_alg».proof.Proof.Spec
import Idealize.ShloMosaic.Lib.Affine
import Idealize.ShloMosaic.Lib.ValueIdx
import Idealize.ShloMosaic.Lib.StableHlo.Predicate
import Idealize.ShloMosaic.PureOps.Reduce

noncomputable section

namespace Cert.KernelIdeal.HPre

open Idealize.ShloMosaic Idealize.ShloMosaic.ValueIdx Cert.KernelIdeal
open Cert.KernelIdeal.Facts₀ Cert.KernelIdeal.Facts

variable [Cert.KernelIdeal.Facts]

/-! ## The printed term -/

/-- The word of "column position below row position" on the square of positions. -/
def ltWord : IVec S200x200 1 :=
  cmpi .slt
    (broadcastInDim S200x200 ![0, 1] bcast_S1x200_S200x200_0_1
      (broadcastInDim S1x200 ![1] bcast_S200_S1x200_1 (iotaInDim S200 32 0)))
    (broadcastInDim S200x200 ![0, 1] bcast_S200x1_S200x200_0_1
      (broadcastInDim S200x1 ![0] bcast_S200_S200x1_0 (iotaInDim S200 32 0)))

/-- The word of "the two positions of the row hold the same word". -/
def eqWord (Q : IVec S256x200 32) : IVec S256x200x200 1 :=
  cmpi .eq
    (broadcastInDim S256x200x200 ![0, 1, 2] bcast_S256x200x1_S256x200x200_0_1_2
      (broadcastInDim S256x200x1 ![0, 1] bcast_S256x200_S256x200x1_0_1 Q))
    (broadcastInDim S256x200x200 ![0, 1, 2] bcast_S256x1x200_S256x200x200_0_1_2
      (broadcastInDim S256x1x200 ![0, 2] bcast_S256x200_S256x1x200_0_2 Q))

/-- The conjunction of the two. -/
def pairWord (Q : IVec S256x200 32) : IVec S256x200x200 1 :=
  andi (eqWord Q)
    (broadcastInDim S256x200x200 ![0, 1, 2] bcast_S1x200x200_S256x200x200_0_1_2
      (broadcastInDim S1x200x200 ![1, 2] bcast_S200x200_S1x200x200_1_2 ltWord))

/-- The first-occurrence word: no earlier position of the row holds the same word. -/
def firstWord (Q : IVec S256x200 32) : IVec S256x200 1 :=
  noti (Host.reduce IntOp.ori (pairWord Q) (constantI S_ 1 0#1) reducesTo_S256x200x200_S256x200_d2 h_S_)

/-! ## Reading a broadcast and an or-reduction -/

/-- A broadcast read at an index is the operand at the index that keeps the mapped coordinates. -/
theorem bcast_read {α : Type} {s t : Shape} (dims : Fin s.rank → Fin t.rank) (h : s.BroadcastsInDim t dims)
    (x : s.Idx → α) (j : t.Idx) (k : s.Idx)
    (hk : ∀ a, (k a).val = if s.size a = 1 then 0 else (j (dims a)).val) :
    broadcastInDim t dims h x j = x k := by
  simp only [broadcastInDim]
  refine congrArg x (funext fun a => Fin.ext ?_)
  rw [hk a]
  by_cases h1 : s.size a = 1
  · rw [dif_pos h1, if_pos h1]
  · rw [dif_neg h1, if_neg h1]

/-- A left fold by or over one-bit words is one exactly when it started at one or met a one. -/
theorem foldl_ori_eq_one {ι : Type} (f : ι → BitVec 1) :
    ∀ (l : List ι) (init : BitVec 1),
      l.foldl (fun r n => IntOp.ori r (f n)) init = 1#1 ↔ init = 1#1 ∨ ∃ n ∈ l, f n = 1#1
  | [], init => by simp
  | a :: l, init => by
    rw [List.foldl_cons, foldl_ori_eq_one f l, IntOp.ori_eq_one]
    constructor
    · rintro ((h | h) | ⟨n, hn, h⟩)
      · exact Or.inl h
      · exact Or.inr ⟨a, List.mem_cons_self, h⟩
      · exact Or.inr ⟨n, List.mem_cons_of_mem _ hn, h⟩
    · rintro (h | ⟨n, hn, h⟩)
      · exact Or.inl (Or.inl h)
      · rcases List.mem_cons.1 hn with rfl | hn
        · exact Or.inl (Or.inr h)
        · exact Or.inr ⟨n, hn, h⟩

/-- An or-reduction is one at a result index exactly when its initial value is one or some operand index that
reduces into it holds a one. -/
theorem reduce_ori_eq_one {s t u : Shape} {axes : List (Fin s.rank)} (x : s.Idx → BitVec 1) (init : u.Idx → BitVec 1)
    (h : s.ReducesTo axes t) (hu : 0 < u.numel) (j : t.Idx) :
    Host.reduce IntOp.ori x init h hu j = 1#1
      ↔ init (Shape.Idx.first hu) = 1#1 ∨ ∃ i : s.Idx, h.drop i = j ∧ x i = 1#1 := by
  rw [Host.reduce_eq_foldl, foldl_ori_eq_one]
  refine or_congr Iff.rfl ⟨?_, ?_⟩
  · rintro ⟨i, hi, hx⟩
    rw [List.mem_filter] at hi
    exact ⟨i, by simpa using hi.2, hx⟩
  · rintro ⟨i, hi, hx⟩
    refine ⟨i, ?_, hx⟩
    rw [List.mem_filter]
    exact ⟨List.mem_map.2 ⟨s.rowMajor i, List.mem_finRange _, Equiv.symm_apply_apply _ _⟩, by simp [hi]⟩

/-! ## The words at an index -/

theorem ltWord_apply (i j : Fin 200) :
    ltWord (ix2 i j) = IntOp.cmpi .slt (BitVec.ofNat 32 j.val) (BitVec.ofNat 32 i.val) := by
  unfold ltWord
  show IntOp.cmpi .slt _ _ = _
  rw [bcast_read _ bcast_S1x200_S200x200_0_1 _ (ix2 i j) (ix2 (0 : Fin 1) j)
        (fun a => match a with | ⟨0, _⟩ => rfl | ⟨1, _⟩ => rfl),
      bcast_read _ bcast_S200_S1x200_1 _ (ix2 (0 : Fin 1) j) (ix1 j)
        (fun a => match a with | ⟨0, _⟩ => rfl),
      bcast_read _ bcast_S200x1_S200x200_0_1 _ (ix2 i j) (ix2 i (0 : Fin 1))
        (fun a => match a with | ⟨0, _⟩ => rfl | ⟨1, _⟩ => rfl),
      bcast_read _ bcast_S200_S200x1_0 _ (ix2 i (0 : Fin 1)) (ix1 i)
        (fun a => match a with | ⟨0, _⟩ => rfl)]
  rfl

theorem eqWord_apply (Q : IVec S256x200 32) (b : Fin 256) (l l' : Fin 200) :
    eqWord Q (ix3 b l l') = IntOp.cmpi .eq (Q (ix2 b l)) (Q (ix2 b l')) := by
  unfold eqWord
  show IntOp.cmpi .eq _ _ = _
  rw [bcast_read _ bcast_S256x200x1_S256x200x200_0_1_2 _ (ix3 b l l') (ix3 b l (0 : Fin 1))
        (fun a => match a with | ⟨0, _⟩ => rfl | ⟨1, _⟩ => rfl | ⟨2, _⟩ => rfl),
      bcast_read _ bcast_S256x200_S256x200x1_0_1 _ (ix3 b l (0 : Fin 1)) (ix2 b l)
        (fun a => match a with | ⟨0, _⟩ => rfl | ⟨1, _⟩ => rfl),
      bcast_read _ bcast_S256x1x200_S256x200x200_0_1_2 _ (ix3 b l l') (ix3 b (0 : Fin 1) l')
        (fun a => match a with | ⟨0, _⟩ => rfl | ⟨1, _⟩ => rfl | ⟨2, _⟩ => rfl),
      bcast_read _ bcast_S256x200_S256x1x200_0_2 _ (ix3 b (0 : Fin 1) l') (ix2 b l')
        (fun a => match a with | ⟨0, _⟩ => rfl | ⟨1, _⟩ => rfl)]

theorem pairWord_apply (Q : IVec S256x200 32) (b : Fin 256) (l l' : Fin 200) :
    pairWord Q (ix3 b l l')
      = IntOp.andi (IntOp.cmpi .eq (Q (ix2 b l)) (Q (ix2 b l')))
          (IntOp.cmpi .slt (BitVec.ofNat 32 l'.val) (BitVec.ofNat 32 l.val)) := by
  unfold pairWord
  show IntOp.andi (eqWord Q (ix3 b l l')) _ = _
  rw [eqWord_apply,
      bcast_read _ bcast_S1x200x200_S256x200x200_0_1_2 _ (ix3 b l l') (ix3 (0 : Fin 1) l l')
        (fun a => match a with | ⟨0, _⟩ => rfl | ⟨1, _⟩ => rfl | ⟨2, _⟩ => rfl),
      bcast_read _ bcast_S200x200_S1x200x200_1_2 _ (ix3 (0 : Fin 1) l l') (ix2 l l')
        (fun a => match a with | ⟨0, _⟩ => rfl | ⟨1, _⟩ => rfl),
      ltWord_apply]

/-- The pair word is one exactly when the later position repeats the earlier one's word. -/
theorem pairWord_eq_one (Q : IVec S256x200 32) (b : Fin 256) (l l' : Fin 200) :
    pairWord Q (ix3 b l l') = 1#1 ↔ Q (ix2 b l) = Q (ix2 b l') ∧ l'.val < l.val := by
  rw [pairWord_apply, IntOp.andi_eq_one, IntOp.cmpi_eq]
  refine and_congr_right fun _ => ?_
  exact StableHlo.Predicate.slt_ofNat_iff l'.val l.val (by omega) (by omega)

/-- An index of the cube that reduces into (b, l) is (b, l, l') for some l'. -/
theorem drop_ix3 (a : Fin 256) (c d : Fin 200) :
    (reducesTo_S256x200x200_S256x200_d2 : S256x200x200.ReducesTo [2] S256x200).drop (ix3 a c d) = ix2 a c := by
  funext e
  match e with
  | ⟨0, _⟩ => exact Fin.ext (Shape.ReducesTo.drop_apply_val_of_eq _ (ix3 a c d) ⟨0, by decide⟩ ⟨0, by decide⟩)
  | ⟨1, _⟩ => exact Fin.ext (Shape.ReducesTo.drop_apply_val_of_eq _ (ix3 a c d) ⟨1, by decide⟩ ⟨1, by decide⟩)

/-! ## The first-occurrence word -/

theorem firstWord_eq_one (Q : IVec S256x200 32) (b : Fin 256) (l : Fin 200) :
    firstWord Q (ix2 b l) = 1#1 ↔ Cert.Spec.first (fun b l => Q (ix2 b l)) b l := by
  unfold firstWord
  show ~~~(Host.reduce IntOp.ori (pairWord Q) (constantI S_ 1 0#1) reducesTo_S256x200x200_S256x200_d2 h_S_ (ix2 b l)) = 1#1 ↔ _
  rw [IntOp.not_eq_one, reduce_ori_eq_one]
  unfold Cert.Spec.first
  constructor
  · intro hno l' hlt heq
    refine hno (Or.inr ⟨ix3 b l l', drop_ix3 b l l', ?_⟩)
    exact (pairWord_eq_one Q b l l').2 ⟨heq.symm, hlt⟩
  · rintro hfirst (h0 | ⟨i, hi, hx⟩)
    · exact absurd h0 (by decide)
    · obtain ⟨a, c, d, rfl⟩ : ∃ (a : Fin 256) (c d : Fin 200), i = ix3 a c d := ⟨i 0, i 1, i 2, eq_ix3 i⟩
      rw [drop_ix3] at hi
      have h0 : a = b := by have e := congrFun hi (⟨0, by decide⟩ : Fin 2); exact e
      have h1 : c = l := by have e := congrFun hi (⟨1, by decide⟩ : Fin 2); exact e
      subst h0 h1
      obtain ⟨he, hlt⟩ := (pairWord_eq_one Q a c d).1 hx
      exact hfirst d hlt he.symm

end Cert.KernelIdeal.HPre

end
-- ==== Proof.KPre.lean ====
/-
  The host values before the region read at a row, with the first-occurrence mask's reading supplied: the number of
  first occurrences, the first occurrences scoring above the label, and those scoring at or below the masking
  constant; the argument arrays are what they were.
-/
import proofs.«428142_j77446850282051_3_alg».proof.Proof.KPreRead
import proofs.«428142_j77446850282051_3_alg».proof.Proof.KFirst

noncomputable section

namespace Cert.KernelIdeal.HPre

open Cert.KernelIdeal Cert.KernelIdeal.Gen Idealize.ShloMosaic Idealize.ShloMosaic.TcCoe Idealize.SL.Sem Idealize.ShloMosaic.StableHlo Idealize.ShloMosaic.ValueIdx

/-- The first-occurrence mask is the first-occurrence word. -/
theorem fst_eq_firstWord (A2 : IVec S256x200 32) : fst A2 = firstWord A2 := rfl

/-- The first-occurrence mask is one at (b, l) exactly when l is the first position of its word in row b. -/
theorem fst_iff (A2 : IVec S256x200 32) (b : Fin 256) (l : Fin 200) :
    fst A2 (ix2 b l) = 1#1 ↔ Cert.Spec.first (qOf A2) b l := by
  rw [fst_eq_firstWord]
  exact firstWord_eq_one A2 b l

variable (M : Valuation τ sig (Elt Ideal))

/-- The number of first occurrences of row b. -/
theorem v33_eq (b : Fin 256) :
    (W0 M (Proc.devRef .tc main_v33) : FVec Ideal S256 .f32) (ix1 b) = Cert.Spec.dc (qM M) b :=
  v33_eq_of M (fst_iff _) b

/-- The first occurrences of row b whose score is above the label's, counted. -/
theorem v39_eq (h : Cert.Spec.InRange (qM M)) (b : Fin 256) :
    (W0 M (Proc.devRef .tc main_v39) : FVec Ideal S256 .f32) (ix1 b) = Cert.Spec.corr (sM M) (pM M) (qM M) b :=
  v39_eq_of M (fst_iff _) h b

/-- The first occurrences of row b whose score is at or below the masking constant, counted. -/
theorem v44_eq (h : Cert.Spec.InRange (qM M)) (b : Fin 256) :
    (W0 M (Proc.devRef .tc main_v44) : FVec Ideal S256 .f32) (ix1 b) = Cert.Spec.eqs (sM M) (qM M) cst b :=
  v44_eq_of M (fst_iff _) h b

/-- The values before the region are the operations' fold over the launch contents. -/
theorem W0_eq_flatten :
    W0 M = after (List.flatten [hostOps0, hostOps0_1, hostOps0_2, hostOps0_3, hostOps0_4]) M := rfl

/-- The label scores are the label gather of the scores at the (row, label) pairs. -/
theorem pM_closed (b : Fin 256) :
    pM M b = (Host.gather gather_S256x128000_S256x2_S256_n_01_n_n_01_1_11 (M (Proc.devRef .tc main_arg0))
        (idxP (M (Proc.devRef .tc main_arg1))) : FVec Ideal S256 .f32) (ix1 b) := by
  rw [pM_eq]; rfl

/-- The argument arrays are what they were. -/
theorem arg_keep :
    W0 M (Proc.devRef .tc main_arg0) = M (Proc.devRef .tc main_arg0)
      ∧ W0 M (Proc.devRef .tc main_arg1) = M (Proc.devRef .tc main_arg1)
      ∧ W0 M (Proc.devRef .tc main_arg2) = M (Proc.devRef .tc main_arg2) :=
  ⟨W0_arg0 M, W0_arg1 M, W0_arg2 M⟩

end Cert.KernelIdeal.HPre

end
-- ==== Proof.KFPieces.lean ====
import proofs.«428142_j77446850282051_3_alg».proof.Proof.KFOuts
import Idealize.ShloMosaic.Lib.Pipeline.Value

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's value at a point, over the payloads -/

/-- Slab `k` of the scores block: its columns `3200 * k` to `3200 * k + 3199`, as the body loads it. -/
def slab (k : Fin 5) (X : Vec F S128x16000 .f32) : Vec F S128x3200 .f32 :=
  View.ld X (Rect.unit (s := S128x16000) (k0_off1 (BitVec.ofNat 32 k.val)) S128x3200.size (k0_off1_inb k))

/-- One point's update of the rank accumulator: the count of the block's entries above the prediction, added to `acc`. -/
def rankStep (P : Vec F S128x1 .f32) (X : Vec F S128x16000 .f32) (acc : Vec F S128x1 .f32) : Vec F S128x1 .f32 :=
  k0_pay1 (k0_pay9 (k0_pay5 P) (k0_pay8 P (slab 0 X) (slab 1 X)) (slab 2 X) (slab 3 X)) (slab 4 X) (k0_pay11 (k0_pay5 P)) acc

/-- One point's update of the second accumulator: the count of the block's entries at most the mask value, added to `acc`. -/
def eqStep (X : Vec F S128x16000 .f32) (acc : Vec F S128x1 .f32) : Vec F S128x1 .f32 :=
  k0_pay2 (k0_pay10 (k0_pay6 (slab 0 X)) (k0_pay7 (slab 1 X)) (slab 2 X) (slab 3 X)) (slab 4 X) acc

theorem hz2 : (![0, 0] : Fin S128x1.rank → Nat) = fun _ => 0 := by funext a; fin_cases a <;> rfl

/-- The reset case leaves in the rank accumulator one update of the zero block. -/
theorem out0_A_2_eq (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : cond0_0 i)
    (x0 : Vec F S128x16000 .f32) (x1 : Vec F S128x1 .f32) :
    out0_A_2 c i arg2 harg2 arg3 harg3 arg4 harg4 arg5 harg5 hc0 x0 x1 = rankStep x1 x0 k0_pay3 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S128x1) hz2, View.readCov_unit_zero (S := S128x1) _ hz2]
  simp only [View.readAt_eq_ld, harg2.read_unread, harg3.read_unread, View.ld_unit_zero (S := S128x1) hz2]
  rfl

/-- The reset case leaves in the second accumulator one update of the zero block. -/
theorem out0_A_3_eq (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : cond0_0 i)
    (x0 : Vec F S128x16000 .f32) (x1 : Vec F S128x1 .f32) :
    out0_A_3 c i arg2 harg2 arg3 harg3 arg4 harg4 arg5 harg5 hc0 x0 x1 = eqStep x0 k0_pay4 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S128x1) hz2, View.readCov_unit_zero (S := S128x1) _ hz2]
  simp only [View.readAt_eq_ld, harg2.read_unread, harg3.read_unread, View.ld_unit_zero (S := S128x1) hz2]
  rfl

/-- The accumulating case leaves in the rank accumulator one update of what it held. -/
theorem out0_B_2_eq (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : ¬cond0_0 i)
    (x0 : Vec F S128x16000 .f32) (x1 : Vec F S128x1 .f32) (xo2 xo3 : Vec F S128x1 .f32) :
    out0_B_2 c i arg2 harg2 arg3 harg3 arg4 harg4 arg5 harg5 hc0 x0 x1 xo2 xo3 = rankStep x1 x0 xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero (S := S128x1) hz2]
  simp only [View.readAt_eq_ld, harg2.read_unread, harg3.read_unread, harg4.read_unread, View.ld_unit_zero (S := S128x1) hz2]
  rfl

/-- The accumulating case leaves in the second accumulator one update of what it held. -/
theorem out0_B_3_eq (c : Dev nD) (i : grid0.Coords)
    (arg2 : Memref sig .tc .vmem S128x16000 .f32) (harg2 : arg2.IsWhole) (arg3 : Memref sig .tc .vmem S128x1 .f32) (harg3 : arg3.IsWhole)
    (arg4 : Memref sig .tc .vmem S128x1 .f32) (harg4 : arg4.IsWhole) (arg5 : Memref sig .tc .vmem S128x1 .f32) (harg5 : arg5.IsWhole) (hc0 : ¬cond0_0 i)
    (x0 : Vec F S128x16000 .f32) (x1 : Vec F S128x1 .f32) (xo2 xo3 : Vec F S128x1 .f32) :
    out0_B_3 c i arg2 harg2 arg3 harg3 arg4 harg4 arg5 harg5 hc0 x0 x1 xo2 xo3 = eqStep x0 xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero (S := S128x1) hz2]
  simp only [View.readAt_eq_ld, harg2.read_unread, harg3.read_unread, harg5.read_unread, View.ld_unit_zero (S := S128x1) hz2]
  rfl

end Cert.KernelIdeal.HF

end
-- ==== Proof.KFValue.lean ====
import proofs.«428142_j77446850282051_3_alg».proof.Proof.KFrame
import proofs.«428142_j77446850282051_3_alg».proof.Proof.KFPieces

set_option maxRecDepth 16384

noncomputable section

namespace Cert.KernelIdeal.HF

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The value recursion of the two outputs -/

/-- At a point of the reset case the rank accumulator holds one update of the zero block. -/
theorem after2_reset (c : Dev nD) (t : Fin cfg0.N) (h : t.val % 8 = 0) :
    (dats m 0 c).after 2 t = rankStep (iblk m c 1 t) (iblk m c 0 t) k0_pay3 := by
  rw [after0_2, outsAt0_A m c t h]; unfold outA; dsimp only
  exact out0_A_2_eq c _ _ _ _ _ _ _ _ _ _ _ _

/-- At a point of the reset case the second accumulator holds one update of the zero block. -/
theorem after3_reset (c : Dev nD) (t : Fin cfg0.N) (h : t.val % 8 = 0) :
    (dats m 0 c).after 3 t = eqStep (iblk m c 0 t) k0_pay4 := by
  rw [after0_3, outsAt0_A m c t h]; unfold outA; dsimp only
  exact out0_A_3_eq c _ _ _ _ _ _ _ _ _ _ _ _

/-- At a point of the accumulating case the rank accumulator holds one update of what the point before left. -/
theorem after2_acc (c : Dev nD) (t : Fin cfg0.N) (h : ¬t.val % 8 = 0) :
    (dats m 0 c).after 2 t = rankStep (iblk m c 1 t) (iblk m c 0 t) ((dats m 0 c).after 2 ⟨t.val - 1, Nat.lt_of_le_of_lt (Nat.sub_le _ _) t.isLt⟩) := by
  rw [after0_2 m c t, after0_2 m c ⟨t.val - 1, Nat.lt_of_le_of_lt (Nat.sub_le _ _) t.isLt⟩, outsAt0_B m c t h]; unfold outB; dsimp only
  exact out0_B_2_eq c _ _ _ _ _ _ _ _ _ _ _ _ _ _

/-- At a point of the accumulating case the second accumulator holds one update of what the point before left. -/
theorem after3_acc (c : Dev nD) (t : Fin cfg0.N) (h : ¬t.val % 8 = 0) :
    (dats m 0 c).after 3 t = eqStep (iblk m c 0 t) ((dats m 0 c).after 3 ⟨t.val - 1, Nat.lt_of_le_of_lt (Nat.sub_le _ _) t.isLt⟩) := by
  rw [after0_3 m c t, after0_3 m c ⟨t.val - 1, Nat.lt_of_le_of_lt (Nat.sub_le _ _) t.isLt⟩, outsAt0_B m c t h]; unfold outB; dsimp only
  exact out0_B_3_eq c _ _ _ _ _ _ _ _ _ _ _ _ _ _

end Cert.KernelIdeal.HF

end
-- ==== Proof.PayIdeal.lean ====
/-
  The arithmetic of one grid point of the counting kernel, at the ideal values, as statements about plain sums.
  A block of 128 rows by 16000 scores is read as five slabs of 3200 columns. For each row the rank output gains the
  number of entries of the five slabs above the row's label score, and the tie output gains the number of entries at
  or below the masking constant; the outputs start from zero at the first column block.
-/
import proofs.«428142_j77446850282051_3_alg».proof.Proof.Gen.KernelIdeal.Skeleton
import proofs.«428142_j77446850282051_3_alg».proof.Proof.Spec
import proofs.«428142_j77446850282051_3_alg».proof.Proof.LibKeepdims

noncomputable section

open scoped BigOperators

namespace Cert.KernelIdeal.HP

open Idealize.ShloMosaic Idealize.ShloMosaic.ValueIdx Idealize.ShloMosaic.Keepdims
open Cert.KernelIdeal Cert.KernelIdeal.Gen Cert.Spec

/-- The masking constant as the extended real its word encodes. -/
def cst : Ideal .f32 := Ideal.ofBits .f32 0xC61C4000#32

/-- A strict comparison, widened to a word and converted, is the indicator of the comparison. -/
theorem conv_lt (x y : Ideal .f32) :
    FloatOps.sitofp (F := Ideal) .f32 ((FloatOps.cmpf (F := Ideal) (φ := .f32) .olt x y).setWidth 32) = ind (x < y) := by
  by_cases h : x < y
  · simp [Ideal.cmpf_def, Ideal.cmp, ind, h, FloatOps.sitofp]
  · simp [Ideal.cmpf_def, Ideal.cmp, ind, h, FloatOps.sitofp]

/-- A weak comparison, widened to a word and converted, is the indicator of the comparison. -/
theorem conv_le (x y : Ideal .f32) :
    FloatOps.sitofp (F := Ideal) .f32 ((FloatOps.cmpf (F := Ideal) (φ := .f32) .ole x y).setWidth 32) = ind (x ≤ y) := by
  by_cases h : x ≤ y
  · simp [Ideal.cmpf_def, Ideal.cmp, ind, h, FloatOps.sitofp]
  · simp [Ideal.cmpf_def, Ideal.cmp, ind, h, FloatOps.sitofp]

/-- The lane count of a strict comparison of two slabs, kept as a column: per row the number of columns where it holds. -/
theorem count_lt (A B : FVec Ideal S128x3200 .f32) (hφ : FKind.Formats .f32)
    (hacc : (0x00000000#32 : BitVec FTy.f32.bits) = FKind.add.neutral .f32 hφ) (r : Fin 128) (u : Fin 1) :
    shapeCast S128x1 (multiReduction (F := Ideal) .add [1] S128 (sitofp .f32 (extui 32 (cmpf .olt A B) natLt_1_32)) 0x00000000#32
        reduces_S128x3200_S128 hφ hacc) shapeCasts_S128_S128x1 (ix2 r u)
      = ∑ k : Fin 3200, ind (A (ix2 r k) < B (ix2 r k)) := by
  rw [shapeCast_a_a1_apply]
  exact (multiReduction_add_rows _ _ _ _ _ r).trans (Finset.sum_congr rfl fun k _ => conv_lt _ _)

/-- The lane count of a weak comparison of two slabs, kept as a column. -/
theorem count_le (A B : FVec Ideal S128x3200 .f32) (hφ : FKind.Formats .f32)
    (hacc : (0x00000000#32 : BitVec FTy.f32.bits) = FKind.add.neutral .f32 hφ) (r : Fin 128) (u : Fin 1) :
    shapeCast S128x1 (multiReduction (F := Ideal) .add [1] S128 (sitofp .f32 (extui 32 (cmpf .ole A B) natLt_1_32)) 0x00000000#32
        reduces_S128x3200_S128 hφ hacc) shapeCasts_S128_S128x1 (ix2 r u)
      = ∑ k : Fin 3200, ind (A (ix2 r k) ≤ B (ix2 r k)) := by
  rw [shapeCast_a_a1_apply]
  exact (multiReduction_add_rows _ _ _ _ _ r).trans (Finset.sum_congr rfl fun k _ => conv_le _ _)

/-- Five equal terms added slab by slab from zero to an accumulator. -/
theorem add5 {a x0 x1 x2 x3 x4 s0 s1 s2 s3 s4 : EReal} (e0 : x0 = s0) (e1 : x1 = s1) (e2 : x2 = s2) (e3 : x3 = s3)
    (e4 : x4 = s4) :
    a + (((((0 + x0) + x1) + x2) + x3) + x4) = a + (((((0 + s0) + s1) + s2) + s3) + s4) := by
  rw [e0, e1, e2, e3, e4]

/-- A column broadcast along the rows reads the column's entry of the row. -/
theorem bc_apply (v : FVec Ideal S128x1 .f32) (r : Fin 128) (k : Fin 3200) :
    broadcastTo S128x3200 v broadcasts_S128x1_S128x3200 (ix2 r k) = v (ix2 r 0) :=
  broadcastTo_a1_ab_apply v _ r k

/-- The rank output of one grid point: the accumulator plus the five slabs' counts of entries above the label score
    (grouped as the program adds them: the first two slabs, then the third and the fourth, then the fifth). -/
theorem rank_pay (acc P : Vec Ideal S128x1 .f32) (L0 L1 L2 L3 L4 : Vec Ideal S128x3200 .f32) (r : Fin 128) :
    k0_pay1 (F := Ideal) (k0_pay9 (k0_pay5 P) (k0_pay8 P L0 L1) L2 L3) L4 (k0_pay11 (k0_pay5 P)) acc (ix2 r 0)
      = acc (ix2 r 0) + (((((0 + ∑ k : Fin 3200, ind (P (ix2 r 0) < L0 (ix2 r k))) + ∑ k : Fin 3200, ind (P (ix2 r 0) < L1 (ix2 r k)))
          + ∑ k : Fin 3200, ind (P (ix2 r 0) < L2 (ix2 r k))) + ∑ k : Fin 3200, ind (P (ix2 r 0) < L3 (ix2 r k)))
          + ∑ k : Fin 3200, ind (P (ix2 r 0) < L4 (ix2 r k))) := by
  have e0 := count_lt (broadcastTo S128x3200 P broadcasts_S128x1_S128x3200) L0 (.inl rfl) rfl r 0
  have e1 := count_lt (broadcastTo S128x3200 P broadcasts_S128x1_S128x3200) L1 (.inl rfl) rfl r 0
  have e2 := count_lt (broadcastTo S128x3200 P broadcasts_S128x1_S128x3200) L2 (.inl rfl) rfl r 0
  have e3 := count_lt (broadcastTo S128x3200 P broadcasts_S128x1_S128x3200) L3 (.inl rfl) rfl r 0
  have e4 := count_lt (broadcastTo S128x3200 P broadcasts_S128x1_S128x3200) L4 (.inl rfl) rfl r 0
  simp only [bc_apply] at e0 e1 e2 e3 e4
  simp only [k0_pay1, k0_pay9, k0_pay8, k0_pay5, k0_pay11, shapeCast_self, addf_apply, broadcast_apply,
    Ideal.ofBits_def, Ideal.ofBits_zero_f32]
  exact add5 e0 e1 e2 e3 e4

/-- The masking constant as the program writes it. -/
theorem scalar_cst : Scalar.ofBits (F := Ideal) .f32 0xC61C4000#32 = cst := rfl
theorem ofBits_cst : Ideal.ofBits .f32 0xC61C4000#32 = cst := rfl
theorem floatOps_cst : FloatOps.ofBits (F := Ideal) .f32 0xC61C4000#32 = cst := rfl

/-- The tie output of one grid point: the accumulator plus the five slabs' counts of entries at or below the masking
    constant (grouped as the program adds them, slab by slab from zero). -/
theorem eq_pay (acc : Vec Ideal S128x1 .f32) (L0 L1 L2 L3 L4 : Vec Ideal S128x3200 .f32) (r : Fin 128) :
    k0_pay2 (F := Ideal) (k0_pay10 (k0_pay6 L0) (k0_pay7 L1) L2 L3) L4 acc (ix2 r 0)
      = acc (ix2 r 0) + (((((0 + ∑ k : Fin 3200, ind (L0 (ix2 r k) ≤ cst)) + ∑ k : Fin 3200, ind (L1 (ix2 r k) ≤ cst))
          + ∑ k : Fin 3200, ind (L2 (ix2 r k) ≤ cst)) + ∑ k : Fin 3200, ind (L3 (ix2 r k) ≤ cst))
          + ∑ k : Fin 3200, ind (L4 (ix2 r k) ≤ cst)) := by
  have e0 := count_le L0 (broadcast S128x3200 (Scalar.ofBits (F := Ideal) .f32 0xC61C4000#32)) (.inl rfl) rfl r 0
  have e1 := count_le L1 (broadcast S128x3200 (Scalar.ofBits (F := Ideal) .f32 0xC61C4000#32)) (.inl rfl) rfl r 0
  have e2 := count_le L2 (broadcast S128x3200 (Scalar.ofBits (F := Ideal) .f32 0xC61C4000#32)) (.inl rfl) rfl r 0
  have e3 := count_le L3 (broadcast S128x3200 (Scalar.ofBits (F := Ideal) .f32 0xC61C4000#32)) (.inl rfl) rfl r 0
  have e4 := count_le L4 (broadcast S128x3200 (Scalar.ofBits (F := Ideal) .f32 0xC61C4000#32)) (.inl rfl) rfl r 0
  simp only [broadcast_apply, scalar_cst] at e0 e1 e2 e3 e4
  simp only [k0_pay2, k0_pay10, k0_pay6, k0_pay7, shapeCast_self, addf_apply, broadcast_apply,
    Ideal.ofBits_def, Ideal.ofBits_zero_f32, scalar_cst, ofBits_cst]
  exact add5 e0 e1 e2 e3 e4

/-- The rank output's reset value is zero. -/
theorem zero_pay3 (r : Fin 128) : k0_pay3 (F := Ideal) (ix2 r 0) = 0 := Ideal.ofBits_zero_f32

/-- The tie output's reset value is zero. -/
theorem zero_pay4 (r : Fin 128) : k0_pay4 (F := Ideal) (ix2 r 0) = 0 := Ideal.ofBits_zero_f32

end Cert.KernelIdeal.HP

end
-- ==== Proof.Regroup.lean ====
/-
  Regrouping of finite sums: a row of 128000 entries summed as eight column blocks of five slabs of 3200 entries,
  and an accumulator that starts from zero and gains one block sum per step read as the sum over the blocks.
-/
import Mathlib.Algebra.BigOperators.Fin
import Mathlib.Logic.Equiv.Fin.Basic

open scoped BigOperators

namespace Cert.KernelIdeal.HP

variable {M : Type*} [AddCommMonoid M]

/-- A sum over `m * n` consecutive numbers as `m` runs of `n`. -/
theorem sum_fin_mul (m n : ℕ) (g : ℕ → M) :
    ∑ v : Fin (m * n), g v.val = ∑ a : Fin m, ∑ b : Fin n, g (n * a.val + b.val) := by
  rw [← Equiv.sum_comp finProdFinEquiv (fun v : Fin (m * n) => g v.val), Fintype.sum_prod_type]
  refine Finset.sum_congr rfl fun a _ => Finset.sum_congr rfl fun b _ => ?_
  show g (b.val + n * a.val) = g (n * a.val + b.val)
  rw [Nat.add_comm]

/-- The column of entry `x` of slab `k` of column block `j`. -/
def colIdx (j : Fin 8) (k : Fin 5) (x : Fin 3200) : Fin 128000 :=
  ⟨16000 * j.val + 3200 * k.val + x.val, by have := j.isLt; have := k.isLt; have := x.isLt; omega⟩

@[simp] theorem colIdx_val (j : Fin 8) (k : Fin 5) (x : Fin 3200) :
    (colIdx j k x).val = 16000 * j.val + 3200 * k.val + x.val := rfl

/-- The row sum over numbers, block by block and slab by slab. -/
theorem sum_blocks_nat (g : ℕ → M) :
    ∑ j : Fin 8, ∑ k : Fin 5, ∑ x : Fin 3200, g (16000 * j.val + 3200 * k.val + x.val) = ∑ v : Fin 128000, g v.val := by
  symm
  calc ∑ v : Fin 128000, g v.val
      = ∑ a : Fin 8, ∑ b : Fin 16000, g (16000 * a.val + b.val) := sum_fin_mul 8 16000 g
    _ = ∑ j : Fin 8, ∑ k : Fin 5, ∑ x : Fin 3200, g (16000 * j.val + 3200 * k.val + x.val) :=
        Finset.sum_congr rfl fun j _ => by
          refine (sum_fin_mul 5 3200 (fun t => g (16000 * j.val + t))).trans ?_
          refine Finset.sum_congr rfl fun k _ => Finset.sum_congr rfl fun x _ => ?_
          show g (16000 * j.val + (3200 * k.val + x.val)) = _
          rw [Nat.add_assoc]

/-- The row sum, block by block and slab by slab. -/
theorem sum_blocks (f : Fin 128000 → M) :
    ∑ j : Fin 8, ∑ k : Fin 5, ∑ x : Fin 3200, f (colIdx j k x) = ∑ v : Fin 128000, f v := by
  let g : ℕ → M := fun n => if h : n < 128000 then f ⟨n, h⟩ else 0
  have hg : ∀ (n : ℕ) (h : n < 128000), g n = f ⟨n, h⟩ := fun n h => dif_pos h
  calc ∑ j : Fin 8, ∑ k : Fin 5, ∑ x : Fin 3200, f (colIdx j k x)
      = ∑ j : Fin 8, ∑ k : Fin 5, ∑ x : Fin 3200, g (16000 * j.val + 3200 * k.val + x.val) := by
        refine Finset.sum_congr rfl fun j _ => Finset.sum_congr rfl fun k _ => Finset.sum_congr rfl fun x _ => ?_
        exact (hg _ (colIdx j k x).isLt).symm
    _ = ∑ v : Fin 128000, g v.val := sum_blocks_nat g
    _ = ∑ v : Fin 128000, f v := Finset.sum_congr rfl fun v _ => hg v.val v.isLt

/-- The five slab sums of a block, added slab by slab from zero, are the sum over the slabs. -/
theorem five_slabs (T : Fin 5 → M) :
    ((((0 + T 0) + T 1) + T 2) + T 3) + T 4 = ∑ k : Fin 5, T k := by
  rw [Fin.sum_univ_five, zero_add]

/-- An accumulator that starts at zero plus the first block sum and gains the next block sum at each step holds,
    after the eighth block, the sum over the eight blocks. -/
theorem acc_blocks (A S : ℕ → M) (h0 : A 0 = 0 + S 0) (hs : ∀ j, j < 7 → A (j + 1) = A j + S (j + 1)) :
    A 7 = ∑ j : Fin 8, S j.val := by
  have h : ∀ n, n ≤ 7 → A n = ∑ j ∈ Finset.range (n + 1), S j := by
    intro n
    induction n with
    | zero => intro _; rw [h0, zero_add, Finset.sum_range_one]
    | succ n ih =>
      intro hn
      rw [hs n (by omega), ih (by omega), Finset.sum_range_succ _ (n + 1)]
  rw [h 7 le_rfl, Fin.sum_univ_eq_sum_range (fun j => S j) 8]

end Cert.KernelIdeal.HP
-- ==== Proof.KValue.lean ====
/-
  From the points' recursion to the two count arrays, at the ideal values. A grid point's block of scores is read where
  it lies in the scores array; one point adds to each row's accumulator the row's count inside the point's column block;
  the eight column blocks of a row block add up to the row's count over all items; the last point of a row block writes
  the accumulators back, and these write-backs cover the two arrays.
-/
import proofs.«428142_j77446850282051_3_alg».proof.Proof.KFValue
import proofs.«428142_j77446850282051_3_alg».proof.Proof.PayIdeal
import proofs.«428142_j77446850282051_3_alg».proof.Proof.Regroup
import Idealize.ShloMosaic.Lib.Pipeline.Value

set_option maxRecDepth 16384

noncomputable section

open scoped BigOperators

namespace Cert.KernelIdeal.HP

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.HF Cert.Spec

variable {F : FTy → Type} [FloatOps F]
variable (m : (ℓ : Loc nD τ sig) → Buf (Elt F) ℓ)

/-- The printed index maps over the grid: point `t` is column block `t % 8` of row block `t / 8`. -/
theorem idx_facts : ∀ t : Fin cfg0.N, win0_0.index t (0 : Fin 2) = t.val / 8 ∧ win0_0.index t (1 : Fin 2) = t.val % 8
    ∧ win0_1.index t (0 : Fin 2) = t.val / 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, _)

/-- The scores block of point `t` read where it lies in the scores array. -/
theorem iblk0_apply (c : Dev nD) (t : Fin cfg0.N) (r : Fin 128) (k : Fin 16000) (hr : 128 * (t.val / 8) + r.val < 256)
    (hk : 16000 * (t.val % 8) + k.val < 128000) :
    (iblk m c 0 t : Vec F S128x16000 .f32) (ix2 r k)
      = (V m c main_arg0 : Vec F S256x128000 .f32) (ix2 ⟨128 * (t.val / 8) + r.val, hr⟩ ⟨16000 * (t.val % 8) + k.val, hk⟩) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 128 + 1 * r.val = 128 * (t.val / 8) + r.val; rw [e0]; omega
  | ⟨1, _⟩ => show win0_0.index t (1 : Fin 2) * 16000 + 1 * k.val = 16000 * (t.val % 8) + k.val; rw [e1]; omega

/-- The label-score block of point `t` read where it lies in the label-score column. -/
theorem iblk1_apply (c : Dev nD) (t : Fin cfg0.N) (r : Fin 128) (hr : 128 * (t.val / 8) + r.val < 256) :
    (iblk m c 1 t : Vec F S128x1 .f32) (ix2 r 0)
      = (V m c main_v45 : Vec F S256x1 .f32) (ix2 ⟨128 * (t.val / 8) + r.val, hr⟩ 0) := by
  obtain ⟨-, -, e0, e1, -⟩ := idx_facts t
  unfold iblk
  rw [View.read_apply]
  show V m c main_v45 _ = V m c main_v45 _
  congr 1
  funext a
  apply Fin.ext
  match a with
  | ⟨0, _⟩ => show win0_1.index t (0 : Fin 2) * 128 + 1 * r.val = 128 * (t.val / 8) + r.val; rw [e0]; omega
  | ⟨1, _⟩ => show win0_1.index t (1 : Fin 2) * 1 + 1 * 0 = 0; rw [e1]

/-! ## One grid point's gain, over the columns of its block -/

/-- Column `x` of slab `k` inside a block of 16000 columns. -/
def slabCol (k : Fin 5) (x : Fin 3200) : Fin 16000 :=
  ⟨3200 * k.val + x.val, by have := k.isLt; have := x.isLt; omega⟩

/-- A slab read at an index reads the block at the slab's column. -/
theorem slab_apply (k : Fin 5) (X : Vec F S128x16000 .f32) (r : Fin 128) (x : Fin 3200) :
    slab k X (ix2 r x) = X (ix2 r (slabCol k x)) := by
  show X _ = X _
  congr 1
  funext a
  apply Fin.ext
  match a with
  | ⟨0, _⟩ => show k0_off1 (BitVec.ofNat 32 k.val) 0 + 1 * r.val = r.val; rw [k0_off1_eq k]; show 0 + 1 * r.val = r.val; omega
  | ⟨1, _⟩ => show k0_off1 (BitVec.ofNat 32 k.val) 1 + 1 * x.val = 3200 * k.val + x.val; rw [k0_off1_eq k]; show 3200 * k.val + 1 * x.val = _; omega

/-- The rank output after one grid point: the accumulator plus the block's count of entries above the label score. -/
theorem rank_block (P acc : Vec Ideal S128x1 .f32) (X : Vec Ideal S128x16000 .f32) (r : Fin 128) :
    k0_pay1 (F := Ideal) (k0_pay9 (k0_pay5 P) (k0_pay8 P (slab 0 X) (slab 1 X)) (slab 2 X) (slab 3 X)) (slab 4 X) (k0_pay11 (k0_pay5 P)) acc
        (ix2 r 0)
      = acc (ix2 r 0) + ∑ k : Fin 5, ∑ x : Fin 3200, ind (P (ix2 r 0) < X (ix2 r (slabCol k x))) := by
  rw [rank_pay]
  simp only [slab_apply]
  exact congrArg (acc (ix2 r 0) + ·) (five_slabs fun k => ∑ x : Fin 3200, ind (P (ix2 r 0) < X (ix2 r (slabCol k x))))

/-- The tie output after one grid point: the accumulator plus the block's count of entries at or below the constant. -/
theorem eq_block (acc : Vec Ideal S128x1 .f32) (X : Vec Ideal S128x16000 .f32) (r : Fin 128) :
    k0_pay2 (F := Ideal) (k0_pay10 (k0_pay6 (slab 0 X)) (k0_pay7 (slab 1 X)) (slab 2 X) (slab 3 X)) (slab 4 X) acc (ix2 r 0)
      = acc (ix2 r 0) + ∑ k : Fin 5, ∑ x : Fin 3200, ind (X (ix2 r (slabCol k x)) ≤ cst) := by
  rw [eq_pay]
  simp only [slab_apply]
  exact congrArg (acc (ix2 r 0) + ·) (five_slabs fun k => ∑ x : Fin 3200, ind (X (ix2 r (slabCol k x)) ≤ cst))

/-! ## The outputs' staging contents after each point, in closed form -/

section Closed

variable (mI : (ℓ : Loc nD τ sig) → Buf (Elt Ideal) ℓ) (c : Dev nD)

/-- The scores as the region finds them, by row and item. -/
def sc : Fin 256 → Fin 128000 → EReal := fun b v => (V mI c main_arg0 : Vec Ideal S256x128000 .f32) (ix2 b v)
/-- The label scores as the region finds them, by row. -/
def pc : Fin 256 → EReal := fun b => (V mI c main_v45 : Vec Ideal S256x1 .f32) (ix2 b 0)

/-- The column block a point number names. -/
def jm (n : ℕ) : Fin 8 := ⟨n % 8, Nat.mod_lt _ (by decide)⟩
/-- The array row of row `r` of the row block a point number names. -/
def rowOf (n : ℕ) (r : Fin 128) : Fin 256 := ⟨(128 * (n / 8) + r.val) % 256, Nat.mod_lt _ (by decide)⟩

/-- Row `b`'s count of entries above the label score inside column block `j`. -/
def rankBlk (b : Fin 256) (j : ℕ) : EReal :=
  ∑ k : Fin 5, ∑ x : Fin 3200, ind (pc mI c b < sc mI c b (colIdx (jm j) k x))
/-- Row `b`'s count of entries at or below the constant inside column block `j`. -/
def eqBlk (b : Fin 256) (j : ℕ) : EReal :=
  ∑ k : Fin 5, ∑ x : Fin 3200, ind (sc mI c b (colIdx (jm j) k x) ≤ cst)

theorem point_lt (t : Fin cfg0.N) : t.val < 16 := lt_of_lt_of_eq t.isLt (show cfg0.N = 16 from N_0)

/-- One point's rank step at a row: the accumulator's entry plus the row's count inside the point's column block. -/
theorem rank_point (t : Fin cfg0.N) (acc : Vec Ideal S128x1 .f32) (r : Fin 128) :
    rankStep (iblk mI c 1 t) (iblk mI c 0 t) acc (ix2 r 0) = acc (ix2 r 0) + rankBlk mI c (rowOf t.val r) t.val := by
  have ht := point_lt t
  have hr : 128 * (t.val / 8) + r.val < 256 := by have := r.isLt; omega
  unfold rankStep
  rw [rank_block]
  refine congrArg (acc (ix2 r 0) + ·) ?_
  unfold rankBlk
  refine Finset.sum_congr rfl fun k _ => Finset.sum_congr rfl fun x _ => ?_
  have hk : 16000 * (t.val % 8) + (slabCol k x).val < 128000 := by have := (slabCol k x).isLt; omega
  rw [iblk1_apply mI c t r hr, iblk0_apply mI c t r (slabCol k x) hr hk]
  have eb : (⟨128 * (t.val / 8) + r.val, hr⟩ : Fin 256) = rowOf t.val r := Fin.ext (Nat.mod_eq_of_lt hr).symm
  have ev : (⟨16000 * (t.val % 8) + (slabCol k x).val, hk⟩ : Fin 128000) = colIdx (jm t.val) k x :=
    Fin.ext (by show 16000 * (t.val % 8) + (3200 * k.val + x.val) = 16000 * (t.val % 8) + 3200 * k.val + x.val; omega)
  rw [eb, ev]
  rfl

/-- One point's tie step at a row. -/
theorem eq_point (t : Fin cfg0.N) (acc : Vec Ideal S128x1 .f32) (r : Fin 128) :
    eqStep (iblk mI c 0 t) acc (ix2 r 0) = acc (ix2 r 0) + eqBlk mI c (rowOf t.val r) t.val := by
  have ht := point_lt t
  have hr : 128 * (t.val / 8) + r.val < 256 := by have := r.isLt; omega
  unfold eqStep
  rw [eq_block]
  refine congrArg (acc (ix2 r 0) + ·) ?_
  unfold eqBlk
  refine Finset.sum_congr rfl fun k _ => Finset.sum_congr rfl fun x _ => ?_
  have hk : 16000 * (t.val % 8) + (slabCol k x).val < 128000 := by have := (slabCol k x).isLt; omega
  rw [iblk0_apply mI c t r (slabCol k x) hr hk]
  have eb : (⟨128 * (t.val / 8) + r.val, hr⟩ : Fin 256) = rowOf t.val r := Fin.ext (Nat.mod_eq_of_lt hr).symm
  have ev : (⟨16000 * (t.val % 8) + (slabCol k x).val, hk⟩ : Fin 128000) = colIdx (jm t.val) k x :=
    Fin.ext (by show 16000 * (t.val % 8) + (3200 * k.val + x.val) = 16000 * (t.val % 8) + 3200 * k.val + x.val; omega)
  rw [eb, ev]
  rfl

end Closed

/-! ## From the points' recursion to the arrays -/

section Run

variable (mI : (ℓ : Loc nD τ sig) → Buf (Elt Ideal) ℓ) (c : Dev nD)

theorem rankBlk_mod (b : Fin 256) (j : ℕ) : rankBlk mI c b j = rankBlk mI c b (j % 8) := by
  unfold rankBlk
  rw [show jm (j % 8) = jm j from Fin.ext (Nat.mod_mod _ _)]
theorem eqBlk_mod (b : Fin 256) (j : ℕ) : eqBlk mI c b j = eqBlk mI c b (j % 8) := by
  unfold eqBlk
  rw [show jm (j % 8) = jm j from Fin.ext (Nat.mod_mod _ _)]

/-- The rank output's staging contents after point `n`, at a row: the row's counts inside the column blocks so far. -/
theorem after2_closed :
    ∀ (n : ℕ) (hn : n < cfg0.N) (r : Fin 128),
      ((dats mI 0 c).after 2 ⟨n, hn⟩ : Vec Ideal S128x1 .f32) (ix2 r 0) = ∑ j ∈ Finset.range (n % 8 + 1), rankBlk mI c (rowOf n r) j := by
  intro n
  induction n with
  | zero =>
    intro hn r
    rw [after2_reset mI c ⟨0, hn⟩ rfl, rank_point, zero_pay3]
    show 0 + rankBlk mI c (rowOf 0 r) 0 = _
    rw [zero_add, show 0 % 8 + 1 = 1 from rfl, Finset.sum_range_one]
  | succ n ih =>
    intro hn r
    by_cases h0 : (n + 1) % 8 = 0
    · rw [after2_reset mI c ⟨n + 1, hn⟩ h0, rank_point, zero_pay3]
      show 0 + rankBlk mI c (rowOf (n + 1) r) (n + 1) = _
      rw [zero_add, rankBlk_mod mI c _ (n + 1), h0, show 0 + 1 = 1 from rfl, Finset.sum_range_one]
    · have ih' := ih (Nat.lt_of_succ_lt hn) r
      have step := rank_point mI c ⟨n + 1, hn⟩ ((dats mI 0 c).after 2 ⟨n, Nat.lt_of_succ_lt hn⟩) r
      rw [after2_acc mI c ⟨n + 1, hn⟩ h0]
      refine step.trans ?_
      rw [ih']
      show _ + rankBlk mI c (rowOf (n + 1) r) (n + 1) = _
      have e1 : rowOf n r = rowOf (n + 1) r := Fin.ext (by
        show (128 * (n / 8) + r.val) % 256 = (128 * ((n + 1) / 8) + r.val) % 256
        have : n / 8 = (n + 1) / 8 := by omega
        rw [this])
      have e2 : (n + 1) % 8 + 1 = (n % 8 + 1) + 1 := by omega
      have e3 : (n + 1) % 8 = n % 8 + 1 := by omega
      rw [e1, e2, rankBlk_mod mI c _ (n + 1), e3]
      exact (Finset.sum_range_succ _ _).symm

/-- The tie output's staging contents after point `n`, at a row. -/
theorem after3_closed :
    ∀ (n : ℕ) (hn : n < cfg0.N) (r : Fin 128),
      ((dats mI 0 c).after 3 ⟨n, hn⟩ : Vec Ideal S128x1 .f32) (ix2 r 0) = ∑ j ∈ Finset.range (n % 8 + 1), eqBlk mI c (rowOf n r) j := by
  intro n
  induction n with
  | zero =>
    intro hn r
    rw [after3_reset mI c ⟨0, hn⟩ rfl, eq_point, zero_pay4]
    show 0 + eqBlk mI c (rowOf 0 r) 0 = _
    rw [zero_add, show 0 % 8 + 1 = 1 from rfl, Finset.sum_range_one]
  | succ n ih =>
    intro hn r
    by_cases h0 : (n + 1) % 8 = 0
    · rw [after3_reset mI c ⟨n + 1, hn⟩ h0, eq_point, zero_pay4]
      show 0 + eqBlk mI c (rowOf (n + 1) r) (n + 1) = _
      rw [zero_add, eqBlk_mod mI c _ (n + 1), h0, show 0 + 1 = 1 from rfl, Finset.sum_range_one]
    · have ih' := ih (Nat.lt_of_succ_lt hn) r
      have step := eq_point mI c ⟨n + 1, hn⟩ ((dats mI 0 c).after 3 ⟨n, Nat.lt_of_succ_lt hn⟩) r
      rw [after3_acc mI c ⟨n + 1, hn⟩ h0]
      refine step.trans ?_
      rw [ih']
      show _ + eqBlk mI c (rowOf (n + 1) r) (n + 1) = _
      have e1 : rowOf n r = rowOf (n + 1) r := Fin.ext (by
        show (128 * (n / 8) + r.val) % 256 = (128 * ((n + 1) / 8) + r.val) % 256
        have : n / 8 = (n + 1) / 8 := by omega
        rw [this])
      have e2 : (n + 1) % 8 + 1 = (n % 8 + 1) + 1 := by omega
      have e3 : (n + 1) % 8 = n % 8 + 1 := by omega
      rw [e1, e2, eqBlk_mod mI c _ (n + 1), e3]
      exact (Finset.sum_range_succ _ _).symm

/-- Eight column blocks' counts are the row's count. -/
theorem rank_row (b : Fin 256) : ∑ j ∈ Finset.range 8, rankBlk mI c b j = raw (sc mI c) (pc mI c) b := by
  rw [← Fin.sum_univ_eq_sum_range (fun j => rankBlk mI c b j) 8]
  unfold rankBlk raw
  rw [← sum_blocks (fun v => ind (pc mI c b < sc mI c b v))]
  refine Finset.sum_congr rfl fun j _ => ?_
  rw [show jm j.val = j from Fin.ext (Nat.mod_eq_of_lt j.isLt)]

theorem eq_row (b : Fin 256) : ∑ j ∈ Finset.range 8, eqBlk mI c b j = tle (sc mI c) cst b := by
  rw [← Fin.sum_univ_eq_sum_range (fun j => eqBlk mI c b j) 8]
  unfold eqBlk tle
  rw [← sum_blocks (fun v => ind (sc mI c b v ≤ cst))]
  refine Finset.sum_congr rfl fun j _ => ?_
  rw [show jm j.val = j from Fin.ext (Nat.mod_eq_of_lt j.isLt)]

end Run

/-! ## The arrays after the run -/

section Arrays

variable (mI : (ℓ : Loc nD τ sig) → Buf (Elt Ideal) ℓ) (c : Dev nD)

/-- What the rank array ends holding: each row's count of entries above its label score. -/
def G2 : S256x1.Idx → Elt Ideal .f32 := fun i => raw (sc mI c) (pc mI c) (i 0)
/-- What the tie array ends holding: each row's count of entries at or below the constant. -/
def G3 : S256x1.Idx → Elt Ideal .f32 := fun i => tle (sc mI c) cst (i 0)

/-- An index of the rank array is in point `t`'s block iff each coordinate is in the block's range on its axis. -/
theorem mem_blk2 (t : Fin cfg0.N) (i : S256x1.Idx) :
    i ∈ ((cfg0.win 2).blk t).view.set ↔ ∀ a : Fin 2, win0_2.index t a * S128x1.size a ≤ (i a).val
      ∧ (i a).val < win0_2.index t a * S128x1.size a + S128x1.size a := by
  show i ∈ ((View.whole main_v46_0).slice (win0_2.rect t)).set ↔ _
  rw [View.set_slice_whole, Rect.mem_set_unit]
  exact Iff.rfl
theorem mem_blk3 (t : Fin cfg0.N) (i : S256x1.Idx) :
    i ∈ ((cfg0.win 3).blk t).view.set ↔ ∀ a : Fin 2, win0_3.index t a * S128x1.size a ≤ (i a).val
      ∧ (i a).val < win0_3.index t a * S128x1.size a + S128x1.size a := by
  show i ∈ ((View.whole main_v46_1).slice (win0_3.rect t)).set ↔ _
  rw [View.set_slice_whole, Rect.mem_set_unit]
  exact Iff.rfl

/-- Every index of the rank array is in the block of the last point of its row block, which writes back. -/
theorem cover2 (i : S256x1.Idx) : ∃ t : Fin cfg0.N, (cfg0.win 2).flush t = true ∧ i ∈ ((cfg0.win 2).blk t).view.set := by
  have hi0 : (i 0).val < 256 := (i 0).isLt
  have hi1 : (i 1).val < 1 := (i 1).isLt
  have hN : cfg0.N = 16 := N_0
  obtain ⟨t, ht⟩ : ∃ t : Fin cfg0.N, t.val = 8 * ((i 0).val / 128) + 7 := ⟨⟨8 * ((i 0).val / 128) + 7, by omega⟩, rfl⟩
  refine ⟨t, (flush0_2 t).mpr (by omega), ?_⟩
  rw [mem_blk2]
  obtain ⟨-, -, -, -, e0, e1, -⟩ := idx_facts t
  intro a
  match a with
  | ⟨0, _⟩ =>
    show win0_2.index t (0 : Fin 2) * 128 ≤ (i 0).val ∧ (i 0).val < win0_2.index t (0 : Fin 2) * 128 + 128
    rw [e0]; omega
  | ⟨1, _⟩ =>
    show win0_2.index t (1 : Fin 2) * 1 ≤ (i 1).val ∧ (i 1).val < win0_2.index t (1 : Fin 2) * 1 + 1
    rw [e1]; omega
theorem cover3 (i : S256x1.Idx) : ∃ t : Fin cfg0.N, (cfg0.win 3).flush t = true ∧ i ∈ ((cfg0.win 3).blk t).view.set := by
  have hi0 : (i 0).val < 256 := (i 0).isLt
  have hi1 : (i 1).val < 1 := (i 1).isLt
  have hN : cfg0.N = 16 := N_0
  obtain ⟨t, ht⟩ : ∃ t : Fin cfg0.N, t.val = 8 * ((i 0).val / 128) + 7 := ⟨⟨8 * ((i 0).val / 128) + 7, by omega⟩, rfl⟩
  refine ⟨t, (flush0_3 t).mpr (by omega), ?_⟩
  rw [mem_blk3]
  obtain ⟨-, -, -, -, -, -, e0, e1⟩ := idx_facts t
  intro a
  match a with
  | ⟨0, _⟩ =>
    show win0_3.index t (0 : Fin 2) * 128 ≤ (i 0).val ∧ (i 0).val < win0_3.index t (0 : Fin 2) * 128 + 128
    rw [e0]; omega
  | ⟨1, _⟩ =>
    show win0_3.index t (1 : Fin 2) * 1 ≤ (i 1).val ∧ (i 1).val < win0_3.index t (1 : Fin 2) * 1 + 1
    rw [e1]; omega

set_option maxRecDepth 200000 in
/-- What a writing-back point writes to the rank array is its block of the rows' counts. -/
theorem flushed2_eq
    (t : Fin cfg0.N) (hf : (cfg0.win 2).flush t = true) :
    (dats mI 0 c).flushed 2 t = ((cfg0.win 2).blk t).view.read (Elt Ideal) (G2 mI c) := by
  have h7 : t.val % 8 = 7 := (flush0_2 t).mp hf
  have ht := point_lt t
  obtain ⟨-, -, -, -, e0, e1, -⟩ := idx_facts t
  have key : ∀ y : S128x1.Idx, ((dats mI 0 c).after 2 t : Vec Ideal S128x1 .f32) y = G2 mI c (((cfg0.win 2).blk t).view.emb y) := by
    intro y
    obtain ⟨r, u, rfl⟩ : ∃ (r : Fin 128) (u : Fin 1), y = ix2 r u := ⟨y 0, y 1, eq_ix2 y⟩
    obtain rfl : u = 0 := Subsingleton.elim _ _
    have h := after2_closed mI c t.val t.isLt r
    rw [h7, rank_row] at h
    refine h.trans ?_
    unfold G2
    congr 1
    apply Fin.ext
    show (128 * (t.val / 8) + r.val) % 256 = win0_2.index t (0 : Fin 2) * 128 + 1 * r.val
    rw [e0]; have := r.isLt; omega
  show (cfg0.win 2).cut (grid0.coords t) ((dats mI 0 c).after 2 t) = _
  funext y
  rw [View.read_apply]
  exact key y

set_option maxRecDepth 200000 in
/-- What a writing-back point writes to the tie array is its block of the rows' counts. -/
theorem flushed3_eq
    (t : Fin cfg0.N) (hf : (cfg0.win 3).flush t = true) :
    (dats mI 0 c).flushed 3 t = ((cfg0.win 3).blk t).view.read (Elt Ideal) (G3 mI c) := by
  have h7 : t.val % 8 = 7 := (flush0_3 t).mp hf
  have ht := point_lt t
  obtain ⟨-, -, -, -, -, -, e0, e1⟩ := idx_facts t
  have key : ∀ y : S128x1.Idx, ((dats mI 0 c).after 3 t : Vec Ideal S128x1 .f32) y = G3 mI c (((cfg0.win 3).blk t).view.emb y) := by
    intro y
    obtain ⟨r, u, rfl⟩ : ∃ (r : Fin 128) (u : Fin 1), y = ix2 r u := ⟨y 0, y 1, eq_ix2 y⟩
    obtain rfl : u = 0 := Subsingleton.elim _ _
    have h := after3_closed mI c t.val t.isLt r
    rw [h7, eq_row] at h
    refine h.trans ?_
    unfold G3
    congr 1
    apply Fin.ext
    show (128 * (t.val / 8) + r.val) % 256 = win0_3.index t (0 : Fin 2) * 128 + 1 * r.val
    rw [e0]; have := r.isLt; omega
  show (cfg0.win 3).cut (grid0.coords t) ((dats mI 0 c).after 3 t) = _
  funext y
  rw [View.read_apply]
  exact key y

/-- The rank array after the run, at a row: the row's count of entries above its label score. -/
theorem arr2_of
    (b : Fin 256) :
    ((dats mI 0 c).arrAt 2 cfg0.N : Vec Ideal S256x1 .f32) (ix2 b 0) = raw (sc mI c) (pc mI c) b :=
  congrFun ((dats mI 0 c).arrAt_eq_of_cover 2 (G2 mI c) (flushed2_eq mI c) cover2) (ix2 b 0)

/-- The tie array after the run, at a row: the row's count of entries at or below the constant. -/
theorem arr3_of
    (b : Fin 256) :
    ((dats mI 0 c).arrAt 3 cfg0.N : Vec Ideal S256x1 .f32) (ix2 b 0) = tle (sc mI c) cst b :=
  congrFun ((dats mI 0 c).arrAt_eq_of_cover 3 (G3 mI c) (flushed3_eq mI c) cover3) (ix2 b 0)

/-- The rank accumulator after the last point of a row's row block, at the row: the row's count. -/
theorem last2 (b : Fin 256) (h1 : 8 * (b.val / 128) + 7 < cfg0.N) (h2 : b.val % 128 < 128) :
    ((dats mI 0 c).after 2 ⟨8 * (b.val / 128) + 7, h1⟩ : Vec Ideal S128x1 .f32) (ix2 ⟨b.val % 128, h2⟩ 0)
      = raw (sc mI c) (pc mI c) b := by
  have h := after2_closed mI c (8 * (b.val / 128) + 7) h1 ⟨b.val % 128, h2⟩
  rw [show (8 * (b.val / 128) + 7) % 8 + 1 = 8 by omega, rank_row] at h
  rw [h]
  congr 1
  apply Fin.ext
  show (128 * ((8 * (b.val / 128) + 7) / 8) + b.val % 128) % 256 = b.val
  have := b.isLt; omega

/-- The tie accumulator after the last point of a row's row block, at the row: the row's count. -/
theorem last3 (b : Fin 256) (h1 : 8 * (b.val / 128) + 7 < cfg0.N) (h2 : b.val % 128 < 128) :
    ((dats mI 0 c).after 3 ⟨8 * (b.val / 128) + 7, h1⟩ : Vec Ideal S128x1 .f32) (ix2 ⟨b.val % 128, h2⟩ 0)
      = tle (sc mI c) cst b := by
  have h := after3_closed mI c (8 * (b.val / 128) + 7) h1 ⟨b.val % 128, h2⟩
  rw [show (8 * (b.val / 128) + 7) % 8 + 1 = 8 by omega, eq_row] at h
  rw [h]
  congr 1
  apply Fin.ext
  show (128 * ((8 * (b.val / 128) + 7) / 8) + b.val % 128) % 256 = b.val
  have := b.isLt; omega

/-- The rank array after the run, at a row, over the arrays as the region finds them. -/
theorem arr2_eq (b : Fin 256) :
    ((dats mI 0 c).arrAt 2 cfg0.N : Vec Ideal S256x1 .f32) (ix2 b 0)
      = raw (fun b v => (V mI c main_arg0 : Vec Ideal S256x128000 .f32) (ix2 b v))
          (fun b => (V mI c main_v45 : Vec Ideal S256x1 .f32) (ix2 b 0)) b :=
  arr2_of mI c b

/-- The tie array after the run, at a row, over the arrays as the region finds them. -/
theorem arr3_eq (b : Fin 256) :
    ((dats mI 0 c).arrAt 3 cfg0.N : Vec Ideal S256x1 .f32) (ix2 b 0)
      = tle (fun b v => (V mI c main_arg0 : Vec Ideal S256x128000 .f32) (ix2 b v)) cst b :=
  arr3_of mI c b

end Arrays

end Cert.KernelIdeal.HP

/-! ## The two arrays, restated over the constant's word -/

namespace Cert.KernelIdeal.HV2

open Idealize.ShloMosaic Idealize.ShloMosaic.TcCoe Idealize.SL.Sem Idealize.ShloMosaic.ValueIdx
open Cert.KernelIdeal Cert.KernelIdeal.Gen

/-- The rank array after the run holds, at each row, the count of the row's entries above its label score. -/
theorem arr2_eq (m : (ℓ : Loc nD τ sig) → Buf (Elt Ideal) ℓ) (c : Dev nD) (b : Fin 256) :
    ((HF.dats m 0 c).arrAt 2 cfg0.N : FVec Ideal S256x1 .f32) (ix2 b (0 : Fin 1))
      = Cert.Spec.raw (fun b v => (HF.V m c main_arg0 : FVec Ideal S256x128000 .f32) (ix2 b v))
          (fun b => (HF.V m c main_v45 : FVec Ideal S256x1 .f32) (ix2 b (0 : Fin 1))) b :=
  HP.arr2_eq m c b

/-- The tie array after the run holds, at each row, the count of the row's entries at or below the masking constant. -/
theorem arr3_eq (m : (ℓ : Loc nD τ sig) → Buf (Elt Ideal) ℓ) (c : Dev nD) (b : Fin 256) :
    ((HF.dats m 0 c).arrAt 3 cfg0.N : FVec Ideal S256x1 .f32) (ix2 b (0 : Fin 1))
      = Cert.Spec.tle (fun b v => (HF.V m c main_arg0 : FVec Ideal S256x128000 .f32) (ix2 b v))
          (Ideal.ofBits .f32 0xC61C4000#32) b :=
  HP.arr3_eq m c b

end Cert.KernelIdeal.HV2

end
-- ==== Proof.Counting.lean ====
/-
  The counting identity: over the unmasked scores, the count above the label's score, less the share of the
  distinct history items, plus the masking constant's share in their place, is the count over the masked scores;
  and likewise for the valid length. Every quantity is a natural number read as an extended real, so the
  arithmetic is done on cardinalities and cast once.
-/
import proofs.«428142_j77446850282051_3_alg».proof.Proof.Spec
import Mathlib.Algebra.BigOperators.Ring.Finset
import Mathlib.Data.EReal.Basic
import Mathlib.Data.EReal.Operations
import Mathlib.Data.Finset.Card
import Mathlib.Data.Fintype.Card
import Mathlib.Order.Fin.Basic
import Mathlib.Tactic.Linarith
import Mathlib.Tactic.Ring
import Mathlib.Tactic.NormNum

noncomputable section

namespace Cert.Spec

open Idealize.ShloMosaic Finset

/-- A sum of indicators is the number of indices where the proposition holds. -/
theorem sum_ind_eq_card {ι : Type} [Fintype ι] (P : ι → Prop) [DecidablePred P] :
    (∑ i : ι, ind (P i)) = (((univ.filter P).card : ℝ) : EReal) := by
  unfold ind
  rw [Finset.sum_boole, EReal.coe_natCast]

/-- A word that is non-negative and below the item count as a signed word is its own item number. -/
theorem toNat_lt_of_inRange {q : Fin 256 → Fin 200 → BitVec 32} (h : InRange q) (b : Fin 256) (l : Fin 200) :
    (q b l).toNat < 128000 := by
  have h1 := (h b l).1
  have h2 := (h b l).2
  have h3 := (q b l).isLt
  rw [BitVec.toInt_eq_toNat_cond] at h1 h2
  split at h1 <;> omega

theorem col_val {q : Fin 256 → Fin 200 → BitVec 32} (h : InRange q) (b : Fin 256) (l : Fin 200) :
    (col q b l).val = (q b l).toNat := by
  show (q b l).toNat % 128000 = (q b l).toNat
  exact Nat.mod_eq_of_lt (toNat_lt_of_inRange h b l)

/-- The first occurrences of a row's history correspond one to one, through the item they name, to the items
the history hits: so a count over first occurrences of a property of the named item is the count of hit items
with the property. -/
theorem card_first_eq_card_hit {q : Fin 256 → Fin 200 → BitVec 32} (h : InRange q) (b : Fin 256)
    (G : Fin 128000 → Prop) [DecidablePred G] :
    (univ.filter fun l : Fin 200 => first q b l ∧ G (col q b l)).card
      = (univ.filter fun v : Fin 128000 => hit q b v ∧ G v).card := by
  apply Finset.card_bij (fun l _ => col q b l)
  · intro l hl
    rw [mem_filter] at hl ⊢
    exact ⟨mem_univ _, ⟨l, (col_val h b l).symm⟩, hl.2.2⟩
  · intro l1 hl1 l2 hl2 he
    rw [mem_filter] at hl1 hl2
    have hv : (q b l1).toNat = (q b l2).toNat := by
      rw [← col_val h b l1, ← col_val h b l2, he]
    have hw : q b l1 = q b l2 := BitVec.eq_of_toNat_eq hv
    rcases lt_trichotomy l1.val l2.val with hlt | heq | hgt
    · exact absurd hw (hl2.2.1 l1 hlt)
    · exact Fin.ext heq
    · exact absurd hw.symm (hl1.2.1 l2 hgt)
  · intro v hv
    rw [mem_filter] at hv
    obtain ⟨_, ⟨l0, hl0⟩, hG⟩ := hv
    have hne : (univ.filter fun l : Fin 200 => (q b l).toNat = v.val).Nonempty :=
      ⟨l0, by rw [mem_filter]; exact ⟨mem_univ _, hl0⟩⟩
    obtain ⟨l, hl, hmin⟩ := Finset.exists_min_image _ (fun l : Fin 200 => l.val) hne
    rw [mem_filter] at hl
    have hcol : col q b l = v := Fin.ext (by rw [col_val h b l]; exact hl.2)
    refine ⟨l, ?_, hcol⟩
    rw [mem_filter]
    refine ⟨mem_univ _, ?_, by rw [hcol]; exact hG⟩
    intro l' hlt heq
    have : l.val ≤ l'.val := hmin l' (by rw [mem_filter]; exact ⟨mem_univ _, by rw [heq]; exact hl.2⟩)
    omega

/-- A sum of indicators over first occurrences, as the count of hit items. -/
theorem sum_first_eq_card_hit {q : Fin 256 → Fin 200 → BitVec 32} (h : InRange q) (b : Fin 256)
    (G : Fin 128000 → Prop) [DecidablePred G] :
    (∑ l : Fin 200, ind (first q b l ∧ G (col q b l)))
      = (((univ.filter fun v : Fin 128000 => hit q b v ∧ G v).card : ℝ) : EReal) := by
  rw [sum_ind_eq_card, card_first_eq_card_hit h b G]

/-- A count splits over the indices where a second proposition holds and those where it does not. -/
theorem card_split_gen {α : Type} [Fintype α] [DecidableEq α] (H G : α → Prop) [DecidablePred H] [DecidablePred G] :
    (univ.filter fun v : α => G v).card
      = (univ.filter fun v : α => H v ∧ G v).card + (univ.filter fun v : α => ¬ H v ∧ G v).card := by
  have hd : Disjoint (univ.filter fun v : α => H v ∧ G v) (univ.filter fun v : α => ¬ H v ∧ G v) := by
    rw [Finset.disjoint_filter]
    intro v _ h1 h2
    exact h2.1 h1.1
  rw [← Finset.card_union_of_disjoint hd]
  refine congrArg Finset.card ?_
  ext v
  simp only [mem_filter, mem_union, mem_univ, true_and]
  by_cases hv : H v
  · simp only [hv, true_and, not_true_eq_false, false_and, or_false]
  · simp only [hv, false_and, not_false_eq_true, true_and, false_or]

/-! ## The arithmetic, on natural numbers read as extended reals -/

theorem rank_arith (A B D : ℕ) (P : Prop) [Decidable P] :
    ((((A + B : ℕ) : ℝ) : EReal) - ((A : ℝ) : EReal)) + (if P then ((D : ℝ) : EReal) else 0)
      = ((((if P then D else 0) + B : ℕ) : ℝ) : EReal) := by
  have hsub : (((A + B : ℕ) : ℝ) : EReal) - ((A : ℝ) : EReal) = ((B : ℝ) : EReal) := by
    rw [← EReal.coe_sub]
    exact congrArg Real.toEReal (by push_cast; ring)
  rw [hsub]
  by_cases hc : P
  · rw [if_pos hc, if_pos hc, ← EReal.coe_add]
    exact congrArg Real.toEReal (by push_cast; ring)
  · rw [if_neg hc, if_neg hc, add_zero, zero_add]

theorem valid_arith (D E T V N : ℕ) (htot : D + N = 128000) (hN : N = T + V) :
    (((128000 : ℝ) : EReal) - ((D : ℝ) : EReal) - (((E + T : ℕ) : ℝ) : EReal)) + ((E : ℝ) : EReal)
      = ((V : ℝ) : EReal) := by
  rw [← EReal.coe_sub, ← EReal.coe_sub, ← EReal.coe_add]
  refine congrArg Real.toEReal ?_
  have h1 : D + (T + V) = 128000 := by omega
  have h2 : (D : ℝ) + ((T : ℝ) + (V : ℝ)) = 128000 := by exact_mod_cast h1
  push_cast
  linarith

/-! ## The quantities as counts -/

variable (s : Fin 256 → Fin 128000 → EReal) (p : Fin 256 → EReal) (q : Fin 256 → Fin 200 → BitVec 32) (c : EReal)

theorem raw_eq (b : Fin 256) :
    raw s p b = (((univ.filter fun v : Fin 128000 => p b < s b v).card : ℝ) : EReal) :=
  sum_ind_eq_card _

theorem tle_eq (b : Fin 256) :
    tle s c b = (((univ.filter fun v : Fin 128000 => s b v ≤ c).card : ℝ) : EReal) :=
  sum_ind_eq_card _

theorem corr_eq (h : InRange q) (b : Fin 256) :
    corr s p q b = (((univ.filter fun v : Fin 128000 => hit q b v ∧ p b < s b v).card : ℝ) : EReal) :=
  sum_first_eq_card_hit h b (fun v => p b < s b v)

theorem eqs_eq (h : InRange q) (b : Fin 256) :
    eqs s q c b = (((univ.filter fun v : Fin 128000 => hit q b v ∧ s b v ≤ c).card : ℝ) : EReal) :=
  sum_first_eq_card_hit h b (fun v => s b v ≤ c)

theorem dc_eq (h : InRange q) (b : Fin 256) :
    dc q b = (((univ.filter fun v : Fin 128000 => hit q b v).card : ℝ) : EReal) := by
  have e1 : (univ.filter fun l : Fin 200 => first q b l).card
      = (univ.filter fun v : Fin 128000 => hit q b v).card :=
    (congrArg Finset.card (Finset.filter_congr fun l _ => ⟨fun hl => ⟨hl, trivial⟩, fun hl => hl.1⟩)).trans
      ((card_first_eq_card_hit h b (fun _ => True)).trans
        (congrArg Finset.card (Finset.filter_congr fun v _ => ⟨fun hv => hv.1, fun hv => ⟨hv, trivial⟩⟩)))
  unfold dc
  rw [sum_ind_eq_card, e1]

/-! ## The identities -/

/-- The masked count above the label's score: the masking constant's share over the hit items, and the unhit
items' own. -/
theorem card_masked_gt (b : Fin 256) :
    (univ.filter fun v : Fin 128000 => p b < masked s q c b v).card
      = (if p b < c then (univ.filter fun v : Fin 128000 => hit q b v).card else 0)
        + (univ.filter fun v : Fin 128000 => ¬ hit q b v ∧ p b < s b v).card := by
  have h1 : (univ.filter fun v : Fin 128000 => hit q b v ∧ p b < masked s q c b v).card
      = if p b < c then (univ.filter fun v : Fin 128000 => hit q b v).card else 0 := by
    by_cases hc : p b < c
    · rw [if_pos hc]
      exact congrArg Finset.card (Finset.filter_congr fun v _ =>
        ⟨fun hv => hv.1, fun hv => ⟨hv, by unfold masked; rw [if_pos hv]; exact hc⟩⟩)
    · rw [if_neg hc, Finset.card_eq_zero, Finset.filter_eq_empty_iff]
      intro v _ hv
      apply hc
      have h3 := hv.2
      unfold masked at h3
      rwa [if_pos hv.1] at h3
  have h2 : (univ.filter fun v : Fin 128000 => ¬ hit q b v ∧ p b < masked s q c b v).card
      = (univ.filter fun v : Fin 128000 => ¬ hit q b v ∧ p b < s b v).card :=
    congrArg Finset.card (Finset.filter_congr fun v _ =>
      and_congr_right fun hv => by unfold masked; rw [if_neg hv])
  rw [card_split_gen (hit q b) (fun v => p b < masked s q c b v), h1, h2]

theorem rankK_eq_rankR (h : InRange q) (b : Fin 256) : rankK s p q c b = rankR s p q c b := by
  unfold rankK rankR
  rw [raw_eq, corr_eq s p q h, dc_eq q h, card_masked_gt,
    card_split_gen (hit q b) (fun v => p b < s b v)]
  exact rank_arith _ _ _ _

/-- The unhit items are those at or below the masking constant and those the masked row holds above it. -/
theorem card_unhit (b : Fin 256) :
    (univ.filter fun v : Fin 128000 => ¬ hit q b v).card
      = (univ.filter fun v : Fin 128000 => ¬ hit q b v ∧ s b v ≤ c).card
        + (univ.filter fun v : Fin 128000 => c < masked s q c b v).card := by
  have h1 : (univ.filter fun v : Fin 128000 => s b v ≤ c ∧ ¬ hit q b v).card
      = (univ.filter fun v : Fin 128000 => ¬ hit q b v ∧ s b v ≤ c).card :=
    congrArg Finset.card (Finset.filter_congr fun v _ => and_comm)
  have h2 : (univ.filter fun v : Fin 128000 => ¬ (s b v ≤ c) ∧ ¬ hit q b v).card
      = (univ.filter fun v : Fin 128000 => c < masked s q c b v).card :=
    congrArg Finset.card (Finset.filter_congr fun v _ => by
      unfold masked
      by_cases hv : hit q b v
      · rw [if_pos hv]
        exact ⟨fun h' => absurd hv h'.2, fun h' => absurd h' (lt_irrefl c)⟩
      · rw [if_neg hv]
        exact ⟨fun h' => not_le.1 h'.1, fun h' => ⟨not_le.2 h', hv⟩⟩)
  rw [card_split_gen (fun v => s b v ≤ c) (fun v => ¬ hit q b v), h1, h2]

theorem validK_eq_validR (h : InRange q) (b : Fin 256) : validK s q c b = validR s q c b := by
  unfold validK validR
  have htot : (univ.filter fun v : Fin 128000 => hit q b v).card
      + (univ.filter fun v : Fin 128000 => ¬ hit q b v).card = 128000 := by
    rw [Finset.card_filter_add_card_filter_not, Finset.card_univ, Fintype.card_fin]
  rw [tle_eq, eqs_eq s q c h, dc_eq q h, card_split_gen (hit q b) (fun v => s b v ≤ c)]
  exact valid_arith _ _ _ _ _ htot (card_unhit s q c b)

end Cert.Spec

end
-- ==== Proof.KResult.lean ====
/-
  The kernel program's result, closed: the lines after the region turn the two per-row counts the pipeline
  accumulated and the host-side sums over the distinct history items into the rank and the valid length, which
  are the reference's counts over the masked scores (the counting identity), and the shared tail does the rest.
-/
import proofs.«428142_j77446850282051_3_alg».proof.Proof.KFrame
import proofs.«428142_j77446850282051_3_alg».proof.Proof.KGlue
import proofs.«428142_j77446850282051_3_alg».proof.Proof.KTail
import proofs.«428142_j77446850282051_3_alg».proof.Proof.KRank
import proofs.«428142_j77446850282051_3_alg».proof.Proof.KPre
import proofs.«428142_j77446850282051_3_alg».proof.Proof.KValue
import proofs.«428142_j77446850282051_3_alg».proof.Proof.Counting

noncomputable section

namespace Cert.KernelIdeal.HR

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- Core `c`'s buffers as launched. -/
abbrev Mc (c : Dev nD) : Valuation τ sig (Elt Ideal) := fun b => m (c, b)

/-- The contents the region is entered with are the host lines before it applied to the launch contents. -/
theorem V0_eq (c : Dev nD) : HF.V0 m c = HPre.W0 (Mc m c) := rfl

/-- What the lines after the region start from: the pipeline's arrays as it leaves them, the rest as entered. -/
abbrev Wx (c : Dev nD) : Valuation τ sig (Elt Ideal) :=
  Pipeline.withArrays spec0 c (HF.V0 m c) fun w => (HF.dats m 0 c).arrAt w cfg0.N

theorem Wx_def (c : Dev nD) : Wx m c = Pipeline.withArrays spec0 c (HF.V0 m c) (fun w => (HF.dats m 0 c).arrAt w cfg0.N) := rfl

/-- The scores the kernel's windows read are the launched scores. -/
theorem s_eq (c : Dev nD) : (fun (b : Fin 256) (v : Fin 128000) => (HF.V m c main_arg0 : FVec Ideal S256x128000 .f32) (ix2 b v)) = HPre.sM (Mc m c) := by
  funext b v
  show (HF.V0 m c (Proc.devRef .tc main_arg0) : FVec Ideal S256x128000 .f32) (ix2 b v) = _
  rw [V0_eq, HPre.W0_arg0]

/-- The column of label scores the kernel's second window reads is the label scores. -/
theorem p_eq (c : Dev nD) : (fun (b : Fin 256) => (HF.V m c main_v45 : FVec Ideal S256x1 .f32) (ix2 b (0 : Fin 1))) = HPre.pM (Mc m c) := by
  funext b
  show (HF.V0 m c (Proc.devRef .tc main_v45) : FVec Ideal S256x1 .f32) (ix2 b (0 : Fin 1)) = _
  rw [V0_eq]; exact HPre.v45_eq (Mc m c) b

/-- The rank the kernel program computes, row by row, is the reference's count over the masked scores. -/
theorem rank_row (c : Dev nD) (h : Cert.Spec.InRange (HPre.qM (Mc m c))) (b : Fin 256) :
    HT.rankT (F := Ideal) (Wx m c) (ix1 b)
      = Cert.Spec.rankR (HPre.sM (Mc m c)) (HPre.pM (Mc m c)) (HPre.qM (Mc m c)) HPre.cst b := by
  refine (HK.rank_of (Wx m c) (HPre.sM (Mc m c)) (HPre.pM (Mc m c)) (HPre.qM (Mc m c)) b ?_ ?_ ?_ ?_).trans
    (Cert.Spec.rankK_eq_rankR _ _ _ _ h b)
  · show (Wx m c (Proc.devRef .tc main_v46_0) : FVec Ideal S256x1 .f32) (ix2 b (0 : Fin 1)) = _
    rw [Wx_def, HG.at_v46_0, ← s_eq, ← p_eq]; exact HV2.arr2_eq m c b
  · show (Wx m c (Proc.devRef .tc main_v39) : FVec Ideal S256 .f32) (ix1 b) = _
    rw [Wx_def, HG.at_v39, V0_eq]; exact HPre.v39_eq (Mc m c) h b
  · show (Wx m c (Proc.devRef .tc main_v14) : FVec Ideal S256 .f32) (ix1 b) = _
    rw [Wx_def, HG.at_v14, V0_eq]
  · show (Wx m c (Proc.devRef .tc main_v33) : FVec Ideal S256 .f32) (ix1 b) = _
    rw [Wx_def, HG.at_v33, V0_eq]; exact HPre.v33_eq (Mc m c) b

/-- The valid length likewise. -/
theorem valid_row (c : Dev nD) (h : Cert.Spec.InRange (HPre.qM (Mc m c))) (b : Fin 256) :
    HT.validT (F := Ideal) (Wx m c) (ix1 b)
      = Cert.Spec.validR (HPre.sM (Mc m c)) (HPre.qM (Mc m c)) HPre.cst b := by
  refine (HK.valid_of (Wx m c) (HPre.sM (Mc m c)) (HPre.qM (Mc m c)) b ?_ ?_ ?_).trans
    (Cert.Spec.validK_eq_validR _ _ _ h b)
  · show (Wx m c (Proc.devRef .tc main_v46_1) : FVec Ideal S256x1 .f32) (ix2 b (0 : Fin 1)) = _
    rw [Wx_def, HG.at_v46_1, ← s_eq]; exact HV2.arr3_eq m c b
  · show (Wx m c (Proc.devRef .tc main_v44) : FVec Ideal S256 .f32) (ix1 b) = _
    rw [Wx_def, HG.at_v44, V0_eq]; exact HPre.v44_eq (Mc m c) h b
  · show (Wx m c (Proc.devRef .tc main_v33) : FVec Ideal S256 .f32) (ix1 b) = _
    rw [Wx_def, HG.at_v33, V0_eq]; exact HPre.v33_eq (Mc m c) b

/-- The result buffer after the whole program: the shared tail of the reference's two counts. -/
theorem result (c : Dev nD) (h : Cert.Spec.InRange (HPre.qM (Mc m c))) :
    Pipeline.afterTail₀ cfgs (HF.dats m) 0 (HF.V0 m) [hostOps1, hostOps1_1, hostOps1_2] c main_v152
      = Cert.Tail.tail (F := Ideal)
          (fun i => Cert.Spec.rankR (HPre.sM (Mc m c)) (HPre.pM (Mc m c)) (HPre.qM (Mc m c)) HPre.cst (i 0))
          (fun i => Cert.Spec.validR (HPre.sM (Mc m c)) (HPre.qM (Mc m c)) HPre.cst (i 0)) := by
  have hr : HT.rankT (F := Ideal) (Wx m c)
      = fun i => Cert.Spec.rankR (HPre.sM (Mc m c)) (HPre.pM (Mc m c)) (HPre.qM (Mc m c)) HPre.cst (i 0) := by
    funext i; rw [eq_ix1 i]; exact rank_row m c h (i 0)
  have hv : HT.validT (F := Ideal) (Wx m c)
      = fun i => Cert.Spec.validR (HPre.sM (Mc m c)) (HPre.qM (Mc m c)) HPre.cst (i 0) := by
    funext i; rw [eq_ix1 i]; exact valid_row m c h (i 0)
  unfold Pipeline.afterTail₀
  show StableHlo.after (List.flatten [hostOps1, hostOps1_1, hostOps1_2]) (Wx m c) (Proc.devRef .tc main_v152) = _
  rw [HT.tail_eq_flatten, hr, hv]

end Cert.KernelIdeal.HR

end
-- ==== Proof.RefValueIdx.lean ====
/-
  The reference's vocabulary read off a launch valuation, and the scatter's index vectors read at a position: the index
  vector at (b, l) is (b, the l-th history word of row b) when the history words are item numbers.
-/
import proofs.«428142_j77446850282051_3_alg».proof.Proof.Gen.ReferenceIdeal.Run
import proofs.«428142_j77446850282051_3_alg».proof.Proof.Spec
import Idealize.ShloMosaic.Lib.Pipeline.Value
import Idealize.ShloMosaic.Lib.StableHlo.Predicate

noncomputable section

namespace Cert.ReferenceIdeal.HV

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo

variable (V0 : Valuation τ sig (Elt Ideal))

/-- The score of item v in row b. -/
def sF (b : Fin 256) (v : Fin 128000) : EReal := V0 (Proc.devRef .tc main_arg0) (ix2 b v)
/-- The l-th history word of row b. -/
def qF (b : Fin 256) (l : Fin 200) : BitVec 32 := V0 (Proc.devRef .tc main_arg2) (ix2 b l)
/-- The masking constant. -/
def cst : EReal := Ideal.ofBits .f32 0xC61C4000#32

/-- The scatter's index vectors: (row, normalised history word) at every (row, position). -/
def idxT : (⟨S256x200x2, .i32⟩ : BufTy).Contents (Elt Ideal) :=
  concatenate S256x200x2 2 [⟨S256x200x1, (broadcastInDim S256x200x1 ![0, 1] bcast_S256x200_S256x200x1_0_1 (broadcastInDim S256x200 ![0, 1] bcast_S256x1_S256x200_0_1 (select (cmpi .slt (res_main_v15 V0) (broadcastInDim S256x1 ![] bcast_S_S256x1 (constantI S_ 32 0#32))) (addi (res_main_v15 V0) (broadcastInDim S256x1 ![] bcast_S_S256x1 (constantI S_ 32 256#32))) (res_main_v15 V0))))⟩, ⟨S256x200x1, (broadcastInDim S256x200x1 ![0, 1] bcast_S256x200_S256x200x1_0_1 (select (cmpi .slt (V0 (Proc.devRef .tc main_arg2)) (broadcastInDim S256x200 ![] bcast_S_S256x200 (constantI S_ 32 0#32))) (addi (V0 (Proc.devRef .tc main_arg2)) (broadcastInDim S256x200 ![] bcast_S_S256x200 (constantI S_ 32 128000#32))) (V0 (Proc.devRef .tc main_arg2))))⟩] concatenates_S256x200x1_S256x200x1_S256x200x2_d2

theorem res_main_v31_eq : res_main_v31 V0 = Host.scatter scatter_S256x128000_S256x200x2_S256x200_n_01_01_2 (fun _ b => b) (V0 (Proc.devRef .tc main_arg0)) (idxT V0) (broadcastInDim S256x200 ![] bcast_S_S256x200 (constant (F := Ideal) S_ .f32 0xC61C4000#32)) := rfl

/-- A word that is not negative is left alone by the "add the extent when negative" normalisation. -/
theorem select_slt_zero (x n : BitVec 32) (hx : 0 ≤ x.toInt) :
    Scalar.select (IntOp.cmpi .slt x 0#32) (IntOp.addi x n) x = x := by
  have h0 : (0#32 : BitVec 32).toInt = 0 := by decide
  have hs : x.slt 0#32 = false := by
    unfold BitVec.slt
    rw [h0]
    exact decide_eq_false (by omega)
  have hc : IntOp.cmpi .slt x 0#32 = 0#1 := by
    unfold IntOp.cmpi
    simp only [hs]
    rfl
  rw [hc]
  exact select_zero _ _

/-- The row number as a word, read at (b, 0) of its column. -/
theorem res_main_v15_apply (b : Fin 256) : res_main_v15 V0 (ix2 b (0 : Fin 1)) = BitVec.ofNat 32 b.val := rfl

/-- The row component of the index vector at (b, l) is the row number. -/
theorem idxT_row (b : Fin 256) (l : Fin 200) : idxT V0 (ix3 b l (0 : Fin 2)) = BitVec.ofNat 32 b.val := by
  unfold idxT
  rw [concatenate_pair_apply_left (t := S256x200x2) (s₁ := S256x200x1) (s₂ := S256x200x1) (2 : Fin 3) _ _ _ (ix3 b l (0 : Fin 2)) rfl (ix3 b l (0 : Fin 1))
    (by intro a; match a with | ⟨0, _⟩ => rfl | ⟨1, _⟩ => rfl | ⟨2, _⟩ => rfl)]
  rw [broadcastInDim_apply _ _ _ _ (ix2 b l) (by intro a; match a with | ⟨0, _⟩ => rfl | ⟨1, _⟩ => rfl)]
  rw [broadcastInDim_apply _ _ _ _ (ix2 b (0 : Fin 1)) (by intro a; match a with | ⟨0, _⟩ => rfl | ⟨1, _⟩ => rfl)]
  show Scalar.select (IntOp.cmpi .slt (res_main_v15 V0 (ix2 b (0 : Fin 1))) 0#32)
    (IntOp.addi (res_main_v15 V0 (ix2 b (0 : Fin 1))) 256#32) (res_main_v15 V0 (ix2 b (0 : Fin 1))) = _
  rw [res_main_v15_apply]
  refine select_slt_zero _ _ ?_
  rw [Predicate.toInt_ofNat_small _ (by have := b.isLt; omega)]
  exact Int.natCast_nonneg _

/-- The item component of the index vector at (b, l) is the l-th history word of row b when that word is not negative. -/
theorem idxT_col (b : Fin 256) (l : Fin 200) (h : 0 ≤ (qF V0 b l).toInt) : idxT V0 (ix3 b l (1 : Fin 2)) = qF V0 b l := by
  unfold idxT
  rw [concatenate_pair_apply_right (t := S256x200x2) (s₁ := S256x200x1) (s₂ := S256x200x1) (2 : Fin 3) _ _ _ (ix3 b l (1 : Fin 2)) rfl rfl (ix3 b l (0 : Fin 1))
    (by intro a ha; match a with | ⟨0, _⟩ => rfl | ⟨1, _⟩ => rfl | ⟨2, _⟩ => exact absurd rfl ha) rfl]
  rw [broadcastInDim_apply _ _ _ _ (ix2 b l) (by intro a; match a with | ⟨0, _⟩ => rfl | ⟨1, _⟩ => rfl)]
  show Scalar.select (IntOp.cmpi .slt (qF V0 b l) 0#32) (IntOp.addi (qF V0 b l) 128000#32) (qF V0 b l) = _
  exact select_slt_zero _ _ h

end Cert.ReferenceIdeal.HV

end
-- ==== Proof.LibScatterSet.lean ====
/-
  The host's scatter whose body returns the update (an assignment into a window of the operand), read at one index.

  The scatter is a fold over the update positions; with an assigning body the value it leaves at operand index i is
  the update that lands at i when exactly one does, and the operand's own element when none does (general lemmas, any
  dimension numbers). Where an update lands is "start plus window coordinate on every axis" (general
  characterisation). For the four families of dimension numbers a rank-2 operand's rectangular assignment prints to —
  a K × N block written at a start given by two index components or by one (the column start then 0), and one row of
  N elements written at a start given by one or two index components — the start and the window coordinate are computed
  in closed form, and the scatter at (r, c) is the update's element when (r, c) lies in the written rectangle and the
  operand's element otherwise.
-/
import Mathlib.Data.BitVec
import Idealize.ShloMosaic.Lib.ValueIdx

namespace Cert.LibScatterSet

open Idealize.ShloMosaic Idealize.ShloMosaic.ValueIdx

/-! ## Any scatter with an assigning body -/

section General
variable {α : Type} {s si u : Shape} {w : Nat}

/-- One step of the scatter's fold, at update position n. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- A step whose update lands elsewhere (or nowhere) leaves the value at i. -/
theorem step_of_ne (d : ScatterDims s si u) (idx : IVec si w) (upd : u.Idx → α) (r : s.Idx → α) (n : Fin u.numel)
    (i : s.Idx) (h : d.resultIdx? (u.rowMajor.symm n) idx ≠ some i) : step d idx upd r n i = r i := by
  unfold step
  cases hk : d.resultIdx? (u.rowMajor.symm n) idx with
  | none => rfl
  | some k =>
    have hik : i ≠ k := fun e => h (by rw [hk, e])
    simp only [if_neg hik]

/-- A step whose update lands at i leaves the update there. -/
theorem step_of_eq (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step
  rw [h]
  simp only [if_true]

/-- Over a list of update positions none of which lands at i, the fold leaves the value at i. -/
theorem foldl_of_none (d : ScatterDims s si u) (idx : IVec si w) (upd : u.Idx → α) (i : s.Idx) :
    ∀ (l : List (Fin u.numel)) (x : s.Idx → α), (∀ n ∈ l, d.resultIdx? (u.rowMajor.symm n) idx ≠ some i) →
      l.foldl (step d idx upd) x i = x i
  | [], _, _ => rfl
  | n :: l, x, h => by
    rw [List.foldl_cons, foldl_of_none d idx upd i l _ fun n' hn' => h n' (List.mem_cons_of_mem _ hn'),
      step_of_ne d idx upd x n i (h n List.mem_cons_self)]

/-- Over a list of update positions of which n₀, and no other, lands at i, the fold leaves n₀'s update at i. -/
theorem foldl_of_unique (d : ScatterDims s si u) (idx : IVec si w) (upd : u.Idx → α) (i : s.Idx) (n₀ : Fin u.numel)
    (h₀ : d.resultIdx? (u.rowMajor.symm n₀) idx = some i) :
    ∀ (l : List (Fin u.numel)) (x : s.Idx → α), n₀ ∈ l →
      (∀ n ∈ l, d.resultIdx? (u.rowMajor.symm n) idx = some i → n = n₀) →
      l.foldl (step d idx upd) x i = upd (u.rowMajor.symm n₀)
  | [], _, hm, _ => absurd hm List.not_mem_nil
  | n :: l, x, hm, hu => by
    rw [List.foldl_cons]
    by_cases hl : n₀ ∈ l
    · exact foldl_of_unique d idx upd i n₀ h₀ l _ hl fun n' hn' => hu n' (List.mem_cons_of_mem _ hn')
    · have hn : n = n₀ := by
        rcases List.mem_cons.mp hm with e | e
        · exact e.symm
        · exact absurd e hl
      subst hn
      rw [foldl_of_none d idx upd i l _ fun n' hn' e => hl (hu n' (List.mem_cons_of_mem _ hn') e ▸ hn'),
        step_of_eq d idx upd x n i h₀]

/-- No update lands at i: the scatter leaves the operand's element. -/
theorem scatter_set_apply_none (d : ScatterDims s si u) (x : s.Idx → α) (idx : IVec si w) (upd : u.Idx → α) (i : s.Idx)
    (h : ∀ j, d.resultIdx? j idx ≠ some i) : Host.scatter d (fun _ b => b) x idx upd i = x i := by
  rw [scatter_eq_foldl]
  exact foldl_of_none d idx upd i _ x fun n _ => h _

/-- Update j, and no other, lands at i: the scatter leaves update j's element. -/
theorem scatter_set_apply_some (d : ScatterDims s si u) (x : s.Idx → α) (idx : IVec si w) (upd : u.Idx → α) (i : s.Idx)
    (j : u.Idx) (hj : d.resultIdx? j idx = some i) (hu : ∀ j', d.resultIdx? j' idx = some i → j' = j) :
    Host.scatter d (fun _ b => b) x idx upd i = upd j := by
  rw [scatter_eq_foldl]
  have h₀ : d.resultIdx? (u.rowMajor.symm (u.rowMajor j)) idx = some i := by rw [Equiv.symm_apply_apply]; exact hj
  have := foldl_of_unique d idx upd i (u.rowMajor j) h₀ (List.finRange u.numel) x (List.mem_finRange _)
    fun n _ hn => by rw [← hu _ hn, Equiv.apply_symm_apply]
  rw [this, Equiv.symm_apply_apply]

/-- WHERE AN UPDATE LANDS: update j lands at operand index i exactly when, on every operand axis, the start plus the
    window coordinate is i's coordinate. -/
theorem resultIdx?_eq_some_iff (d : ScatterDims s si u) (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · next hall =>
      have e := Option.some.inj h
      intro a
      have ea : (d.start j idx a + (d.window j a : ℤ)).toNat = (i a).val := congrArg Fin.val (congrFun e a)
      have := (hall a).1
      omega
    · cases h
  · intro h
    have hall : ∀ a, 0 ≤ d.start j idx a + (d.window j a : ℤ) ∧ d.start j idx a + (d.window j a : ℤ) < (s.size a : ℤ) := by
      intro a
      rw [h a]
      exact ⟨Int.natCast_nonneg _, Int.ofNat_lt.mpr (i a).isLt⟩
    rw [dif_pos hall]
    congr 1
    funext a
    refine Fin.ext ?_
    show (d.start j idx a + (d.window j a : ℤ)).toNat = (i a).val
    rw [h a]; rfl

end General

/-! ## A rectangle of a rank-2 operand assigned from a block or a row -/

section Rect
variable {α : Type} {R C K N w : Nat}

/-- A K × N block assigned with its corner at (r₀, c₀), read at (r, c): the block's element inside the rectangle, the
    operand's outside. What is asked of the dimension numbers and the indices is where an update lands. -/
theorem set_block_apply {si : Shape} (d : ScatterDims ⟨2, ![R, C]⟩ si ⟨2, ![K, N]⟩)
    (x : (⟨2, ![R, C]⟩ : Shape).Idx → α) (idx : IVec si w) (upd : (⟨2, ![K, N]⟩ : Shape).Idx → α) (r₀ c₀ : ℕ)
    (hiff : ∀ (j : (⟨2, ![K, N]⟩ : Shape).Idx) (i : (⟨2, ![R, C]⟩ : Shape).Idx),
      d.resultIdx? j idx = some i ↔ r₀ + (j 0).val = (i 0).val ∧ c₀ + (j 1).val = (i 1).val)
    (r : Fin R) (c : Fin C) :
    Host.scatter d (fun _ b => b) x idx upd (ix2 r c)
      = if h : (r₀ ≤ r.val ∧ r.val < r₀ + K) ∧ (c₀ ≤ c.val ∧ c.val < c₀ + N) then
          upd (ix2 ⟨r.val - r₀, by omega⟩ ⟨c.val - c₀, by omega⟩)
        else x (ix2 r c) := by
  by_cases h : (r₀ ≤ r.val ∧ r.val < r₀ + K) ∧ (c₀ ≤ c.val ∧ c.val < c₀ + N)
  · rw [dif_pos h]
    refine scatter_set_apply_some d x idx upd _ _ ((hiff _ _).mpr ⟨?_, ?_⟩) fun j' hj' => ?_
    · show r₀ + (r.val - r₀) = r.val
      omega
    · show c₀ + (c.val - c₀) = c.val
      omega
    · obtain ⟨h0, h1⟩ := (hiff _ _).mp hj'
      have h0' : r₀ + (j' 0).val = r.val := h0
      have h1' : c₀ + (j' 1).val = c.val := h1
      funext a
      match a with
      | ⟨0, _⟩ => exact Fin.ext (by show (j' 0).val = r.val - r₀; omega)
      | ⟨1, _⟩ => exact Fin.ext (by show (j' 1).val = c.val - c₀; omega)
  · rw [dif_neg h]
    refine scatter_set_apply_none d x idx upd _ fun j hj => h ?_
    obtain ⟨h0, h1⟩ := (hiff _ _).mp hj
    have h0' : r₀ + (j 0).val = r.val := h0
    have h1' : c₀ + (j 1).val = c.val := h1
    have := idx2_lt0 j
    have := idx2_lt1 j
    exact ⟨⟨by omega, by omega⟩, by omega, by omega⟩

/-- One row of N elements assigned at row r₀ from column c₀ on, read at (r, c). -/
theorem set_row_apply {si : Shape} (d : ScatterDims ⟨2, ![R, C]⟩ si ⟨1, ![N]⟩)
    (x : (⟨2, ![R, C]⟩ : Shape).Idx → α) (idx : IVec si w) (upd : (⟨1, ![N]⟩ : Shape).Idx → α) (r₀ c₀ : ℕ)
    (hiff : ∀ (j : (⟨1, ![N]⟩ : Shape).Idx) (i : (⟨2, ![R, C]⟩ : Shape).Idx),
      d.resultIdx? j idx = some i ↔ r₀ = (i 0).val ∧ c₀ + (j 0).val = (i 1).val)
    (r : Fin R) (c : Fin C) :
    Host.scatter d (fun _ b => b) x idx upd (ix2 r c)
      = if h : r.val = r₀ ∧ (c₀ ≤ c.val ∧ c.val < c₀ + N) then upd (ix1 ⟨c.val - c₀, by omega⟩) else x (ix2 r c) := by
  by_cases h : r.val = r₀ ∧ (c₀ ≤ c.val ∧ c.val < c₀ + N)
  · rw [dif_pos h]
    refine scatter_set_apply_some d x idx upd _ _ ((hiff _ _).mpr ⟨?_, ?_⟩) fun j' hj' => ?_
    · show r₀ = r.val
      omega
    · show c₀ + (c.val - c₀) = c.val
      omega
    · obtain ⟨_, h1⟩ := (hiff _ _).mp hj'
      have h1' : c₀ + (j' 0).val = c.val := h1
      funext a
      match a with
      | ⟨0, _⟩ => exact Fin.ext (by show (j' 0).val = c.val - c₀; omega)
  · rw [dif_neg h]
    refine scatter_set_apply_none d x idx upd _ fun j hj => h ?_
    obtain ⟨h0, h1⟩ := (hiff _ _).mp hj
    have h0' : r₀ = r.val := h0
    have h1' : c₀ + (j 0).val = c.val := h1
    have : (j 0).val < N := (j 0).isLt
    exact ⟨by omega, by omega, by omega⟩

end Rect

/-! ## The four families of dimension numbers -/

section Families
variable {α : Type} {R C K N w : Nat}

/-! ### A block at a start of two index components -/

/-- Operand [R, C], indices [2], updates [K, N]: both update axes are window axes, no operand axis is inserted, index
    component k is the start on operand axis k. -/
abbrev blk2Dims (R C K N : Nat) (wf : ScatterDims.WF ⟨2, ![R, C]⟩ ⟨1, ![2]⟩ ⟨2, ![K, N]⟩ [0, 1] [] [0, 1] 0) :
    ScatterDims ⟨2, ![R, C]⟩ ⟨1, ![2]⟩ ⟨2, ![K, N]⟩ where
  updateWindowDims := [0, 1]
  insertedWindowDims := []
  scatterDimsToOperandDims := [0, 1]
  indexVectorDim := 0
  wf := wf

section
variable (wf : ScatterDims.WF ⟨2, ![R, C]⟩ ⟨1, ![2]⟩ ⟨2, ![K, N]⟩ [0, 1] [] [0, 1] 0)

theorem blk2_start0 (j : (⟨2, ![K, N]⟩ : Shape).Idx) (idx : IVec ⟨1, ![2]⟩ w) :
    (blk2Dims R C K N wf).start j idx 0 = (idx (ix1 0)).toInt := by
  unfold ScatterDims.start
  rw [dif_pos (show (0 : Fin 2) ∈ (blk2Dims R C K N wf).scatterDimsToOperandDims from List.mem_cons_self)]
  have hsi : (blk2Dims R C K N wf).siIdx j ⟨List.idxOf (0 : Fin 2) (blk2Dims R C K N wf).scatterDimsToOperandDims,
      List.idxOf_lt_length_iff.2 List.mem_cons_self⟩ = ix1 0 := by
    funext b; refine Fin.ext ?_
    match b with
    | ⟨0, _⟩ => rfl
  rw [hsi]

theorem blk2_start1 (j : (⟨2, ![K, N]⟩ : Shape).Idx) (idx : IVec ⟨1, ![2]⟩ w) :
    (blk2Dims R C K N wf).start j idx 1 = (idx (ix1 1)).toInt := by
  unfold ScatterDims.start
  have hm : (1 : Fin 2) ∈ (blk2Dims R C K N wf).scatterDimsToOperandDims := List.mem_cons_of_mem _ List.mem_cons_self
  rw [dif_pos hm]
  have hsi : (blk2Dims R C K N wf).siIdx j ⟨List.idxOf (1 : Fin 2) (blk2Dims R C K N wf).scatterDimsToOperandDims,
      List.idxOf_lt_length_iff.2 hm⟩ = ix1 1 := by
    funext b; refine Fin.ext ?_
    match b with
    | ⟨0, _⟩ => rfl
  rw [hsi]

theorem blk2_sKept : (blk2Dims R C K N wf).sKept = [0, 1] := rfl

theorem blk2_window0 (j : (⟨2, ![K, N]⟩ : Shape).Idx) : (blk2Dims R C K N wf).window j 0 = (j 0).val := by
  unfold ScatterDims.window
  rw [dif_pos (show (0 : Fin 2) ∈ (blk2Dims R C K N wf).sKept from blk2_sKept wf ▸ List.mem_cons_self)]
  rfl

theorem blk2_window1 (j : (⟨2, ![K, N]⟩ : Shape).Idx) : (blk2Dims R C K N wf).window j 1 = (j 1).val := by
  unfold ScatterDims.window
  rw [dif_pos (show (1 : Fin 2) ∈ (blk2Dims R C K N wf).sKept from
    blk2_sKept wf ▸ List.mem_cons_of_mem _ List.mem_cons_self)]
  rfl

/-- Update (k, n) lands at (r₀ + k, c₀ + n), (r₀, c₀) the two index components. -/
theorem blk2_iff (idx : IVec ⟨1, ![2]⟩ w) (r₀ c₀ : ℕ) (hr : (idx (ix1 0)).toInt = (r₀ : ℤ)) (hc : (idx (ix1 1)).toInt = (c₀ : ℤ))
    (j : (⟨2, ![K, N]⟩ : Shape).Idx) (i : (⟨2, ![R, C]⟩ : Shape).Idx) :
    (blk2Dims R C K N wf).resultIdx? j idx = some i ↔ r₀ + (j 0).val = (i 0).val ∧ c₀ + (j 1).val = (i 1).val := by
  rw [resultIdx?_eq_some_iff]
  constructor
  · intro h
    have h0 : (blk2Dims R C K N wf).start j idx 0 + ((blk2Dims R C K N wf).window j 0 : ℤ) = ((i 0).val : ℤ) := h 0
    have h1 : (blk2Dims R C K N wf).start j idx 1 + ((blk2Dims R C K N wf).window j 1 : ℤ) = ((i 1).val : ℤ) := h 1
    rw [blk2_start0, blk2_window0, hr] at h0
    rw [blk2_start1, blk2_window1, hc] at h1
    exact ⟨by exact_mod_cast h0, by exact_mod_cast h1⟩
  · rintro ⟨h0, h1⟩ a
    match a with
    | ⟨0, _⟩ =>
      show (blk2Dims R C K N wf).start j idx 0 + ((blk2Dims R C K N wf).window j 0 : ℤ) = ((i 0).val : ℤ)
      rw [blk2_start0, blk2_window0, hr]; exact_mod_cast h0
    | ⟨1, _⟩ =>
      show (blk2Dims R C K N wf).start j idx 1 + ((blk2Dims R C K N wf).window j 1 : ℤ) = ((i 1).val : ℤ)
      rw [blk2_start1, blk2_window1, hc]; exact_mod_cast h1

/-- THE BLOCK ASSIGNMENT AT (r, c), start (r₀, c₀) read off the two index components. -/
theorem blk2_apply (x : (⟨2, ![R, C]⟩ : Shape).Idx → α) (idx : IVec ⟨1, ![2]⟩ w) (upd : (⟨2, ![K, N]⟩ : Shape).Idx → α)
    (r₀ c₀ : ℕ) (hr : (idx (ix1 0)).toInt = (r₀ : ℤ)) (hc : (idx (ix1 1)).toInt = (c₀ : ℤ)) (r : Fin R) (c : Fin C) :
    Host.scatter (blk2Dims R C K N wf) (fun _ b => b) x idx upd (ix2 r c)
      = if h : (r₀ ≤ r.val ∧ r.val < r₀ + K) ∧ (c₀ ≤ c.val ∧ c.val < c₀ + N) then
          upd (ix2 ⟨r.val - r₀, by omega⟩ ⟨c.val - c₀, by omega⟩)
        else x (ix2 r c) :=
  set_block_apply _ x idx upd r₀ c₀ (blk2_iff wf idx r₀ c₀ hr hc) r c

end

/-! ### A block at a start of one index component (the column start 0) -/

/-- Operand [R, C], indices [1], updates [K, N]: as above, but the one index component is the start on the row axis. -/
abbrev blk1Dims (R C K N : Nat) (wf : ScatterDims.WF ⟨2, ![R, C]⟩ ⟨1, ![1]⟩ ⟨2, ![K, N]⟩ [0, 1] [] [0] 0) :
    ScatterDims ⟨2, ![R, C]⟩ ⟨1, ![1]⟩ ⟨2, ![K, N]⟩ where
  updateWindowDims := [0, 1]
  insertedWindowDims := []
  scatterDimsToOperandDims := [0]
  indexVectorDim := 0
  wf := wf

section
variable (wf : ScatterDims.WF ⟨2, ![R, C]⟩ ⟨1, ![1]⟩ ⟨2, ![K, N]⟩ [0, 1] [] [0] 0)

theorem blk1_start0 (j : (⟨2, ![K, N]⟩ : Shape).Idx) (idx : IVec ⟨1, ![1]⟩ w) :
    (blk1Dims R C K N wf).start j idx 0 = (idx (ix1 0)).toInt := by
  unfold ScatterDims.start
  rw [dif_pos (show (0 : Fin 2) ∈ (blk1Dims R C K N wf).scatterDimsToOperandDims from List.mem_cons_self)]
  have hsi : (blk1Dims R C K N wf).siIdx j ⟨List.idxOf (0 : Fin 2) (blk1Dims R C K N wf).scatterDimsToOperandDims,
      List.idxOf_lt_length_iff.2 List.mem_cons_self⟩ = ix1 0 := by
    funext b; refine Fin.ext ?_
    match b with
    | ⟨0, _⟩ => rfl
  rw [hsi]

theorem blk1_start1 (j : (⟨2, ![K, N]⟩ : Shape).Idx) (idx : IVec ⟨1, ![1]⟩ w) :
    (blk1Dims R C K N wf).start j idx 1 = 0 := by
  unfold ScatterDims.start
  rw [dif_neg (show (1 : Fin 2) ∉ (blk1Dims R C K N wf).scatterDimsToOperandDims from
    fun h => Nat.one_ne_zero (congrArg Fin.val (List.mem_singleton.mp h)))]

theorem blk1_sKept : (blk1Dims R C K N wf).sKept = [0, 1] := rfl

theorem blk1_window0 (j : (⟨2, ![K, N]⟩ : Shape).Idx) : (blk1Dims R C K N wf).window j 0 = (j 0).val := by
  unfold ScatterDims.window
  rw [dif_pos (show (0 : Fin 2) ∈ (blk1Dims R C K N wf).sKept from blk1_sKept wf ▸ List.mem_cons_self)]
  rfl

theorem blk1_window1 (j : (⟨2, ![K, N]⟩ : Shape).Idx) : (blk1Dims R C K N wf).window j 1 = (j 1).val := by
  unfold ScatterDims.window
  rw [dif_pos (show (1 : Fin 2) ∈ (blk1Dims R C K N wf).sKept from
    blk1_sKept wf ▸ List.mem_cons_of_mem _ List.mem_cons_self)]
  rfl

/-- Update (k, n) lands at (r₀ + k, n), r₀ the index component. -/
theorem blk1_iff (idx : IVec ⟨1, ![1]⟩ w) (r₀ : ℕ) (hr : (idx (ix1 0)).toInt = (r₀ : ℤ))
    (j : (⟨2, ![K, N]⟩ : Shape).Idx) (i : (⟨2, ![R, C]⟩ : Shape).Idx) :
    (blk1Dims R C K N wf).resultIdx? j idx = some i ↔ r₀ + (j 0).val = (i 0).val ∧ 0 + (j 1).val = (i 1).val := by
  rw [resultIdx?_eq_some_iff]
  constructor
  · intro h
    have h0 : (blk1Dims R C K N wf).start j idx 0 + ((blk1Dims R C K N wf).window j 0 : ℤ) = ((i 0).val : ℤ) := h 0
    have h1 : (blk1Dims R C K N wf).start j idx 1 + ((blk1Dims R C K N wf).window j 1 : ℤ) = ((i 1).val : ℤ) := h 1
    rw [blk1_start0, blk1_window0, hr] at h0
    rw [blk1_start1, blk1_window1] at h1
    exact ⟨by exact_mod_cast h0, by omega⟩
  · rintro ⟨h0, h1⟩ a
    match a with
    | ⟨0, _⟩ =>
      show (blk1Dims R C K N wf).start j idx 0 + ((blk1Dims R C K N wf).window j 0 : ℤ) = ((i 0).val : ℤ)
      rw [blk1_start0, blk1_window0, hr]; exact_mod_cast h0
    | ⟨1, _⟩ =>
      show (blk1Dims R C K N wf).start j idx 1 + ((blk1Dims R C K N wf).window j 1 : ℤ) = ((i 1).val : ℤ)
      rw [blk1_start1, blk1_window1]; omega

/-- THE BLOCK ASSIGNMENT AT (r, c), start (r₀, 0), r₀ read off the index component. -/
theorem blk1_apply (x : (⟨2, ![R, C]⟩ : Shape).Idx → α) (idx : IVec ⟨1, ![1]⟩ w) (upd : (⟨2, ![K, N]⟩ : Shape).Idx → α)
    (r₀ : ℕ) (hr : (idx (ix1 0)).toInt = (r₀ : ℤ)) (r : Fin R) (c : Fin C) :
    Host.scatter (blk1Dims R C K N wf) (fun _ b => b) x idx upd (ix2 r c)
      = if h : (r₀ ≤ r.val ∧ r.val < r₀ + K) ∧ (0 ≤ c.val ∧ c.val < 0 + N) then
          upd (ix2 ⟨r.val - r₀, by omega⟩ ⟨c.val - 0, by omega⟩)
        else x (ix2 r c) :=
  set_block_apply _ x idx upd r₀ 0 (blk1_iff wf idx r₀ hr) r c

end

/-! ### A row at a start of one index component (from column 0) -/

/-- Operand [R, C], indices [1], updates [N]: the update's one axis is the window and goes to the column axis; the row
    axis is inserted and indexed by the one index component. -/
abbrev row1Dims (R C N : Nat) (wf : ScatterDims.WF ⟨2, ![R, C]⟩ ⟨1, ![1]⟩ ⟨1, ![N]⟩ [0] [0] [0] 0) :
    ScatterDims ⟨2, ![R, C]⟩ ⟨1, ![1]⟩ ⟨1, ![N]⟩ where
  updateWindowDims := [0]
  insertedWindowDims := [0]
  scatterDimsToOperandDims := [0]
  indexVectorDim := 0
  wf := wf

section
variable (wf : ScatterDims.WF ⟨2, ![R, C]⟩ ⟨1, ![1]⟩ ⟨1, ![N]⟩ [0] [0] [0] 0)

theorem row1_start0 (j : (⟨1, ![N]⟩ : Shape).Idx) (idx : IVec ⟨1, ![1]⟩ w) :
    (row1Dims R C N wf).start j idx 0 = (idx (ix1 0)).toInt := by
  unfold ScatterDims.start
  rw [dif_pos (show (0 : Fin 2) ∈ (row1Dims R C N wf).scatterDimsToOperandDims from List.mem_cons_self)]
  have hsi : (row1Dims R C N wf).siIdx j ⟨List.idxOf (0 : Fin 2) (row1Dims R C N wf).scatterDimsToOperandDims,
      List.idxOf_lt_length_iff.2 List.mem_cons_self⟩ = ix1 0 := by
    funext b; refine Fin.ext ?_
    match b with
    | ⟨0, _⟩ => rfl
  rw [hsi]

theorem row1_start1 (j : (⟨1, ![N]⟩ : Shape).Idx) (idx : IVec ⟨1, ![1]⟩ w) :
    (row1Dims R C N wf).start j idx 1 = 0 := by
  unfold ScatterDims.start
  rw [dif_neg (show (1 : Fin 2) ∉ (row1Dims R C N wf).scatterDimsToOperandDims from
    fun h => Nat.one_ne_zero (congrArg Fin.val (List.mem_singleton.mp h)))]

theorem row1_sKept : (row1Dims R C N wf).sKept = [1] := rfl

theorem row1_window0 (j : (⟨1, ![N]⟩ : Shape).Idx) : (row1Dims R C N wf).window j 0 = 0 := by
  unfold ScatterDims.window
  rw [dif_neg (show (0 : Fin 2) ∉ (row1Dims R C N wf).sKept from
    fun h => Nat.one_ne_zero (congrArg Fin.val (List.mem_singleton.mp (row1_sKept wf ▸ h))).symm)]

theorem row1_window1 (j : (⟨1, ![N]⟩ : Shape).Idx) : (row1Dims R C N wf).window j 1 = (j 0).val := by
  unfold ScatterDims.window
  rw [dif_pos (show (1 : Fin 2) ∈ (row1Dims R C N wf).sKept from row1_sKept wf ▸ List.mem_cons_self)]
  rfl

/-- Update n lands at (r₀, n), r₀ the index component. -/
theorem row1_iff (idx : IVec ⟨1, ![1]⟩ w) (r₀ : ℕ) (hr : (idx (ix1 0)).toInt = (r₀ : ℤ))
    (j : (⟨1, ![N]⟩ : Shape).Idx) (i : (⟨2, ![R, C]⟩ : Shape).Idx) :
    (row1Dims R C N wf).resultIdx? j idx = some i ↔ r₀ = (i 0).val ∧ 0 + (j 0).val = (i 1).val := by
  rw [resultIdx?_eq_some_iff]
  constructor
  · intro h
    have h0 : (row1Dims R C N wf).start j idx 0 + ((row1Dims R C N wf).window j 0 : ℤ) = ((i 0).val : ℤ) := h 0
    have h1 : (row1Dims R C N wf).start j idx 1 + ((row1Dims R C N wf).window j 1 : ℤ) = ((i 1).val : ℤ) := h 1
    rw [row1_start0, row1_window0, hr] at h0
    rw [row1_start1, row1_window1] at h1
    exact ⟨by omega, by omega⟩
  · rintro ⟨h0, h1⟩ a
    match a with
    | ⟨0, _⟩ =>
      show (row1Dims R C N wf).start j idx 0 + ((row1Dims R C N wf).window j 0 : ℤ) = ((i 0).val : ℤ)
      rw [row1_start0, row1_window0, hr]; omega
    | ⟨1, _⟩ =>
      show (row1Dims R C N wf).start j idx 1 + ((row1Dims R C N wf).window j 1 : ℤ) = ((i 1).val : ℤ)
      rw [row1_start1, row1_window1]; omega

/-- THE ROW ASSIGNMENT AT (r, c): row r₀ from column 0, r₀ read off the index component. -/
theorem row1_apply (x : (⟨2, ![R, C]⟩ : Shape).Idx → α) (idx : IVec ⟨1, ![1]⟩ w) (upd : (⟨1, ![N]⟩ : Shape).Idx → α)
    (r₀ : ℕ) (hr : (idx (ix1 0)).toInt = (r₀ : ℤ)) (r : Fin R) (c : Fin C) :
    Host.scatter (row1Dims R C N wf) (fun _ b => b) x idx upd (ix2 r c)
      = if h : r.val = r₀ ∧ (0 ≤ c.val ∧ c.val < 0 + N) then upd (ix1 ⟨c.val - 0, by omega⟩) else x (ix2 r c) :=
  set_row_apply _ x idx upd r₀ 0 (row1_iff wf idx r₀ hr) r c

end

/-! ### A row at a start of two index components -/

/-- Operand [R, C], indices [2], updates [N]: as above, with the column start the second index component. -/
abbrev row2Dims (R C N : Nat) (wf : ScatterDims.WF ⟨2, ![R, C]⟩ ⟨1, ![2]⟩ ⟨1, ![N]⟩ [0] [0] [0, 1] 0) :
    ScatterDims ⟨2, ![R, C]⟩ ⟨1, ![2]⟩ ⟨1, ![N]⟩ where
  updateWindowDims := [0]
  insertedWindowDims := [0]
  scatterDimsToOperandDims := [0, 1]
  indexVectorDim := 0
  wf := wf

section
variable (wf : ScatterDims.WF ⟨2, ![R, C]⟩ ⟨1, ![2]⟩ ⟨1, ![N]⟩ [0] [0] [0, 1] 0)

theorem row2_start0 (j : (⟨1, ![N]⟩ : Shape).Idx) (idx : IVec ⟨1, ![2]⟩ w) :
    (row2Dims R C N wf).start j idx 0 = (idx (ix1 0)).toInt := by
  unfold ScatterDims.start
  rw [dif_pos (show (0 : Fin 2) ∈ (row2Dims R C N wf).scatterDimsToOperandDims from List.mem_cons_self)]
  have hsi : (row2Dims R C N wf).siIdx j ⟨List.idxOf (0 : Fin 2) (row2Dims R C N wf).scatterDimsToOperandDims,
      List.idxOf_lt_length_iff.2 List.mem_cons_self⟩ = ix1 0 := by
    funext b; refine Fin.ext ?_
    match b with
    | ⟨0, _⟩ => rfl
  rw [hsi]

theorem row2_start1 (j : (⟨1, ![N]⟩ : Shape).Idx) (idx : IVec ⟨1, ![2]⟩ w) :
    (row2Dims R C N wf).start j idx 1 = (idx (ix1 1)).toInt := by
  unfold ScatterDims.start
  have hm : (1 : Fin 2) ∈ (row2Dims R C N wf).scatterDimsToOperandDims := List.mem_cons_of_mem _ List.mem_cons_self
  rw [dif_pos hm]
  have hsi : (row2Dims R C N wf).siIdx j ⟨List.idxOf (1 : Fin 2) (row2Dims R C N wf).scatterDimsToOperandDims,
      List.idxOf_lt_length_iff.2 hm⟩ = ix1 1 := by
    funext b; refine Fin.ext ?_
    match b with
    | ⟨0, _⟩ => rfl
  rw [hsi]

theorem row2_sKept : (row2Dims R C N wf).sKept = [1] := rfl

theorem row2_window0 (j : (⟨1, ![N]⟩ : Shape).Idx) : (row2Dims R C N wf).window j 0 = 0 := by
  unfold ScatterDims.window
  rw [dif_neg (show (0 : Fin 2) ∉ (row2Dims R C N wf).sKept from
    fun h => Nat.one_ne_zero (congrArg Fin.val (List.mem_singleton.mp (row2_sKept wf ▸ h))).symm)]

theorem row2_window1 (j : (⟨1, ![N]⟩ : Shape).Idx) : (row2Dims R C N wf).window j 1 = (j 0).val := by
  unfold ScatterDims.window
  rw [dif_pos (show (1 : Fin 2) ∈ (row2Dims R C N wf).sKept from row2_sKept wf ▸ List.mem_cons_self)]
  rfl

/-- Update n lands at (r₀, c₀ + n), (r₀, c₀) the two index components. -/
theorem row2_iff (idx : IVec ⟨1, ![2]⟩ w) (r₀ c₀ : ℕ) (hr : (idx (ix1 0)).toInt = (r₀ : ℤ)) (hc : (idx (ix1 1)).toInt = (c₀ : ℤ))
    (j : (⟨1, ![N]⟩ : Shape).Idx) (i : (⟨2, ![R, C]⟩ : Shape).Idx) :
    (row2Dims R C N wf).resultIdx? j idx = some i ↔ r₀ = (i 0).val ∧ c₀ + (j 0).val = (i 1).val := by
  rw [resultIdx?_eq_some_iff]
  constructor
  · intro h
    have h0 : (row2Dims R C N wf).start j idx 0 + ((row2Dims R C N wf).window j 0 : ℤ) = ((i 0).val : ℤ) := h 0
    have h1 : (row2Dims R C N wf).start j idx 1 + ((row2Dims R C N wf).window j 1 : ℤ) = ((i 1).val : ℤ) := h 1
    rw [row2_start0, row2_window0, hr] at h0
    rw [row2_start1, row2_window1, hc] at h1
    exact ⟨by omega, by exact_mod_cast h1⟩
  · rintro ⟨h0, h1⟩ a
    match a with
    | ⟨0, _⟩ =>
      show (row2Dims R C N wf).start j idx 0 + ((row2Dims R C N wf).window j 0 : ℤ) = ((i 0).val : ℤ)
      rw [row2_start0, row2_window0, hr]; omega
    | ⟨1, _⟩ =>
      show (row2Dims R C N wf).start j idx 1 + ((row2Dims R C N wf).window j 1 : ℤ) = ((i 1).val : ℤ)
      rw [row2_start1, row2_window1, hc]; exact_mod_cast h1

/-- THE ROW ASSIGNMENT AT (r, c): row r₀ from column c₀, both read off the index components. -/
theorem row2_apply (x : (⟨2, ![R, C]⟩ : Shape).Idx → α) (idx : IVec ⟨1, ![2]⟩ w) (upd : (⟨1, ![N]⟩ : Shape).Idx → α)
    (r₀ c₀ : ℕ) (hr : (idx (ix1 0)).toInt = (r₀ : ℤ)) (hc : (idx (ix1 1)).toInt = (c₀ : ℤ)) (r : Fin R) (c : Fin C) :
    Host.scatter (row2Dims R C N wf) (fun _ b => b) x idx upd (ix2 r c)
      = if h : r.val = r₀ ∧ (c₀ ≤ c.val ∧ c.val < c₀ + N) then upd (ix1 ⟨c.val - c₀, by omega⟩) else x (ix2 r c) :=
  set_row_apply _ x idx upd r₀ c₀ (row2_iff wf idx r₀ c₀ hr hc) r c

end

end Families

end Cert.LibScatterSet
-- ==== Proof.LibScatterConst.lean ====
/-
  The host's scatter whose body returns the update, read at an index several updates may land on.

  The scatter is a left fold over the update positions. When the updates that land at operand index i all carry the
  same value c, and at least one lands there, the result at i is c whatever the order of the fold: the last update
  landing at i decides, and it carries c. General in the dimension numbers.
-/
import proofs.«428142_j77446850282051_3_alg».proof.Proof.LibScatterSet

namespace Cert.LibScatterConst

open Idealize.ShloMosaic Idealize.ShloMosaic.ValueIdx Cert.LibScatterSet

variable {α : Type} {s si u : Shape} {w : Nat}

/-- Over a list of update positions: if the value at i is already c or some listed position lands at i, and every listed
    position that lands at i carries c, the fold leaves c at i. -/
theorem foldl_of_const (d : ScatterDims s si u) (idx : IVec si w) (upd : u.Idx → α) (i : s.Idx) (c : α) :
    ∀ (l : List (Fin u.numel)) (x : s.Idx → α),
      (x i = c ∨ ∃ n ∈ l, d.resultIdx? (u.rowMajor.symm n) idx = some i) →
      (∀ n ∈ l, d.resultIdx? (u.rowMajor.symm n) idx = some i → upd (u.rowMajor.symm n) = c) →
      l.foldl (step d idx upd) x i = c
  | [], x, h, _ => by
    rcases h with h | ⟨n, hn, _⟩
    · exact h
    · exact absurd hn List.not_mem_nil
  | n :: l, x, h, hc => by
    rw [List.foldl_cons]
    refine foldl_of_const d idx upd i c l _ ?_ fun n' hn' => hc n' (List.mem_cons_of_mem _ hn')
    by_cases hn : d.resultIdx? (u.rowMajor.symm n) idx = some i
    · exact Or.inl (by rw [step_of_eq d idx upd x n i hn]; exact hc n List.mem_cons_self hn)
    · rcases h with h | ⟨n', hn', hl⟩
      · exact Or.inl (by rw [step_of_ne d idx upd x n i hn]; exact h)
      · rcases List.mem_cons.mp hn' with e | e
        · exact absurd (e ▸ hl) hn
        · exact Or.inr ⟨n', e, hl⟩

/-- SOME UPDATE LANDS AT i AND ALL THAT DO CARRY c: the scatter leaves c at i. -/
theorem scatter_set_apply_const (d : ScatterDims s si u) (x : s.Idx → α) (idx : IVec si w) (upd : u.Idx → α) (i : s.Idx)
    (c : α) (j : u.Idx) (hj : d.resultIdx? j idx = some i) (hc : ∀ j', d.resultIdx? j' idx = some i → upd j' = c) :
    Host.scatter d (fun _ b => b) x idx upd i = c := by
  rw [scatter_eq_foldl]
  refine foldl_of_const d idx upd i c _ x (Or.inr ⟨u.rowMajor j, List.mem_finRange _, ?_⟩) fun n _ hn => hc _ hn
  rw [Equiv.symm_apply_apply]; exact hj

end Cert.LibScatterConst
-- ==== Proof.LibScatterPoint.lean ====
/-
  Where an update lands for the scatter of single elements into a rank-2 operand: operand [R, C], scatter indices
  [K, L, 2] (the index vector on the last axis), updates [K, L]; no update axis is a window axis, both operand axes are
  inserted, index component k is the start on operand axis k. Update (k, l) lands at the operand index whose two
  coordinates are the two components of the index vector at (k, l), read signed, when that index is inside the
  operand, and is dropped otherwise.
-/
import proofs.«428142_j77446850282051_3_alg».proof.Proof.LibScatterSet

namespace Cert.LibScatterPoint

open Idealize.ShloMosaic Idealize.ShloMosaic.ValueIdx Cert.LibScatterSet

variable {R C K L w : Nat}

/-- Operand [R, C], indices [K, L, 2], updates [K, L]: every update is one element. -/
abbrev ptDims (R C K L : Nat) (wf : ScatterDims.WF ⟨2, ![R, C]⟩ ⟨3, ![K, L, 2]⟩ ⟨2, ![K, L]⟩ [] [0, 1] [0, 1] 2) :
    ScatterDims ⟨2, ![R, C]⟩ ⟨3, ![K, L, 2]⟩ ⟨2, ![K, L]⟩ where
  updateWindowDims := []
  insertedWindowDims := [0, 1]
  scatterDimsToOperandDims := [0, 1]
  indexVectorDim := 2
  wf := wf

variable (wf : ScatterDims.WF ⟨2, ![R, C]⟩ ⟨3, ![K, L, 2]⟩ ⟨2, ![K, L]⟩ [] [0, 1] [0, 1] 2)

theorem pt_start0 (j : (⟨2, ![K, L]⟩ : Shape).Idx) (idx : IVec ⟨3, ![K, L, 2]⟩ w) :
    (ptDims R C K L wf).start j idx 0 = (idx (ix3 (j 0) (j 1) 0)).toInt := by
  unfold ScatterDims.start
  rw [dif_pos (show (0 : Fin 2) ∈ (ptDims R C K L wf).scatterDimsToOperandDims from List.mem_cons_self)]
  have hsi : (ptDims R C K L wf).siIdx j ⟨List.idxOf (0 : Fin 2) (ptDims R C K L wf).scatterDimsToOperandDims,
      List.idxOf_lt_length_iff.2 List.mem_cons_self⟩ = ix3 (j 0) (j 1) 0 := by
    funext b; refine Fin.ext ?_
    match b with
    | ⟨0, _⟩ => rfl
    | ⟨1, _⟩ => rfl
    | ⟨2, _⟩ => rfl
  rw [hsi]
  rfl

theorem pt_start1 (j : (⟨2, ![K, L]⟩ : Shape).Idx) (idx : IVec ⟨3, ![K, L, 2]⟩ w) :
    (ptDims R C K L wf).start j idx 1 = (idx (ix3 (j 0) (j 1) 1)).toInt := by
  unfold ScatterDims.start
  have hm : (1 : Fin 2) ∈ (ptDims R C K L wf).scatterDimsToOperandDims := List.mem_cons_of_mem _ List.mem_cons_self
  rw [dif_pos hm]
  have hsi : (ptDims R C K L wf).siIdx j ⟨List.idxOf (1 : Fin 2) (ptDims R C K L wf).scatterDimsToOperandDims,
      List.idxOf_lt_length_iff.2 hm⟩ = ix3 (j 0) (j 1) 1 := by
    funext b; refine Fin.ext ?_
    match b with
    | ⟨0, _⟩ => rfl
    | ⟨1, _⟩ => rfl
    | ⟨2, _⟩ => rfl
  rw [hsi]
  rfl

theorem pt_sKept : (ptDims R C K L wf).sKept = [] := rfl

theorem pt_window (j : (⟨2, ![K, L]⟩ : Shape).Idx) (a : Fin 2) : (ptDims R C K L wf).window j a = 0 := by
  unfold ScatterDims.window
  rw [dif_neg (show a ∉ (ptDims R C K L wf).sKept from pt_sKept wf ▸ List.not_mem_nil)]

/-- Update (k, l) lands at (r, c) exactly when the index vector at (k, l) is (r, c), read signed. -/
theorem pt_iff (idx : IVec ⟨3, ![K, L, 2]⟩ w) (j : (⟨2, ![K, L]⟩ : Shape).Idx) (i : (⟨2, ![R, C]⟩ : Shape).Idx) :
    (ptDims R C K L wf).resultIdx? j idx = some i
      ↔ (idx (ix3 (j 0) (j 1) 0)).toInt = ((i 0).val : ℤ) ∧ (idx (ix3 (j 0) (j 1) 1)).toInt = ((i 1).val : ℤ) := by
  rw [resultIdx?_eq_some_iff]
  constructor
  · intro h
    have h0 : (ptDims R C K L wf).start j idx 0 + ((ptDims R C K L wf).window j 0 : ℤ) = ((i 0).val : ℤ) := h 0
    have h1 : (ptDims R C K L wf).start j idx 1 + ((ptDims R C K L wf).window j 1 : ℤ) = ((i 1).val : ℤ) := h 1
    rw [pt_start0, pt_window] at h0
    rw [pt_start1, pt_window] at h1
    exact ⟨by simpa using h0, by simpa using h1⟩
  · rintro ⟨h0, h1⟩ a
    match a with
    | ⟨0, _⟩ =>
      show (ptDims R C K L wf).start j idx 0 + ((ptDims R C K L wf).window j 0 : ℤ) = ((i 0).val : ℤ)
      rw [pt_start0, pt_window, h0]; simp
    | ⟨1, _⟩ =>
      show (ptDims R C K L wf).start j idx 1 + ((ptDims R C K L wf).window j 1 : ℤ) = ((i 1).val : ℤ)
      rw [pt_start1, pt_window, h1]; simp

end Cert.LibScatterPoint
-- ==== Proof.RefValueMasked.lean ====
/-
  The reference's masked scores read at an entry: the masking constant at the row's history items, the score elsewhere.
-/
import proofs.«428142_j77446850282051_3_alg».proof.Proof.RefValueIdx
import proofs.«428142_j77446850282051_3_alg».proof.Proof.LibScatterConst
import proofs.«428142_j77446850282051_3_alg».proof.Proof.LibScatterPoint

noncomputable section

namespace Cert.ReferenceIdeal.HV

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo

variable (V0 : Valuation τ sig (Elt Ideal))

/-- Update (b', l) lands at entry (b, v) exactly when b' = b and the l-th history word of row b' is item v. -/
theorem lands_iff (h : Cert.Spec.InRange (qF V0)) (b' : Fin 256) (l : Fin 200) (b : Fin 256) (v : Fin 128000) :
    scatter_S256x128000_S256x200x2_S256x200_n_01_01_2.resultIdx? (ix2 b' l) (idxT V0) = some (ix2 b v)
      ↔ b' = b ∧ (qF V0 b' l).toNat = v.val := by
  have e : scatter_S256x128000_S256x200x2_S256x200_n_01_01_2.resultIdx? (ix2 b' l) (idxT V0) = some (ix2 b v)
      ↔ (idxT V0 (ix3 b' l (0 : Fin 2))).toInt = (b.val : ℤ) ∧ (idxT V0 (ix3 b' l (1 : Fin 2))).toInt = (v.val : ℤ) :=
    Cert.LibScatterPoint.pt_iff (R := 256) (C := 128000) (K := 256) (L := 200)
      scatter_S256x128000_S256x200x2_S256x200_n_01_01_2_wf (idxT V0) (ix2 b' l) (ix2 b v)
  have hq := h b' l
  have hrow : (idxT V0 (ix3 b' l (0 : Fin 2))).toInt = (b'.val : ℤ) := by
    rw [idxT_row, Predicate.toInt_ofNat_small _ (by have := b'.isLt; omega)]
  have hcol : (idxT V0 (ix3 b' l (1 : Fin 2))).toInt = ((qF V0 b' l).toNat : ℤ) := by
    rw [idxT_col V0 _ _ hq.1]
    have h0 := hq.1
    rw [BitVec.toInt_eq_toNat_cond] at h0 ⊢
    split at h0 <;> rename_i hlt
    · rw [if_pos hlt]
    · omega
  refine e.trans ?_
  rw [hrow, hcol]
  constructor
  · rintro ⟨h0, h1⟩
    exact ⟨Fin.ext (by exact_mod_cast h0), by exact_mod_cast h1⟩
  · rintro ⟨h0, h1⟩
    exact ⟨by rw [h0], by exact_mod_cast h1⟩

/-- THE MASKED ROW: the reference's masked scores at (b, v). -/
theorem masked_eq (h : Cert.Spec.InRange (qF V0)) (b : Fin 256) (v : Fin 128000) :
    res_main_v31 V0 (ix2 b v) = Cert.Spec.masked (sF V0) (qF V0) cst b v := by
  rw [res_main_v31_eq]
  unfold Cert.Spec.masked
  by_cases hh : Cert.Spec.hit (qF V0) b v
  · rw [if_pos hh]
    obtain ⟨l, hl⟩ := hh
    refine Cert.LibScatterConst.scatter_set_apply_const _ _ _ _ _ cst (ix2 b l) ?_ fun j' _ => rfl
    exact (lands_iff V0 h b l b v).2 ⟨rfl, hl⟩
  · rw [if_neg hh]
    refine (Cert.LibScatterSet.scatter_set_apply_none _ _ _ _ _ fun j hj => hh ?_).trans rfl
    obtain ⟨b', l, rfl⟩ : ∃ (b' : Fin 256) (l : Fin 200), j = ix2 b' l := ⟨j 0, j 1, eq_ix2 j⟩
    obtain ⟨h0, h1⟩ := (lands_iff V0 h b' l b v).1 hj
    exact ⟨l, by rw [← h0]; exact h1⟩

end Cert.ReferenceIdeal.HV

end
-- ==== Proof.RefValueCount.lean ====
/-
  The reference's rank and valid length read at a row: each is the count-reduction of a comparison mask over the
  masked row, converted to a float, that is the number of entries of the masked row above the label's score,
  respectively above the masking constant.
-/
import proofs.«428142_j77446850282051_3_alg».proof.Proof.RefValueMasked

noncomputable section

namespace Cert.ReferenceIdeal.HV

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo

variable (V0 : Valuation τ sig (Elt Ideal))

/-- The label's score of every row: the scores gathered at (row, label). -/
def labelScores : (⟨S256, .f32⟩ : BufTy).Contents (Elt Ideal) :=
  Host.gather gather_S256x128000_S256x2_S256_n_01_n_n_01_1_11 (V0 (Proc.devRef .tc main_arg0)) (concatenate S256x2 1 [⟨S256x1, (broadcastInDim S256x1 ![0] bcast_S256_S256x1_0 (select (cmpi .slt (res_main_v0 V0) (broadcastInDim S256 ![] bcast_S_S256 (constantI S_ 32 0#32))) (addi (res_main_v0 V0) (broadcastInDim S256 ![] bcast_S_S256 (constantI S_ 32 256#32))) (res_main_v0 V0)))⟩, ⟨S256x1, (broadcastInDim S256x1 ![0] bcast_S256_S256x1_0 (select (cmpi .slt (V0 (Proc.devRef .tc main_arg1)) (broadcastInDim S256 ![] bcast_S_S256 (constantI S_ 32 0#32))) (addi (V0 (Proc.devRef .tc main_arg1)) (broadcastInDim S256 ![] bcast_S_S256 (constantI S_ 32 128000#32))) (V0 (Proc.devRef .tc main_arg1))))⟩] concatenates_S256x1_S256x1_S256x2_d1)

/-- The score of row b's label. -/
def pF (b : Fin 256) : EReal := labelScores V0 (ix1 b)

/-- The reference's valid-length vector. -/
def validTerm : (⟨S256, .f32⟩ : BufTy).Contents (Elt Ideal) :=
  sitofp (F := Ideal) .f32 (Host.reduce IntOp.addi (extui 32 (cmpf (F := Ideal) (φ := .f32) .ogt (res_main_v31 V0) (broadcastInDim S256x128000 ![] bcast_S_S256x128000 (constant (F := Ideal) S_ .f32 0xC61C4000#32))) natLt_1_32) (constantI S_ 32 0#32) reducesTo_S256x128000_S256_d1 h_S_)

/-- The valid-length buffer after the first stretch of the reference's operations holds the valid-length vector. -/
theorem val1_main_v36_eq : val1 V0 (Proc.devRef .tc main_v36) = validTerm V0 := val1_main_v36 V0

theorem res_main_v42_eq : res_main_v42 V0 = sitofp (F := Ideal) .f32 (Host.reduce IntOp.addi (extui 32 (cmpf (F := Ideal) (φ := .f32) .olt (broadcastInDim S256x128000 ![0, 1] bcast_S256x1_S256x128000_0_1 (broadcastInDim S256x1 ![0] bcast_S256_S256x1_0 (labelScores V0))) (res_main_v31 V0)) natLt_1_32) (constantI S_ 32 0#32) reducesTo_S256x128000_S256_d1 h_S_) := rfl

/-- THE COUNT: the sum over a row of a widened one-bit mask, converted to a float, is the number of set bits of the row. -/
theorem count_row (mask : IVec S256x128000 1) (b : Fin 256) (Q : Fin 128000 → Prop) [DecidablePred Q]
    (hm : ∀ v, mask (ix2 b v) = 1#1 ↔ Q v) :
    (sitofp .f32 (Host.reduce IntOp.addi (extui 32 mask natLt_1_32) (constantI S_ 32 0#32) reducesTo_S256x128000_S256_d1 h_S_)
      : FVec Ideal S256 .f32) (ix1 b) = (((Finset.univ.filter Q).card : ℝ) : EReal) := by
  have hn : (Host.reduce IntOp.addi (extui 32 mask natLt_1_32) (constantI S_ 32 0#32) reducesTo_S256x128000_S256_d1 h_S_
      (ix1 b)).toNat = (Finset.univ.filter fun v : Fin 128000 => mask (Predicate.ij b v) = 1#1).card :=
    Predicate.toNat_reduce_count_cols (n := 256) (m := 128000) (by norm_num) mask natLt_1_32
      reducesTo_S256x128000_S256_d1 h_S_ (ix1 b)
  have hij : ∀ v : Fin 128000, Predicate.ij b v = ix2 b v := fun v => by
    funext d; match d with | ⟨0, _⟩ => rfl | ⟨1, _⟩ => rfl
  have hset : (Finset.univ.filter fun v : Fin 128000 => mask (Predicate.ij b v) = 1#1) = Finset.univ.filter Q := by
    refine Finset.filter_congr fun v _ => ?_
    rw [hij v]; exact hm v
  rw [hset] at hn
  have hle : (Finset.univ.filter Q).card ≤ 128000 := by
    have := Finset.card_le_univ (Finset.univ.filter Q)
    simpa using this
  show (((Host.reduce IntOp.addi (extui 32 mask natLt_1_32) (constantI S_ 32 0#32) reducesTo_S256x128000_S256_d1 h_S_
    (ix1 b)).toInt : ℝ) : EReal) = _
  rw [Predicate.toInt_eq_toNat_of_lt (by rw [hn]; omega), hn, Int.cast_natCast]

/-- THE RANK at row b: the entries of the masked row above the label's score, counted. -/
theorem rank_eq (h : Cert.Spec.InRange (qF V0)) (b : Fin 256) :
    res_main_v42 V0 (ix1 b) = Cert.Spec.rankR (sF V0) (pF V0) (qF V0) cst b := by
  rw [res_main_v42_eq]
  unfold Cert.Spec.rankR
  refine count_row _ b _ fun v => ?_
  show FloatOps.cmpf .olt (broadcastInDim S256x128000 ![0, 1] bcast_S256x1_S256x128000_0_1
    (broadcastInDim S256x1 ![0] bcast_S256_S256x1_0 (labelScores V0)) (ix2 b v)) (res_main_v31 V0 (ix2 b v)) = 1#1 ↔ _
  rw [broadcastInDim_apply _ _ _ _ (ix2 b (0 : Fin 1)) (by intro a; match a with | ⟨0, _⟩ => rfl | ⟨1, _⟩ => rfl),
    broadcastInDim_apply _ _ _ _ (ix1 b) (by intro a; match a with | ⟨0, _⟩ => rfl), masked_eq V0 h]
  show BitVec.ofBool (decide (pF V0 b < Cert.Spec.masked (sF V0) (qF V0) cst b v)) = 1#1 ↔ _
  rw [Predicate.ofBool_eq_one_iff, decide_eq_true_iff]

/-- THE VALID LENGTH at row b: the entries of the masked row above the masking constant, counted. -/
theorem valid_eq (h : Cert.Spec.InRange (qF V0)) (b : Fin 256) :
    validTerm V0 (ix1 b) = Cert.Spec.validR (sF V0) (qF V0) cst b := by
  unfold validTerm Cert.Spec.validR
  refine count_row _ b _ fun v => ?_
  show FloatOps.cmpf .ogt (res_main_v31 V0 (ix2 b v)) (broadcastInDim S256x128000 ![] bcast_S_S256x128000
    (constant (F := Ideal) S_ .f32 0xC61C4000#32) (ix2 b v)) = 1#1 ↔ _
  rw [masked_eq V0 h]
  show BitVec.ofBool (decide (cst < Cert.Spec.masked (sF V0) (qF V0) cst b v)) = 1#1 ↔ _
  rw [Predicate.ofBool_eq_one_iff, decide_eq_true_iff]

end Cert.ReferenceIdeal.HV

end
-- ==== Proof.RefTail.lean ====
/-
  The reference's result as the shared tail function of its rank vector and its valid-length vector: the printed
  term of the result buffer is, piece by piece, the thirteen means of `Cert.Tail.tail` read at the reference's
  rank (the count of masked entries above the label's score) and valid length (the count of masked entries above
  the masking constant).
-/
import proofs.«428142_j77446850282051_3_alg».proof.Proof.Gen.ReferenceIdeal.Run
import proofs.«428142_j77446850282051_3_alg».proof.Proof.Tail

noncomputable section

namespace Cert.ReferenceIdeal.HT

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The reference's valid-length vector: per row, the number of masked entries above the masking constant, as a float. -/
def validTerm (V0 : Valuation τ sig (Elt F)) : (⟨S256, .f32⟩ : BufTy).Contents (Elt F) :=
  sitofp .f32 (Host.reduce IntOp.addi (extui 32 (cmpf .ogt (res_main_v31 V0) (broadcastInDim S256x128000 ![] bcast_S_S256x128000 (constant S_ .f32 0xC61C4000#32))) natLt_1_32) (constantI S_ 32 0#32) reducesTo_S256x128000_S256_d1 h_S_)

set_option maxRecDepth 8192 in
/-- The printed term of the reference's result is the tail function at its rank and valid-length vectors. -/
theorem result_eq (V0 : Valuation τ sig (Elt F)) :
    concatenate S13 0 [⟨S1, (broadcastInDim S1 ![] bcast_S_S1 (Host.divf (Host.reduceAdd (Host.divf (res_main_v45 V0) (Host.divf (Host.log (addf (res_main_v42 V0) (broadcastInDim S256 ![] bcast_S_S256 (constant S_ .f32 0x40000000#32)))) (broadcastInDim S256 ![] bcast_S_S256 (Host.log (constant S_ .f32 0x40000000#32))))) (constant S_ .f32 0x00000000#32) reducesTo_S256_S_d0 h_S_) (constant S_ .f32 0x43800000#32)))⟩, ⟨S1, (broadcastInDim S1 ![] bcast_S_S1 (Host.divf (Host.reduceAdd (res_main_v45 V0) (constant S_ .f32 0x00000000#32) reducesTo_S256_S_d0 h_S_) (constant S_ .f32 0x43800000#32)))⟩, ⟨S1, (broadcastInDim S1 ![] bcast_S_S1 (Host.divf (Host.reduceAdd (Host.divf (res_main_v59 V0) (Host.divf (Host.log (addf (res_main_v42 V0) (broadcastInDim S256 ![] bcast_S_S256 (constant S_ .f32 0x40000000#32)))) (broadcastInDim S256 ![] bcast_S_S256 (Host.log (constant S_ .f32 0x40000000#32))))) (constant S_ .f32 0x00000000#32) reducesTo_S256_S_d0 h_S_) (constant S_ .f32 0x43800000#32)))⟩, ⟨S1, (broadcastInDim S1 ![] bcast_S_S1 (Host.divf (Host.reduceAdd (res_main_v59 V0) (constant S_ .f32 0x00000000#32) reducesTo_S256_S_d0 h_S_) (constant S_ .f32 0x43800000#32)))⟩, ⟨S1, (broadcastInDim S1 ![] bcast_S_S1 (Host.divf (Host.reduceAdd (Host.divf (res_main_v73 V0) (Host.divf (Host.log (addf (res_main_v42 V0) (broadcastInDim S256 ![] bcast_S_S256 (constant S_ .f32 0x40000000#32)))) (broadcastInDim S256 ![] bcast_S_S256 (Host.log (constant S_ .f32 0x40000000#32))))) (constant S_ .f32 0x00000000#32) reducesTo_S256_S_d0 h_S_) (constant S_ .f32 0x43800000#32)))⟩, ⟨S1, (broadcastInDim S1 ![] bcast_S_S1 (Host.divf (Host.reduceAdd (res_main_v73 V0) (constant S_ .f32 0x00000000#32) reducesTo_S256_S_d0 h_S_) (constant S_ .f32 0x43800000#32)))⟩, ⟨S1, (broadcastInDim S1 ![] bcast_S_S1 (Host.divf (Host.reduceAdd (Host.divf (res_main_v87 V0) (Host.divf (Host.log (addf (res_main_v42 V0) (broadcastInDim S256 ![] bcast_S_S256 (constant S_ .f32 0x40000000#32)))) (broadcastInDim S256 ![] bcast_S_S256 (Host.log (constant S_ .f32 0x40000000#32))))) (constant S_ .f32 0x00000000#32) reducesTo_S256_S_d0 h_S_) (constant S_ .f32 0x43800000#32)))⟩, ⟨S1, (broadcastInDim S1 ![] bcast_S_S1 (Host.divf (Host.reduceAdd (res_main_v87 V0) (constant S_ .f32 0x00000000#32) reducesTo_S256_S_d0 h_S_) (constant S_ .f32 0x43800000#32)))⟩, ⟨S1, (broadcastInDim S1 ![] bcast_S_S1 (Host.divf (Host.reduceAdd (Host.divf (res_main_v101 V0) (Host.divf (Host.log (addf (res_main_v42 V0) (broadcastInDim S256 ![] bcast_S_S256 (constant S_ .f32 0x40000000#32)))) (broadcastInDim S256 ![] bcast_S_S256 (Host.log (constant S_ .f32 0x40000000#32))))) (constant S_ .f32 0x00000000#32) reducesTo_S256_S_d0 h_S_) (constant S_ .f32 0x43800000#32)))⟩, ⟨S1, (broadcastInDim S1 ![] bcast_S_S1 (Host.divf (Host.reduceAdd (res_main_v101 V0) (constant S_ .f32 0x00000000#32) reducesTo_S256_S_d0 h_S_) (constant S_ .f32 0x43800000#32)))⟩, ⟨S1, (broadcastInDim S1 ![] bcast_S_S1 (Host.divf (Host.reduceAdd (Host.divf (broadcastInDim S256 ![] bcast_S_S256 (constant S_ .f32 0x3F800000#32)) (addf (res_main_v42 V0) (broadcastInDim S256 ![] bcast_S_S256 (constant S_ .f32 0x3F800000#32)))) (constant S_ .f32 0x00000000#32) reducesTo_S256_S_d0 h_S_) (constant S_ .f32 0x43800000#32)))⟩, ⟨S1, (broadcastInDim S1 ![] bcast_S_S1 (Host.divf (Host.reduceAdd (subf (broadcastInDim S256 ![] bcast_S_S256 (constant S_ .f32 0x3F800000#32)) (Host.divf (res_main_v42 V0) (sitofp .f32 (Host.reduce IntOp.addi (extui 32 (cmpf .ogt (res_main_v31 V0) (broadcastInDim S256x128000 ![] bcast_S_S256x128000 (constant S_ .f32 0xC61C4000#32))) natLt_1_32) (constantI S_ 32 0#32) reducesTo_S256x128000_S256_d1 h_S_)))) (constant S_ .f32 0x00000000#32) reducesTo_S256_S_d0 h_S_) (constant S_ .f32 0x43800000#32)))⟩, ⟨S1, (broadcastInDim S1 ![] bcast_S_S1 (constant S_ .f32 0x00000000#32))⟩] concatenates_S1_S1_S1_S1_S1_S1_S1_S1_S1_S1_S1_S1_S1_S13_d0
      = Cert.Tail.tail (res_main_v42 V0) (validTerm V0) := rfl

set_option maxRecDepth 8192 in
/-- Every weakly fair execution of the reference terminates with the result buffer at the tail function of its rank
    and valid-length vectors, the arguments unchanged. -/
theorem run_tail (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v137)
          = Cert.Tail.tail (res_main_v42 (launchContents m c)) (validTerm (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_eq (launchContents m c)), (h c).2⟩)
    (Cert.ReferenceIdeal.Value.run m ρ)

end Cert.ReferenceIdeal.HT

end
-- ==== Proof.RefResult.lean ====
/-
  The reference's result over the rows' mathematics: its thirteen numbers are the tail function at the row-wise rank
  (the entries of the masked row above the label's score, counted) and valid length (the entries of the masked row
  above the masking constant, counted); and the label scores are the same gather in both programs.
-/
import proofs.«428142_j77446850282051_3_alg».proof.Proof.RefValueCount
import proofs.«428142_j77446850282051_3_alg».proof.Proof.RefTail
import proofs.«428142_j77446850282051_3_alg».proof.Proof.KPreTerms

noncomputable section

namespace Cert.ReferenceIdeal.HV

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo

variable (V0 : Valuation τ sig (Elt Ideal))

/-- The valid-length vector named with the tail is the one read row by row. -/
theorem validTerm_bridge : Cert.ReferenceIdeal.HT.validTerm (F := Ideal) V0 = validTerm V0 := rfl

/-- The rank vector is the row-wise rank. -/
theorem rank_rows (h : Cert.Spec.InRange (qF V0)) :
    (res_main_v42 V0 : FVec Ideal Cert.Tail.S256 .f32)
      = fun i => Cert.Spec.rankR (sF V0) (pF V0) (qF V0) cst (i 0) := by
  funext i
  obtain ⟨b, rfl⟩ : ∃ b : Fin 256, i = ix1 b := ⟨i 0, eq_ix1 i⟩
  exact rank_eq V0 h b

/-- The valid-length vector is the row-wise valid length. -/
theorem valid_rows (h : Cert.Spec.InRange (qF V0)) :
    (Cert.ReferenceIdeal.HT.validTerm (F := Ideal) V0 : FVec Ideal Cert.Tail.S256 .f32)
      = fun i => Cert.Spec.validR (sF V0) (qF V0) cst (i 0) := by
  funext i
  obtain ⟨b, rfl⟩ : ∃ b : Fin 256, i = ix1 b := ⟨i 0, eq_ix1 i⟩
  exact valid_eq V0 h b

/-- THE RESULT OVER THE ROWS: the tail at the reference's two vectors is the tail at the row-wise rank and valid length. -/
theorem tail_rows (h : Cert.Spec.InRange (qF V0)) :
    Cert.Tail.tail (res_main_v42 V0) (Cert.ReferenceIdeal.HT.validTerm (F := Ideal) V0)
      = Cert.Tail.tail (fun i => Cert.Spec.rankR (sF V0) (pF V0) (qF V0) cst (i 0))
          (fun i => Cert.Spec.validR (sF V0) (qF V0) cst (i 0)) :=
  congr (congrArg Cert.Tail.tail (rank_rows V0 h)) (valid_rows V0 h)

/-- THE LABEL SCORES IN BOTH PROGRAMS: the reference's gather of the scores at (row, label) is the kernel program's. -/
theorem labelScores_agree (a0 : FVec Ideal Cert.KernelIdeal.S256x128000 .f32) (a1 : IVec Cert.KernelIdeal.S256 32)
    (h0 : V0 (Proc.devRef .tc main_arg0) = a0) (h1 : V0 (Proc.devRef .tc main_arg1) = a1) :
    labelScores V0 = Cert.KernelIdeal.HPre.Pv a0 a1 := by
  subst h0
  subst h1
  rfl

/-- Every weakly fair execution of the reference terminates with the result buffer at the tail function of the
    row-wise rank and valid length of the launch contents, the arguments unchanged, when the history words of the launch
    contents are item numbers. -/
theorem run_rows (m : (ℓ : Loc nD τ sig) → Buf (Elt Ideal) ℓ) (ρ : Dev nD → PrngReg)
    (h : ∀ c : Dev nD, Cert.Spec.InRange (qF (launchContents m c))) :
    θ_run defs (onTc (τ := τ) (main (F := Ideal))) ⟨m, fun _ => 0, ρ⟩ fun r => ∀ c : Dev nD,
      r.2.mem ((c.tc : Thread nD τ).loc main_v137)
          = Cert.Tail.tail (F := Ideal)
              (fun i => Cert.Spec.rankR (sF (launchContents m c)) (pF (launchContents m c)) (qF (launchContents m c)) cst (i 0))
              (fun i => Cert.Spec.validR (sF (launchContents m c)) (qF (launchContents m c)) cst (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ hh c => ⟨(hh c).1.trans (tail_rows (launchContents m c) (h c)), (hh c).2⟩)
    (Cert.ReferenceIdeal.HT.run_tail m ρ)

end Cert.ReferenceIdeal.HV

end
-- ==== Proof.PreDecode.lean ====
/-
  The precondition decoded: the printed predicate ends in the conjunction of two all-reductions; the second says
  that every history word is non-negative and below the item count, read signed.
-/
import proofs.«428142_j77446850282051_3_alg».proof.Pre_finite_inputs
import proofs.«428142_j77446850282051_3_alg».proof.Proof.Gen.Pre_finite_inputs
import proofs.«428142_j77446850282051_3_alg».proof.Proof.Spec
import Idealize.ShloMosaic.Lib.ReduceAll
import Idealize.ShloMosaic.Lib.StableHlo.Predicate

noncomputable section

namespace Cert.PreDecode

open Idealize.ShloMosaic Cert.Pre_finite_inputs

/-- The scalar shape has one index. -/
instance : Subsingleton S_.Idx := ⟨fun _ _ => funext fun d => d.elim0⟩

theorem toInt_zero : (0#32 : BitVec 32).toInt = 0 := by decide
theorem toInt_128000 : (128000#32 : BitVec 32).toInt = 128000 := by decide

/-- Under the precondition every history word is an item number. -/
theorem inRange_of_pre {F : FTy → Type} [FloatOps F] [Cert.Pre_finite_inputs.Facts]
    (a0 : FVec F S256x128000 .f32) (a1 : IVec S256 32) (a2 : IVec S256x200 32)
    (h : Cert.Pre_finite_inputs.fn (F := F) a0 a1 a2 = fun _ => 1#1) :
    Cert.Spec.InRange (fun b l => a2 (ValueIdx.ix2 b l)) := by
  have e := congrFun h ValueIdx.ix0
  dsimp only [Cert.Pre_finite_inputs.fn] at e
  have e2 := (IntOp.andi_eq_one.1 e).2
  intro b l
  have e3 := Host.reduce_andi_all _ _ _ _ _ e2 (ValueIdx.ix2 b l)
  obtain ⟨h0, h1⟩ := IntOp.andi_eq_one.1 e3
  have h0' := IntOp.cmpi_sge.1 h0
  have h1' := IntOp.cmpi_slt.1 h1
  refine ⟨?_, ?_⟩
  · have : (0#32 : BitVec 32).toInt ≤ (a2 (ValueIdx.ix2 b l)).toInt := h0'
    rwa [toInt_zero] at this
  · have : (a2 (ValueIdx.ix2 b l)).toInt < (128000#32 : BitVec 32).toInt := h1'
    rwa [toInt_128000] at this

end Cert.PreDecode

end
-- ==== Proof.lean ====
/-
  The certificate. The kernel counts, per row, the scores above the label's score and the scores at or below the
  masking constant over the UNMASKED row in one pipelined pass, and corrects both counts by small sums over the
  distinct history items; the reference masks the history items first and counts. Under the precondition — the
  scores finite and every history word an item number, 0 ≤ w < 128000 — the two ranks and the two valid lengths
  are the same natural numbers row by row (the counting identity), and both programs finish with the same
  operations on them, so the thirteen results agree as extended reals.

  Frames: the word-level kernel program and its idealization run their host lines, the region (its two output
  blocks zeroed at the first column block of a row block and added to at the seven later ones) and the host
  lines after it, ending with the three argument arrays as launched; the reference is a host program, whose run
  gives its frame. The idealization rewrote no operation, so there is nothing to preserve.
-/
import proofs.«428142_j77446850282051_3_alg».proof.Defs
import proofs.«428142_j77446850282051_3_alg».proof.Proof.Gen.Kernel
import proofs.«428142_j77446850282051_3_alg».proof.Proof.Gen.KernelIdeal
import proofs.«428142_j77446850282051_3_alg».proof.Proof.Gen.ReferenceIdeal
import proofs.«428142_j77446850282051_3_alg».proof.Proof.Gen.Pre_finite_inputs
import proofs.«428142_j77446850282051_3_alg».proof.Proof.RefFrame
import proofs.«428142_j77446850282051_3_alg».proof.Proof.KFrame
import proofs.«428142_j77446850282051_3_alg».proof.Proof.KBrame
import proofs.«428142_j77446850282051_3_alg».proof.Proof.KResult
import proofs.«428142_j77446850282051_3_alg».proof.Proof.RefResult
import proofs.«428142_j77446850282051_3_alg».proof.Proof.PreDecode

noncomputable section

namespace Cert.Proof

open Idealize.ShloMosaic Idealize.SL.Sem Idealize.ShloMosaic.ValueIdx Idealize.ShloMosaic.StableHlo
open Cert.KernelIdeal.HR (Mc)

/-- The word-level kernel program's frame. -/
theorem frame_k : Cert.frame_Kernel (hKernel := Cert.Kernel.Gen.facts) (hPre_finite_inputs := Cert.Pre_finite_inputs.Gen.facts) :=
  fun m ρ _ => Cert.Kernel.HF.frame (F := Bits) m ρ

/-- The idealized kernel program's frame. -/
theorem frame_ki : Cert.frame_KernelIdeal (hKernelIdeal := Cert.KernelIdeal.Gen.facts) (hPre_finite_inputs := Cert.Pre_finite_inputs.Gen.facts) :=
  fun m ρ _ => Cert.KernelIdeal.HF.frame (F := Ideal) m ρ

/-- At the ideal instance both programs end, from memories that agree on the arguments, with the shared tail of
    the reference's two counts: the kernel program by the counting identity on its corrected counts, the
    reference by reading its masked counts row by row. The label scores are one gather in both programs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hq : ∀ c : Dev Cert.KernelIdeal.nD, Cert.Spec.InRange (Cert.KernelIdeal.HPre.qM (Mc m c)) := fun c =>
    Cert.PreDecode.inRange_of_pre (F := Ideal) _ _ _ (hpre c)
  have hs' : ∀ c : Dev Cert.ReferenceIdeal.nD, Cert.ReferenceIdeal.HV.sF (launchContents m' c) = Cert.KernelIdeal.HPre.sM (Mc m c) := fun c => by
    funext b v
    show (m' ((c.tc : Thread Cert.ReferenceIdeal.nD Cert.ReferenceIdeal.τ).loc Cert.ReferenceIdeal.main_arg0) : FVec Ideal Cert.ReferenceIdeal.S256x128000 .f32) (ix2 b v) = _
    rw [(hagree c).1]
  have hq' : ∀ c : Dev Cert.ReferenceIdeal.nD, Cert.ReferenceIdeal.HV.qF (launchContents m' c) = Cert.KernelIdeal.HPre.qM (Mc m c) := fun c => by
    funext b l
    show (m' ((c.tc : Thread Cert.ReferenceIdeal.nD Cert.ReferenceIdeal.τ).loc Cert.ReferenceIdeal.main_arg2) : IVec Cert.ReferenceIdeal.S256x200 32) (ix2 b l) = _
    rw [(hagree c).2.2]
  have hp' : ∀ c : Dev Cert.ReferenceIdeal.nD, Cert.ReferenceIdeal.HV.pF (launchContents m' c) = Cert.KernelIdeal.HPre.pM (Mc m c) := fun c => by
    rw [Cert.KernelIdeal.HPre.pM_eq]
    funext b
    show Cert.ReferenceIdeal.HV.labelScores (launchContents m' c) (ix1 b) = _
    rw [Cert.ReferenceIdeal.HV.labelScores_agree (launchContents m' c) _ _ ((hagree c).1) ((hagree c).2.1)]
  refine ⟨fun c => Cert.Tail.tail (F := Ideal)
      (fun i => Cert.Spec.rankR (Cert.KernelIdeal.HPre.sM (Mc m c)) (Cert.KernelIdeal.HPre.pM (Mc m c)) (Cert.KernelIdeal.HPre.qM (Mc m c)) Cert.KernelIdeal.HPre.cst (i 0))
      (fun i => Cert.Spec.validR (Cert.KernelIdeal.HPre.sM (Mc m c)) (Cert.KernelIdeal.HPre.qM (Mc m c)) Cert.KernelIdeal.HPre.cst (i 0)), ?_, ?_⟩
  · refine (θ_run (Cert.KernelIdeal.defs (F := Ideal)) _ _).mono (fun _ h c => ⟨?_, ?_, ?_, ?_⟩) (Cert.KernelIdeal.HF.run_main (F := Ideal) m ρ)
    · exact ((h c).2 Cert.KernelIdeal.main_v152 Cert.KernelIdeal.HG.v152_rest).trans (Cert.KernelIdeal.HR.result m c (hq c))
    · exact ((h c).1 0).trans (((Cert.KernelIdeal.HF.dats m 0 c).arrAt_in 0 rfl _).trans
        ((Cert.KernelIdeal.HF.A_eq m c 0).trans (Cert.KernelIdeal.HF.V_arg m c Cert.KernelIdeal.main_arg0 (Or.inl rfl))))
    · exact ((h c).2 Cert.KernelIdeal.main_arg1 Cert.KernelIdeal.HG.arg1_rest).trans
        (Cert.KernelIdeal.HF.tail_arg m (Cert.KernelIdeal.HF.dats m) c Cert.KernelIdeal.main_arg1 (Or.inr (Or.inl rfl)) (by decide))
    · exact ((h c).2 Cert.KernelIdeal.main_arg2 Cert.KernelIdeal.HG.arg2_rest).trans
        (Cert.KernelIdeal.HF.tail_arg m (Cert.KernelIdeal.HF.dats m) c Cert.KernelIdeal.main_arg2 (Or.inr (Or.inr rfl)) (by decide))
  · refine (θ_run (Cert.ReferenceIdeal.defs (F := Ideal)) _ _).mono (fun _ h c => ⟨(h c).1.trans ?_, (h c).2⟩)
      (Cert.ReferenceIdeal.HV.run_rows m' ρ' (fun c => by rw [hq' c]; exact hq c))
    rw [hs' c, hp' c, hq' c]
    rfl

theorem claim : Cert.Claim := ⟨Cert.Kernel.Gen.facts, Cert.KernelIdeal.Gen.facts, Cert.ReferenceIdeal.Gen.facts, Cert.Pre_finite_inputs.Gen.facts,
  frame_k, frame_ki, Cert.Proof.Ref.frame_ri, trivial, algebraic⟩

end Cert.Proof

end
